-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v41_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v41_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S320000x256 : Shape := ⟨2, ![320000, 256]⟩
abbrev S3x256x256 : Shape := ⟨3, ![3, 256, 256]⟩
abbrev S3x256 : Shape := ⟨2, ![3, 256]⟩
abbrev S2x320000 : Shape := ⟨2, ![2, 320000]⟩
abbrev S320000 : Shape := ⟨1, ![320000]⟩
abbrev S_ : Shape := ⟨0, ![]⟩
abbrev S1x320000 : Shape := ⟨2, ![1, 320000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part2 {F : FTy → Type} [FloatOps F] (main_v29 : IVec S_ 1) (main_v34 : IVec S320000 1) : IVec S_ 1 :=
  let main_c_11 : IVec S_ 1 := constantI S_ 1 1#1
  let main_v35 : IVec S_ 1 := (fun x v => Host.reduce IntOp.andi x v reducesTo_S320000_S_d0 h_S_) main_v34 main_c_11
  let main_v36 : IVec S_ 1 := andi main_v29 main_v35
  main_v36

def fn_part1 {F : FTy → Type} [FloatOps F] (main_arg4 : IVec S2x320000 32) (main_arg5 : IVec S320000 32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : IVec S1x320000 32 := (extractStridedSlice S1x320000 ![0, 0] · slices_S2x320000_S1x320000_0_0) main_arg4
  let main_v20 : IVec S320000 32 := shapeCast S320000 main_v19 shapeCasts_S1x320000_S320000
  let main_c_6 : IVec S_ 32 := constantI S_ 32 0#32
  let main_v21 : IVec S320000 32 := broadcastInDim S320000 ![] bcast_S_S320000 main_c_6
  let main_v22 : IVec S320000 1 := cmpi .sge main_v20 main_v21
  let main_v23 : IVec S1x320000 32 := (extractStridedSlice S1x320000 ![0, 0] · slices_S2x320000_S1x320000_0_0) main_arg4
  let main_v24 : IVec S320000 32 := shapeCast S320000 main_v23 shapeCasts_S1x320000_S320000
  let main_c_7 : IVec S_ 32 := constantI S_ 32 100000#32
  let main_v25 : IVec S320000 32 := broadcastInDim S320000 ![] bcast_S_S320000 main_c_7
  let main_v26 : IVec S320000 1 := cmpi .slt main_v24 main_v25
  let main_v27 : IVec S320000 1 := andi main_v22 main_v26
  let main_c_8 : IVec S_ 1 := constantI S_ 1 1#1
  let main_v28 : IVec S_ 1 := (fun x v => Host.reduce IntOp.andi x v reducesTo_S320000_S_d0 h_S_) main_v27 main_c_8
  let main_v29 : IVec S_ 1 := andi main_v18 main_v28
  let main_c_9 : IVec S_ 32 := constantI S_ 32 0#32
  let main_v30 : IVec S320000 32 := broadcastInDim S320000 ![] bcast_S_S320000 main_c_9
  let main_v31 : IVec S320000 1 := cmpi .sge main_arg5 main_v30
  let main_c_10 : IVec S_ 32 := constantI S_ 32 320000#32
  let main_v32 : IVec S320000 32 := broadcastInDim S320000 ![] bcast_S_S320000 main_c_10
  let main_v33 : IVec S320000 1 := cmpi .slt main_arg5 main_v32
  let main_v34 : IVec S320000 1 := andi main_v31 main_v33
  fn_part2 (F := F) main_v29 main_v34

def fn {F : FTy → Type} [FloatOps F] (main_arg0 : FVec F S100000x256 .f32) (main_arg1 : FVec F S320000x256 .f32) (main_arg2 : FVec F S3x256x256 .f32) (main_arg3 : FVec F S3x256 .f32) (main_arg4 : IVec S2x320000 32) (main_arg5 : IVec S320000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg4 main_arg5 main_v13 main_v16
-- ==== Kernel.lean ====
abbrev S100000x256 : Shape := ⟨2, ![100000, 256]⟩
abbrev S320000x256 : Shape := ⟨2, ![320000, 256]⟩
abbrev S3x256x256 : Shape := ⟨3, ![3, 256, 256]⟩
abbrev S3x256 : Shape := ⟨2, ![3, 256]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S2000x256 : Shape := ⟨2, ![2000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 213
  | .vmem => 44
  | .smem => 0
  | _ => 0

abbrev hbmTy0_0 (i : Nat) : BufTy := match i % 128 with
  | 0 => ⟨S100000x256, .f32⟩
  | 1 => ⟨S320000x256, .f32⟩
  | 2 => ⟨S3x256x256, .f32⟩
  | 3 => ⟨S3x256, .f32⟩
  | 4 => ⟨S2x320000, .i32⟩
  | 5 => ⟨S320000, .i32⟩
  | 6 => ⟨S1x320000, .i32⟩
  | 7 => ⟨S320000, .i32⟩
  | 8 => ⟨S1x320000, .i32⟩
  | 9 => ⟨S320000, .i32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S1, .i32⟩
  | 19 => ⟨S_, .i32⟩
  | 20 => ⟨S320000x1, .i32⟩
  | 21 => ⟨S320000x1, .i1⟩
  | 22 => ⟨S1x1, .i32⟩
  | 23 => ⟨S320000x1, .i32⟩
  | 24 => ⟨S320000x1, .i1⟩
  | 25 => ⟨S320000x1, .i1⟩
  | 26 => ⟨S_, .i1⟩
  | 27 => ⟨S320000, .i1⟩
  | 28 => ⟨S320000x256, .f32⟩
  | 29 => ⟨S320000x256, .i1⟩
  | 30 => ⟨S_, .f32⟩
  | 31 => ⟨S320000x256, .f32⟩
  | 32 => ⟨S320000x256, .f32⟩
  | 33 => ⟨S320000x256, .f32⟩
  | 34 => ⟨S320000x256, .f32⟩
  | 35 => ⟨S_, .f32⟩
  | 36 => ⟨S100000x256, .f32⟩
  | 37 => ⟨S320000x1, .i32⟩
  | 38 => ⟨S100000x256, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S1, .i32⟩
  | 48 => ⟨S_, .i32⟩
  | 49 => ⟨S320000x1, .i32⟩
  | 50 => ⟨S320000x1, .i1⟩
  | 51 => ⟨S1x1, .i32⟩
  | 52 => ⟨S320000x1, .i32⟩
  | 53 => ⟨S320000x1, .i1⟩
  | 54 => ⟨S320000x1, .i1⟩
  | 55 => ⟨S_, .i1⟩
  | 56 => ⟨S320000, .i1⟩
  | 57 => ⟨S320000x256, .f32⟩
  | 58 => ⟨S320000x256, .i1⟩
  | 59 => ⟨S_, .f32⟩
  | 60 => ⟨S320000x256, .f32⟩
  | 61 => ⟨S320000x256, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S1, .i32⟩
  | 71 => ⟨S_, .i32⟩
  | 72 => ⟨S320000x1, .i32⟩
  | 73 => ⟨S320000x1, .i1⟩
  | 74 => ⟨S1x1, .i32⟩
  | 75 => ⟨S320000x1, .i32⟩
  | 76 => ⟨S320000x1, .i1⟩
  | 77 => ⟨S320000x1, .i1⟩
  | 78 => ⟨S_, .i1⟩
  | 79 => ⟨S320000, .i1⟩
  | 80 => ⟨S320000x256, .f32⟩
  | 81 => ⟨S320000x256, .i1⟩
  | 82 => ⟨S_, .f32⟩
  | 83 => ⟨S320000x256, .f32⟩
  | 84 => ⟨S320000x256, .f32⟩
  | 85 => ⟨S1x256x256, .f32⟩
  | 86 => ⟨S256x256, .f32⟩
  | 87 => ⟨S256x256, .f32⟩
  | 88 => ⟨S1x256, .f32⟩
  | 89 => ⟨S256, .f32⟩
  | 90 => ⟨S1x256, .f32⟩
  | 91 => ⟨S320000x256, .f32⟩
  | 92 => ⟨S320000x256, .f32⟩
  | 93 => ⟨S_, .f32⟩
  | 94 => ⟨S100000x256, .f32⟩
  | 95 => ⟨S320000x1, .i32⟩
  | 96 => ⟨S100000x256, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S1, .i32⟩
  | 106 => ⟨S_, .i32⟩
  | 107 => ⟨S320000x1, .i32⟩
  | 108 => ⟨S320000x1, .i1⟩
  | 109 => ⟨S1x1, .i32⟩
  | 110 => ⟨S320000x1, .i32⟩
  | 111 => ⟨S320000x1, .i1⟩
  | 112 => ⟨S320000x1, .i1⟩
  | 113 => ⟨S_, .i1⟩
  | 114 => ⟨S320000, .i1⟩
  | 115 => ⟨S320000x256, .f32⟩
  | 116 => ⟨S320000x256, .i1⟩
  | 117 => ⟨S_, .f32⟩
  | 118 => ⟨S320000x256, .f32⟩
  | 119 => ⟨S320000x256, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S100000x256, .f32⟩

abbrev hbmTy0_1 (i : Nat) : BufTy := match i % 128 with
  | 0 => ⟨S1, .i32⟩
  | 1 => ⟨S_, .i32⟩
  | 2 => ⟨S320000x1, .i32⟩
  | 3 => ⟨S320000x1, .i1⟩
  | 4 => ⟨S1x1, .i32⟩
  | 5 => ⟨S320000x1, .i32⟩
  | 6 => ⟨S320000x1, .i1⟩
  | 7 => ⟨S320000x1, .i1⟩
  | 8 => ⟨S_, .i1⟩
  | 9 => ⟨S320000, .i1⟩
  | 10 => ⟨S320000x256, .f32⟩
  | 11 => ⟨S320000x256, .i1⟩
  | 12 => ⟨S_, .f32⟩
  | 13 => ⟨S320000x256, .f32⟩
  | 14 => ⟨S320000x256, .f32⟩
  | 15 => ⟨S1x256x256, .f32⟩
  | 16 => ⟨S256x256, .f32⟩
  | 17 => ⟨S256x256, .f32⟩
  | 18 => ⟨S1x256, .f32⟩
  | 19 => ⟨S256, .f32⟩
  | 20 => ⟨S1x256, .f32⟩
  | 21 => ⟨S320000x256, .f32⟩
  | 22 => ⟨S320000x256, .f32⟩
  | 23 => ⟨S_, .f32⟩
  | 24 => ⟨S100000x256, .f32⟩
  | 25 => ⟨S320000x1, .i32⟩
  | 26 => ⟨S100000x256, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S1, .i32⟩
  | 36 => ⟨S_, .i32⟩
  | 37 => ⟨S320000x1, .i32⟩
  | 38 => ⟨S320000x1, .i1⟩
  | 39 => ⟨S1x1, .i32⟩
  | 40 => ⟨S320000x1, .i32⟩
  | 41 => ⟨S320000x1, .i1⟩
  | 42 => ⟨S320000x1, .i1⟩
  | 43 => ⟨S_, .i1⟩
  | 44 => ⟨S320000, .i1⟩
  | 45 => ⟨S320000x256, .f32⟩
  | 46 => ⟨S320000x256, .i1⟩
  | 47 => ⟨S_, .f32⟩
  | 48 => ⟨S320000x256, .f32⟩
  | 49 => ⟨S320000x256, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S1, .i32⟩
  | 59 => ⟨S_, .i32⟩
  | 60 => ⟨S320000x1, .i32⟩
  | 61 => ⟨S320000x1, .i1⟩
  | 62 => ⟨S1x1, .i32⟩
  | 63 => ⟨S320000x1, .i32⟩
  | 64 => ⟨S320000x1, .i1⟩
  | 65 => ⟨S320000x1, .i1⟩
  | 66 => ⟨S_, .i1⟩
  | 67 => ⟨S320000, .i1⟩
  | 68 => ⟨S320000x256, .f32⟩
  | 69 => ⟨S320000x256, .i1⟩
  | 70 => ⟨S_, .f32⟩
  | 71 => ⟨S320000x256, .f32⟩
  | 72 => ⟨S320000x256, .f32⟩
  | 73 => ⟨S1x256x256, .f32⟩
  | 74 => ⟨S256x256, .f32⟩
  | 75 => ⟨S256x256, .f32⟩
  | 76 => ⟨S1x256, .f32⟩
  | 77 => ⟨S256, .f32⟩
  | 78 => ⟨S1x256, .f32⟩
  | 79 => ⟨S320000x256, .f32⟩
  | 80 => ⟨S320000x256, .f32⟩
  | 81 => ⟨S_, .f32⟩
  | 82 => ⟨S100000x256, .f32⟩
  | 83 => ⟨S320000x1, .i32⟩
  | 84 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5_0 : Ref sig .tc := ⟨.hbm, 33, rfl⟩
abbrev main_v5_1 : Ref sig .tc := ⟨.hbm, 34, rfl⟩
abbrev main_cst : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17_0 : Ref sig .tc := ⟨.hbm, 91, rfl⟩
abbrev main_v17_1 : Ref sig .tc := ⟨.hbm, 92, rfl⟩
abbrev main_cst_0 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v21 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v22 : Ref sig .tc := ⟨.hbm, 142, rfl⟩
abbrev main_v23 : Ref sig .tc := ⟨.hbm, 143, rfl⟩
abbrev main_v24 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_v29_0 : Ref sig .tc := ⟨.hbm, 149, rfl⟩
abbrev main_v29_1 : Ref sig .tc := ⟨.hbm, 150, rfl⟩
abbrev main_cst_1 : Ref sig .tc := ⟨.hbm, 151, rfl⟩
abbrev main_v30 : Ref sig .tc := ⟨.hbm, 152, rfl⟩
abbrev main_v31 : Ref sig .tc := ⟨.hbm, 153, rfl⟩
abbrev main_v32 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v33 : Ref sig .tc := ⟨.hbm, 177, rfl⟩
abbrev main_call6_c : Ref sig .tc := ⟨.hbm, 178, rfl⟩
abbrev main_call6_v0 : Ref sig .tc := ⟨.hbm, 179, rfl⟩
abbrev main_call6_v1 : Ref sig .tc := ⟨.hbm, 180, rfl⟩
abbrev main_call6_c_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_c_1 : Ref sig .tc := ⟨.hbm, 186, rfl⟩
abbrev main_call6_c_2 : Ref sig .tc := ⟨.hbm, 187, rfl⟩
abbrev main_call6_v6 : Ref sig .tc := ⟨.hbm, 188, rfl⟩
abbrev main_call6_v7 : Ref sig .tc := ⟨.hbm, 189, rfl⟩
abbrev main_call6_v8 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_c_3 : Ref sig .tc := ⟨.hbm, 194, rfl⟩
abbrev main_call6_v12 : Ref sig .tc := ⟨.hbm, 195, rfl⟩
abbrev main_call6_v13 : Ref sig .tc := ⟨.hbm, 196, rfl⟩
abbrev main_call6_v14 : Ref sig .tc := ⟨.hbm, 197, rfl⟩
abbrev main_call6_cst : Ref sig .tc := ⟨.hbm, 198, rfl⟩
abbrev main_call6_v15 : Ref sig .tc := ⟨.hbm, 199, rfl⟩
abbrev main_v34 : Ref sig .tc := ⟨.hbm, 200, rfl⟩
abbrev main_v35 : Ref sig .tc := ⟨.hbm, 201, rfl⟩
abbrev main_v36 : Ref sig .tc := ⟨.hbm, 202, rfl⟩
abbrev main_v37 : Ref sig .tc := ⟨.hbm, 203, rfl⟩
abbrev main_v38 : Ref sig .tc := ⟨.hbm, 204, rfl⟩
abbrev main_v39 : Ref sig .tc := ⟨.hbm, 205, rfl⟩
abbrev main_v40 : Ref sig .tc := ⟨.hbm, 206, rfl⟩
abbrev main_v41_0 : Ref sig .tc := ⟨.hbm, 207, rfl⟩
abbrev main_v41_1 : Ref sig .tc := ⟨.hbm, 208, rfl⟩
abbrev main_cst_2 : Ref sig .tc := ⟨.hbm, 209, rfl⟩
abbrev main_v42 : Ref sig .tc := ⟨.hbm, 210, rfl⟩
abbrev main_v43 : Ref sig .tc := ⟨.hbm, 211, rfl⟩
abbrev main_v44 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  gather_S320000x256_S320000x1_S320000x256_1_0_n_n_0_1_1256_wf : GatherDims.WF S320000x256 S320000x1 S320000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S320000x256.size a
  hwx0_0 : ∀ i : grid0.Coords, EltTy.bits .f32 = 32 ∨ (Rect.block (s := S320000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S320000x256.size a
  hwx0_1 : ∀ i : grid0.Coords, EltTy.bits .f32 = 32 ∨ (Rect.block (s := S320000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S320000x256.size a
  hwx0_2 : ∀ i : grid0.Coords, EltTy.bits .f32 = 32 ∨ (Rect.block (s := S320000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S320000x256.size a
  hwx0_3 : ∀ i : grid0.Coords, EltTy.bits .f32 = 32 ∨ (Rect.block (s := S320000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S320000x256.size a
  hwx1_1 : ∀ i : grid1.Coords, EltTy.bits .f32 = 32 ∨ (Rect.block (s := S320000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S320000x256.size a
  hwx1_2 : ∀ i : grid1.Coords, EltTy.bits .f32 = 32 ∨ (Rect.block (s := S320000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S320000x256.size a
  hwx1_5 : ∀ i : grid1.Coords, EltTy.bits .f32 = 32 ∨ (Rect.block (s := S320000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S320000x256.size a
  hwx1_6 : ∀ i : grid1.Coords, EltTy.bits .f32 = 32 ∨ (Rect.block (s := S320000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S320000x256.size a
  hwx2_0 : ∀ i : grid2.Coords, EltTy.bits .f32 = 32 ∨ (Rect.block (s := S320000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S320000x256.size a
  hwx2_1 : ∀ i : grid2.Coords, EltTy.bits .f32 = 32 ∨ (Rect.block (s := S320000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S320000x256.size a
  hwx2_2 : ∀ i : grid2.Coords, EltTy.bits .f32 = 32 ∨ (Rect.block (s := S320000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S320000x256.size a
  hwx2_5 : ∀ i : grid2.Coords, EltTy.bits .f32 = 32 ∨ (Rect.block (s := S320000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S320000x256.size a
  hwx2_6 : ∀ i : grid2.Coords, EltTy.bits .f32 = 32 ∨ (Rect.block (s := S320000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S320000x256.size a
  hwx3_0 : ∀ i : grid3.Coords, EltTy.bits .f32 = 32 ∨ (Rect.block (s := S320000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S320000x256.size a
  hwx3_1 : ∀ i : grid3.Coords, EltTy.bits .f32 = 32 ∨ (Rect.block (s := S320000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S320000x256.size a
  hwx3_2 : ∀ i : grid3.Coords, EltTy.bits .f32 = 32 ∨ (Rect.block (s := S320000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S320000x256.size a
  hwx3_5 : ∀ i : grid3.Coords, EltTy.bits .f32 = 32 ∨ (Rect.block (s := S320000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S320000x256.size a
  hwx3_6 : ∀ i : grid3.Coords, EltTy.bits .f32 = 32 ∨ (Rect.block (s := S320000x256) S2000x256.size (cc3_transform_6 i) (hinb3_6 i)).WholeWords (EltTy.packing .f32)

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def gather_S320000x256_S320000x1_S320000x256_1_0_n_n_0_1_1256 : GatherDims S320000x256 S320000x1 S320000x256 where
  offsetDims := [1]
  collapsedSliceDims := [0]
  operandBatchingDims := []
  startIndicesBatchingDims := []
  startIndexMap := [0]
  indexVectorDim := 1
  sliceSizes := ![1, 256]
  wf := gather_S320000x256_S320000x1_S320000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_0) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v33) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29_0) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x256 : Shape := ⟨2, ![100000, 256]⟩
abbrev S320000x256 : Shape := ⟨2, ![320000, 256]⟩
abbrev S3x256x256 : Shape := ⟨3, ![3, 256, 256]⟩
abbrev S3x256 : Shape := ⟨2, ![3, 256]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S320000x1 : Shape := ⟨2, ![320000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S320000x256, .f32⟩
  | 2 => ⟨S3x256x256, .f32⟩
  | 3 => ⟨S3x256, .f32⟩
  | 4 => ⟨S2x320000, .i32⟩
  | 5 => ⟨S320000, .i32⟩
  | 6 => ⟨S1x320000, .i32⟩
  | 7 => ⟨S320000, .i32⟩
  | 8 => ⟨S1x320000, .i32⟩
  | 9 => ⟨S320000, .i32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000x256, .f32⟩
  | 19 => ⟨S320000x256, .f32⟩
  | 20 => ⟨S_, .f32⟩
  | 21 => ⟨S320000x256, .f32⟩
  | 22 => ⟨S320000x256, .f32⟩
  | 23 => ⟨S_, .f32⟩
  | 24 => ⟨S100000x256, .f32⟩
  | 25 => ⟨S320000x1, .i32⟩
  | 26 => ⟨S100000x256, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x256, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x256, .f32⟩
  | 45 => ⟨S320000x256, .f32⟩
  | 46 => ⟨S1x256x256, .f32⟩
  | 47 => ⟨S256x256, .f32⟩
  | 48 => ⟨S256x256, .f32⟩
  | 49 => ⟨S320000x256, .f32⟩
  | 50 => ⟨S1x256, .f32⟩
  | 51 => ⟨S256, .f32⟩
  | 52 => ⟨S1x256, .f32⟩
  | 53 => ⟨S320000x256, .f32⟩
  | 54 => ⟨S320000x256, .f32⟩
  | 55 => ⟨S320000x256, .f32⟩
  | 56 => ⟨S_, .f32⟩
  | 57 => ⟨S320000x256, .f32⟩
  | 58 => ⟨S320000x256, .f32⟩
  | 59 => ⟨S_, .f32⟩
  | 60 => ⟨S100000x256, .f32⟩
  | 61 => ⟨S320000x1, .i32⟩
  | 62 => ⟨S100000x256, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x256, .f32⟩
  | 81 => ⟨S320000x256, .f32⟩
  | 82 => ⟨S1x256x256, .f32⟩
  | 83 => ⟨S256x256, .f32⟩
  | 84 => ⟨S256x256, .f32⟩
  | 85 => ⟨S320000x256, .f32⟩
  | 86 => ⟨S1x256, .f32⟩
  | 87 => ⟨S256, .f32⟩
  | 88 => ⟨S1x256, .f32⟩
  | 89 => ⟨S320000x256, .f32⟩
  | 90 => ⟨S320000x256, .f32⟩
  | 91 => ⟨S320000x256, .f32⟩
  | 92 => ⟨S_, .f32⟩
  | 93 => ⟨S320000x256, .f32⟩
  | 94 => ⟨S320000x256, .f32⟩
  | 95 => ⟨S_, .f32⟩
  | 96 => ⟨S100000x256, .f32⟩
  | 97 => ⟨S320000x1, .i32⟩
  | 98 => ⟨S100000x256, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x256, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S320000x256, .f32⟩
  | 118 => ⟨S1x256x256, .f32⟩
  | 119 => ⟨S256x256, .f32⟩
  | 120 => ⟨S256x256, .f32⟩
  | 121 => ⟨S320000x256, .f32⟩
  | 122 => ⟨S1x256, .f32⟩
  | 123 => ⟨S256, .f32⟩
  | 124 => ⟨S1x256, .f32⟩
  | 125 => ⟨S320000x256, .f32⟩
  | 126 => ⟨S320000x256, .f32⟩
  | 127 => ⟨S320000x256, .f32⟩
  | _ => ⟨S100000x256, .f32⟩

abbrev hbmTy0_1 (i : Nat) : BufTy := match i % 128 with
  | 0 => ⟨S_, .f32⟩
  | 1 => ⟨S100000x256, .f32⟩
  | 2 => ⟨S320000x1, .i32⟩
  | 3 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call1_cst : Ref sig .tc := ⟨.hbm, 56, rfl⟩
abbrev main_call1_v0 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call2_cst : Ref sig .tc := ⟨.hbm, 92, rfl⟩
abbrev main_call2_v0 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_c_12 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_13 : Ref sig .tc := ⟨.hbm, 108, rfl⟩
abbrev main_v81 : Ref sig .tc := ⟨.hbm, 109, rfl⟩
abbrev main_v82 : Ref sig .tc := ⟨.hbm, 110, rfl⟩
abbrev main_c_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_15 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  gather_S320000x256_S320000x1_S320000x256_1_0_n_n_0_1_1256_wf : GatherDims.WF S320000x256 S320000x1 S320000x256 [1] [0] [] [0] [] 1 ![1, 256]
  dot_S320000x256_S256x256_S320000x256_1_0_0_1_n_n_wf : DotDims.WF S320000x256 S256x256 S320000x256 [1] [0] [0] [1] [] []

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def gather_S320000x256_S320000x1_S320000x256_1_0_n_n_0_1_1256 : GatherDims S320000x256 S320000x1 S320000x256 where
  offsetDims := [1]
  collapsedSliceDims := [0]
  operandBatchingDims := []
  startIndicesBatchingDims := []
  startIndexMap := [0]
  indexVectorDim := 1
  sliceSizes := ![1, 256]
  wf := gather_S320000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.RSpec.lean ====
/-
  The reference's message passing, stage by stage, as functions of whole arrays — the vocabulary in which both programs'
  results are stated. Nodes carry rows of 256 features, each of the 320000 directed edges a source and a destination
  node and the index of its reverse edge.
    H₀ = V[src] + E,          A_l = max(H_l, 0),
    M_l = the sum of A_l's rows by destination node (a row per node),
    H_{l+1} = H_l + ((M_l[src] - A_l[rev]) · W_lᵀ + b_l),     l = 0, 1, 2,
  and the two results are the sum of H₃'s rows by source node, and H₃.
  A row index below zero is first moved up by the number of rows (the wrap of a negative index); the gather then reads the row.
-/
import proofs.«415223_j55130200212263_1_alg».proof.ReferenceIdeal
import proofs.«415223_j55130200212263_1_alg».proof.Proof.Gen.ReferenceIdeal

noncomputable section

namespace Cert.ReferenceIdeal.Spec

open Cert.ReferenceIdeal Cert.ReferenceIdeal.Gen Idealize.ShloMosaic

variable {F : FTy → Type} [FloatOps F]

/-- Row `r` of the [2, 320000] edge table as a vector: row 0 the sources, row 1 the destinations. -/
def srcOf (e : IVec S2x320000 32) : IVec S320000 32 :=
  shapeCast S320000 (extractStridedSlice S1x320000 ![0, 0] e slices_S2x320000_S1x320000_0_0) shapeCasts_S1x320000_S320000
def destOf (e : IVec S2x320000 32) : IVec S320000 32 :=
  shapeCast S320000 (extractStridedSlice S1x320000 ![1, 0] e slices_S2x320000_S1x320000_1_0) shapeCasts_S1x320000_S320000

/-- An index vector as the [320000, 1] column of start indices a gather or scatter takes. -/
def col (idx : IVec S320000 32) : IVec S320000x1 32 := broadcastInDim S320000x1 ![0] bcast_S320000_S320000x1_0 idx

/-- The wrap of negative indices into an axis of `n` rows: `idx + n` where `idx < 0`, else `idx`. -/
def wrap (n : BitVec 32) (idx : IVec S320000 32) : IVec S320000 32 :=
  select (cmpi .slt idx (broadcastInDim S320000 ![] bcast_S_S320000 (constantI S_ 32 0#32)))
    (addi idx (broadcastInDim S320000 ![] bcast_S_S320000 (constantI S_ 32 n))) idx

/-- Rows of a per-node array taken at (wrapped) node indices; rows of a per-edge array taken at (wrapped) edge indices. -/
def takeNode (x : FVec F S100000x256 .f32) (idx : IVec S320000 32) : FVec F S320000x256 .f32 :=
  Host.gather gather_S100000x256_S320000x1_S320000x256_1_0_n_n_0_1_1256 x (col (wrap 100000#32 idx))
def takeEdge (x : FVec F S320000x256 .f32) (idx : IVec S320000 32) : FVec F S320000x256 .f32 :=
  Host.gather gather_S320000x256_S320000x1_S320000x256_1_0_n_n_0_1_1256 x (col (wrap 320000#32 idx))

/-- The per-edge rows summed into their segment's node row, from zero. -/
def segSum (a : FVec F S320000x256 .f32) (seg : IVec S320000 32) : FVec F S100000x256 .f32 :=
  Host.scatterAdd scatter_S100000x256_S320000x1_S320000x256_1_0_0_1
    (broadcastInDim S100000x256 ![] bcast_S_S100000x256 (constant S_ .f32 0x00000000#32)) (col seg) a

/-- The positive part, entry by entry. -/
def relu (h : FVec F S320000x256 .f32) : FVec F S320000x256 .f32 :=
  maximumf h (broadcastInDim S320000x256 ![] bcast_S_S320000x256 (constant S_ .f32 0x00000000#32))

/-- Layer `l`'s weight matrix transposed, and its bias as one row. -/
def wT0 (w : FVec F S3x256x256 .f32) : FVec F S256x256 .f32 :=
  transpose S256x256 [1, 0] (shapeCast S256x256 (extractStridedSlice S1x256x256 ![0, 0, 0] w slices_S3x256x256_S1x256x256_0_0_0) shapeCasts_S1x256x256_S256x256) transposes_S256x256_S256x256_1_0
def wT1 (w : FVec F S3x256x256 .f32) : FVec F S256x256 .f32 :=
  transpose S256x256 [1, 0] (shapeCast S256x256 (extractStridedSlice S1x256x256 ![1, 0, 0] w slices_S3x256x256_S1x256x256_1_0_0) shapeCasts_S1x256x256_S256x256) transposes_S256x256_S256x256_1_0
def wT2 (w : FVec F S3x256x256 .f32) : FVec F S256x256 .f32 :=
  transpose S256x256 [1, 0] (shapeCast S256x256 (extractStridedSlice S1x256x256 ![2, 0, 0] w slices_S3x256x256_S1x256x256_2_0_0) shapeCasts_S1x256x256_S256x256) transposes_S256x256_S256x256_1_0
def bRow0 (b : FVec F S3x256 .f32) : FVec F S1x256 .f32 :=
  broadcastInDim S1x256 ![1] bcast_S256_S1x256_1 (shapeCast S256 (extractStridedSlice S1x256 ![0, 0] b slices_S3x256_S1x256_0_0) shapeCasts_S1x256_S256)
def bRow1 (b : FVec F S3x256 .f32) : FVec F S1x256 .f32 :=
  broadcastInDim S1x256 ![1] bcast_S256_S1x256_1 (shapeCast S256 (extractStridedSlice S1x256 ![1, 0] b slices_S3x256_S1x256_1_0) shapeCasts_S1x256_S256)
def bRow2 (b : FVec F S3x256 .f32) : FVec F S1x256 .f32 :=
  broadcastInDim S1x256 ![1] bcast_S256_S1x256_1 (shapeCast S256 (extractStridedSlice S1x256 ![2, 0] b slices_S3x256_S1x256_2_0) shapeCasts_S1x256_S256)

/-- The linear map of one layer applied to every edge row: `x · wt`, and the bias row laid over all edges. -/
def lin (x : FVec F S320000x256 .f32) (wt : FVec F S256x256 .f32) : FVec F S320000x256 .f32 :=
  Host.dotGeneral dot_S320000x256_S256x256_S320000x256_1_0_0_1_n_n none x wt
def bAll (br : FVec F S1x256 .f32) : FVec F S320000x256 .f32 :=
  broadcastInDim S320000x256 ![0, 1] bcast_S1x256_S320000x256_0_1 br

/-- One layer as the reference groups it: `h + ((mv - ar) · wt + b)`. -/
def layerRef (mv ar h : FVec F S320000x256 .f32) (wt : FVec F S256x256 .f32) (br : FVec F S1x256 .f32) : FVec F S320000x256 .f32 :=
  addf h (addf (lin (subf mv ar) wt) (bAll br))
/-- The same layer as the kernel groups it: `(h + (mv - ar) · wt) + b`. -/
def layerKer (mv ar h : FVec F S320000x256 .f32) (wt : FVec F S256x256 .f32) (br : FVec F S1x256 .f32) : FVec F S320000x256 .f32 :=
  addf (addf h (lin (subf mv ar) wt)) (bAll br)

/-- The hidden edge states after the initial pass and after each of the three layers, as the reference computes them. -/
def h0 (v : FVec F S100000x256 .f32) (e : FVec F S320000x256 .f32) (ei : IVec S2x320000 32) : FVec F S320000x256 .f32 :=
  addf (takeNode v (srcOf ei)) e
def stepRef (h : FVec F S320000x256 .f32) (ei : IVec S2x320000 32) (rev : IVec S320000 32)
    (wt : FVec F S256x256 .f32) (br : FVec F S1x256 .f32) : FVec F S320000x256 .f32 :=
  layerRef (takeNode (segSum (relu h) (destOf ei)) (srcOf ei)) (takeEdge (relu h) rev) h wt br
def h1 (v : FVec F S100000x256 .f32) (e : FVec F S320000x256 .f32) (w : FVec F S3x256x256 .f32) (b : FVec F S3x256 .f32)
    (ei : IVec S2x320000 32) (rev : IVec S320000 32) : FVec F S320000x256 .f32 :=
  stepRef (h0 v e ei) ei rev (wT0 w) (bRow0 b)
def h2 (v : FVec F S100000x256 .f32) (e : FVec F S320000x256 .f32) (w : FVec F S3x256x256 .f32) (b : FVec F S3x256 .f32)
    (ei : IVec S2x320000 32) (rev : IVec S320000 32) : FVec F S320000x256 .f32 :=
  stepRef (h1 v e w b ei rev) ei rev (wT1 w) (bRow1 b)
def h3 (v : FVec F S100000x256 .f32) (e : FVec F S320000x256 .f32) (w : FVec F S3x256x256 .f32) (b : FVec F S3x256 .f32)
    (ei : IVec S2x320000 32) (rev : IVec S320000 32) : FVec F S320000x256 .f32 :=
  stepRef (h2 v e w b ei rev) ei rev (wT2 w) (bRow2 b)
/-- The node output: `h3`'s rows summed by source node. -/
def vOut (v : FVec F S100000x256 .f32) (e : FVec F S320000x256 .f32) (w : FVec F S3x256x256 .f32) (b : FVec F S3x256 .f32)
    (ei : IVec S2x320000 32) (rev : IVec S320000 32) : FVec F S100000x256 .f32 :=
  segSum (h3 v e w b ei rev) (srcOf ei)

end Cert.ReferenceIdeal.Spec

end
-- ==== Proof.TakeFill.lean ====
import proofs.«415223_j55130200212263_1_alg».proof.Defs
import proofs.«415223_j55130200212263_1_alg».proof.Proof.Gen.KernelIdeal
import proofs.«415223_j55130200212263_1_alg».proof.Proof.Gen.Pre_finite_inputs
import proofs.«415223_j55130200212263_1_alg».proof.Proof.RSpec
import Idealize.ShloMosaic.Lib.ReduceAll
import Idealize.ShloMosaic.Lib.StableHlo.Predicate
import Idealize.ShloMosaic.Lib.Pipeline.Value

noncomputable section

namespace Cert.KernelIdeal.HandTake

open Cert.KernelIdeal Cert.KernelIdeal.Gen Idealize.ShloMosaic Idealize.ShloMosaic.TcCoe Idealize.SL.Sem

variable {F : FTy → Type} [FloatOps F]

/-- Every index is a row of an axis of `n` rows: `0 ≤ idx i < n`, signed. -/
def InRange (n : BitVec 32) (idx : IVec S320000 32) : Prop :=
  ∀ i, IntOp.cmpi .sge (idx i) 0#32 = 1#1 ∧ IntOp.cmpi .slt (idx i) n = 1#1

/-- The kernel's row indices: the wrap of negative indices into `n` rows, as a [320000, 1] column. -/
def wcol (n : BitVec 32) (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 n))) idx)

/-- The kernel's in-bounds mask of a column of row indices, laid over the 256 features: `0 ≤ w ≤ hi`. -/
def inb (hi : BitVec 32) (w : IVec S320000x1 32) : IVec S320000x256 1 :=
  broadcastInDim S320000x256 ![0] bcast_S320000_S320000x256_0
    (Host.reduce IntOp.andi
      (andi (cmpi .sge w (broadcastInDim S320000x1 ![] bcast_S_S320000x1 (constantI S_ 32 0#32)))
        (cmpi .sle w (broadcastInDim S320000x1 ![0, 1] bcast_S1x1_S320000x1_0_1 (broadcastInDim S1x1 ![1] bcast_S1_S1x1_1 (constantI S1 32 hi)))))
      (constantI S_ 1 1#1) reducesTo_S320000x1_S320000_d1 h_S_)

/-- The fill the kernel's take puts where a row index is out of bounds. -/
def nanFill : FVec F S320000x256 .f32 := broadcastInDim S320000x256 ![] bcast_S_S320000x256 (constant S_ .f32 0x7FC00000#32)

/-- The kernel's take of node rows and of edge rows: the gathered row where the index is in bounds, the fill elsewhere. -/
def takeNodeK (x : FVec F S100000x256 .f32) (idx : IVec S320000 32) : FVec F S320000x256 .f32 :=
  select (inb 99999#32 (wcol 100000#32 idx))
    (Host.gather gather_S100000x256_S320000x1_S320000x256_1_0_n_n_0_1_1256 x (wcol 100000#32 idx)) nanFill
def takeEdgeK (x : FVec F S320000x256 .f32) (idx : IVec S320000 32) : FVec F S320000x256 .f32 :=
  select (inb 319999#32 (wcol 320000#32 idx))
    (Host.gather gather_S320000x256_S320000x1_S320000x256_1_0_n_n_0_1_1256 x (wcol 320000#32 idx)) nanFill

/-! ### Words: an index that is a row needs no wrap and passes the bounds test -/

/-- A nonnegative word is not below zero, so the wrap keeps it. -/
theorem wrap_word {w n : BitVec 32} (h0 : IntOp.cmpi .sge w 0#32 = 1#1) :
    Scalar.select (IntOp.cmpi .slt w 0#32) (IntOp.addi w n) w = w := by
  have hz : (0#32 : BitVec 32).toInt = 0 := by decide
  have h := IntOp.cmpi_sge.1 h0
  have hn : ¬ IntOp.cmpi .slt w 0#32 = 1#1 := fun e => by
    have := IntOp.cmpi_slt.1 e
    omega
  exact if_neg hn

/-- `0 ≤ w < n` is `0 ≤ w ≤ hi` when `hi` is one below `n`. -/
theorem mask_word {w n hi : BitVec 32} (hhi : n.toInt = hi.toInt + 1)
    (h0 : IntOp.cmpi .sge w 0#32 = 1#1) (h1 : IntOp.cmpi .slt w n = 1#1) :
    IntOp.andi (IntOp.cmpi .sge w 0#32) (IntOp.cmpi .sle w hi) = 1#1 := by
  refine IntOp.andi_eq_one.2 ⟨h0, IntOp.cmpi_sle.2 ?_⟩
  have := IntOp.cmpi_slt.1 h1
  omega

/-! ### The conjunction of an array of ones is one -/

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

/-- A reduction by `and` from 1 over an array whose every entry is 1 is 1 everywhere. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x hx _

/-- A broadcast of an array whose every entry is `c` has every entry `c`. -/
theorem bcast_const_of {s t : Shape} {α : Type} (dims : Fin s.rank → Fin t.rank) (h : s.BroadcastsInDim t dims)
    (x : s.Idx → α) (c : α) (hx : ∀ k, x k = c) (j : t.Idx) : broadcastInDim t dims h x j = c := hx _

/-- A select under a mask of ones is its first branch. -/
theorem select_ones {s : Shape} {α : Type} (c : IVec s 1) (a b : s.Idx → α) (hc : c = fun _ => 1#1) : select c a b = a := by
  subst hc
  funext i
  show (if (1#1 : BitVec 1) = 1 then a i else b i) = a i
  exact if_pos rfl

/-! ### The kernel's index column and mask under the range hypothesis -/

/-- Every entry of the wrapped column is one of the indices, unwrapped: it lies in `[0, n)`. -/
theorem wcol_inRange {n : BitVec 32} {idx : IVec S320000 32} (h : InRange n idx) (i : S320000x1.Idx) :
    IntOp.cmpi .sge (wcol n idx i) 0#32 = 1#1 ∧ IntOp.cmpi .slt (wcol n idx i) n = 1#1 := by
  obtain ⟨k, hk⟩ : ∃ k, wcol n idx i = Scalar.select (IntOp.cmpi .slt (idx k) 0#32) (IntOp.addi (idx k) n) (idx k) := ⟨_, rfl⟩
  rw [hk, wrap_word (h k).1]
  exact h k

/-- With every index a row, the in-bounds mask is all ones. -/
theorem inb_ones {n hi : BitVec 32} (hhi : n.toInt = hi.toInt + 1) (idx : IVec S320000 32) (h : InRange n idx) :
    inb hi (wcol n idx) = fun _ => 1#1 := by
  funext j
  refine bcast_const_of _ _ _ _ (fun p => ?_) j
  refine reduce_andi_ones _ _ _ (fun i => ?_) p
  exact mask_word hhi (wcol_inRange h i).1 (wcol_inRange h i).2

/-- With every index a row of the array, the kernel's take is the reference's: the mask is all ones. -/
theorem takeNodeK_eq (x : FVec F S100000x256 .f32) (idx : IVec S320000 32) (h : InRange 100000#32 idx) :
    takeNodeK x idx = Cert.ReferenceIdeal.Spec.takeNode x idx := by
  unfold takeNodeK
  rw [select_ones _ _ _ (inb_ones (by decide) idx h)]
  rfl
theorem takeEdgeK_eq (x : FVec F S320000x256 .f32) (idx : IVec S320000 32) (h : InRange 320000#32 idx) :
    takeEdgeK x idx = Cert.ReferenceIdeal.Spec.takeEdge x idx := by
  unfold takeEdgeK
  rw [select_ones _ _ _ (inb_ones (by decide) idx h)]
  rfl

/-- The precondition, read at the two index inputs: every source node index is a node, every reverse-edge index an edge. -/
theorem inRange_of_pre (m : (ℓ : Loc nD τ sig) → Buf (Elt Ideal) ℓ) (h : Cert.Pre_KernelIdeal m) (c : Dev nD) :
    InRange 100000#32 (Cert.ReferenceIdeal.Spec.srcOf (m ((c.tc : Thread nD τ).loc main_arg4)))
    ∧ InRange 320000#32 (m ((c.tc : Thread nD τ).loc main_arg5)) := by
  haveI : Subsingleton Cert.Pre_finite_inputs.S_.Idx := ⟨fun a b => funext fun d => d.elim0⟩
  have e := congrFun (h c) (fun a => a.elim0)
  dsimp only [Cert.Pre_finite_inputs.fn, Cert.Pre_finite_inputs.fn_part1, Cert.Pre_finite_inputs.fn_part2] at e
  obtain ⟨e1, e5⟩ := IntOp.andi_eq_one.1 e
  obtain ⟨-, e4⟩ := IntOp.andi_eq_one.1 e1
  exact ⟨fun i => IntOp.andi_eq_one.1 (Host.reduce_andi_all _ _ _ _ _ e4 i),
    fun i => IntOp.andi_eq_one.1 (Host.reduce_andi_all _ _ _ _ _ e5 i)⟩

end Cert.KernelIdeal.HandTake

end
-- ==== Proof.Region0Value.lean ====
/-
  The first kernel launch, read as whole arrays. Its grid has 160 points; point t holds rows 2000·t … 2000·t + 1999 of
  every window (all four windows move together), adds the two input blocks entry by entry into the first output block
  and stores the positive part of that sum into the second. The 160 row blocks tile the 320000 rows, so after the launch
  the first output array is the entrywise sum of the two input arrays and the second its positive part.
-/
import proofs.«415223_j55130200212263_1_alg».proof.Proof.Gen.KernelIdeal.Frame
import Idealize.ShloMosaic.Lib.Pipeline.Value
import Idealize.ShloMosaic.Lib.StableHlo.Predicate

set_option maxRecDepth 16384

noncomputable section

open Idealize.ShloMosaic Idealize.ShloMosaic.TcCoe Idealize.SL.Sem
open Idealize.ShloMosaic.Pipeline (Dat)

namespace Cert.KernelIdeal.Hand0

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The entrywise sum of two edge arrays, and its positive part. -/
abbrev sumArr (a b : FVec F S320000x256 .f32) : FVec F S320000x256 .f32 := addf a b
abbrev posArr (a b : FVec F S320000x256 .f32) : FVec F S320000x256 .f32 :=
  maximumf (addf a b) (broadcastInDim S320000x256 ![] bcast_S_S320000x256 (constant S_ .f32 0x00000000#32))

/-- Every window's block index at point t is (t, 0), the same for the four windows. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_3.index t (0 : Fin 2) = win0_2.index t (0 : Fin 2)
    ∧ win0_3.index t (1 : Fin 2) = win0_2.index t (1 : Fin 2)
    ∧ win0_2.index t (0 : Fin 2) = t.val ∧ win0_2.index t (1 : Fin 2) = 0 :=
  (by decide +kernel : ∀ t : Fin grid0.N, _)

theorem flushed2 (c : Dev nD) (t : Fin cfg0.N) :
    (dat0 V c).flushed 2 t = ((cfg0.win 2).blk t).view.read (Elt F) (sumArr (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x256) hz]
  obtain ⟨e00, e01, e10, e11, -, -, -, -⟩ := idx_facts t
  unfold k0_pay1
  dsimp only
  rw [shapeCast_self]
  funext j
  show FloatOps.addf (V c (Pipeline.arrRef spec0 0) (((cfg0.win 0).blk t).view.emb j)) (V c (Pipeline.arrRef spec0 1) (((cfg0.win 1).blk t).view.emb j))
     = FloatOps.addf (V c (Pipeline.arrRef spec0 0) (((cfg0.win 2).blk t).view.emb j)) (V c (Pipeline.arrRef spec0 1) (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 256 + 1 * (j 1).val = win0_2.index t (1 : Fin 2) * 256 + 1 * (j 1).val; omega
  rw [h0, h1]

/-- An index of the edge array is in point t's block of output window w iff its row is among the block's 2000 rows. -/
theorem mem_blk2 (t : Fin cfg0.N) (i : S320000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v5_0).slice (win0_2.rect t)).set ↔ _
  rw [View.set_slice_whole, Rect.mem_set_unit]
  exact Iff.rfl

/-- Every index lies in the block of the point that holds its row: point (row / 2000). -/
theorem cover2 (i : S320000x256.Idx) : ∃ t : Fin cfg0.N, (cfg0.win 2).flush t = true ∧ i ∈ ((cfg0.win 2).blk t).view.set := by
  have hi0 : (i 0).val < 320000 := (i 0).isLt
  have hi1 : (i 1).val < 256 := (i 1).isLt
  have hN : cfg0.N = 160 := N_0
  refine ⟨⟨(i 0).val / 2000, by rw [hN]; omega⟩, flush0_2 _, ?_⟩
  rw [mem_blk2]
  obtain ⟨-, -, -, -, -, -, e0, e1⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e0]; show (i 0).val / 2000 * 2000 ≤ _ ∧ _ < (i 0).val / 2000 * 2000 + 2000; omega
  | ⟨1, _⟩ => show win0_2.index _ (1 : Fin 2) * 256 ≤ (i 1).val ∧ (i 1).val < win0_2.index _ (1 : Fin 2) * 256 + 256; rw [e1]; omega

/-- After the launch the first output array is the entrywise sum of the two input arrays as the launch finds them. -/
theorem final2 (c : Dev nD) : (dat0 V c).arrAt 2 cfg0.N = sumArr (V c (Pipeline.arrRef spec0 0)) (V c (Pipeline.arrRef spec0 1)) :=
  (dat0 V c).arrAt_eq_of_cover 2 _ (fun t _ => flushed2 V c t) cover2

/-- The zero constant laid over the whole edge array reads the zero word's value at every entry. -/
theorem zeros_apply (i : S320000x256.Idx) :
    (broadcastInDim S320000x256 ![] bcast_S_S320000x256 (constant (F := F) S_ .f32 0x00000000#32)) i = Scalar.ofBits .f32 0x00000000#32 := by
  rw [StableHlo.Predicate.bcast_scalar bcast_S_S320000x256 h_S_]
  rfl

theorem flushed3 (c : Dev nD) (t : Fin cfg0.N) :
    (dat0 V c).flushed 3 t = ((cfg0.win 3).blk t).view.read (Elt F) (posArr (V c (Pipeline.arrRef spec0 0)) (V c (Pipeline.arrRef spec0 1))) := by
  show (cfg0.win 3).cut (grid0.coords t) ((dat0 V c).after 3 t) = _
  rw [after0_3]
  unfold out0_3
  rw [View.canon_unit_zero hz]
  simp only [View.ld_unit_zero (S := S2000x256) hz]
  obtain ⟨e00, e01, e10, e11, e30, e31, -, -⟩ := idx_facts t
  unfold k0_pay2 k0_pay1
  dsimp only
  rw [shapeCast_self]
  funext j
  show FloatOps.maximumf (FloatOps.addf (V c (Pipeline.arrRef spec0 0) (((cfg0.win 0).blk t).view.emb j)) (V c (Pipeline.arrRef spec0 1) (((cfg0.win 1).blk t).view.emb j))) (Scalar.ofBits .f32 0x00000000#32)
     = FloatOps.maximumf (FloatOps.addf (V c (Pipeline.arrRef spec0 0) (((cfg0.win 3).blk t).view.emb j)) (V c (Pipeline.arrRef spec0 1) (((cfg0.win 3).blk t).view.emb j)))
        ((broadcastInDim S320000x256 ![] bcast_S_S320000x256 (constant (F := F) S_ .f32 0x00000000#32)) (((cfg0.win 3).blk t).view.emb j))
  rw [zeros_apply]
  have h0 : ((cfg0.win 0).blk t).view.emb j = ((cfg0.win 3).blk t).view.emb j := by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * (j 1).val = win0_3.index t (1 : Fin 2) * 256 + 1 * (j 1).val; omega
  have h1 : ((cfg0.win 1).blk t).view.emb j = ((cfg0.win 3).blk t).view.emb j := by
    funext a; apply Fin.ext
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 256 + 1 * (j 1).val = win0_3.index t (1 : Fin 2) * 256 + 1 * (j 1).val; omega
  rw [h0, h1]

theorem mem_blk3 (t : Fin cfg0.N) (i : S320000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5_1).slice (win0_3.rect t)).set ↔ _
  rw [View.set_slice_whole, Rect.mem_set_unit]
  exact Iff.rfl

theorem cover3 (i : S320000x256.Idx) : ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 160 := N_0
  refine ⟨⟨(i 0).val / 2000, by rw [hN]; omega⟩, flush0_3 _, ?_⟩
  rw [mem_blk3]
  obtain ⟨-, -, -, -, e30, e31, e0, e1⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e30, e0]; show (i 0).val / 2000 * 2000 ≤ _ ∧ _ < (i 0).val / 2000 * 2000 + 2000; omega
  | ⟨1, _⟩ => show win0_3.index _ (1 : Fin 2) * 256 ≤ (i 1).val ∧ (i 1).val < win0_3.index _ (1 : Fin 2) * 256 + 256; rw [e31, e1]; omega

/-- After the launch the second output array is the positive part of that sum. -/
theorem final3 (c : Dev nD) : (dat0 V c).arrAt 3 cfg0.N = posArr (V c (Pipeline.arrRef spec0 0)) (V c (Pipeline.arrRef spec0 1)) :=
  (dat0 V c).arrAt_eq_of_cover 3 _ (fun t _ => flushed3 V c t) cover3

end Cert.KernelIdeal.Hand0

end
-- ==== Proof.KInit.lean ====
/-
  The start of the kernel's @main, read as whole arrays: the edge table is cut into its source and destination rows, the
  node features are taken at the sources (the kernel's take: a plain gather when every source index is a node), and the
  first launch adds the edge features and stores the sum — the initial hidden edge states — and its positive part.
-/
import proofs.«415223_j55130200212263_1_alg».proof.Proof.Gen.KernelIdeal.Frame
import proofs.«415223_j55130200212263_1_alg».proof.Proof.RSpec
import proofs.«415223_j55130200212263_1_alg».proof.Proof.TakeFill
import proofs.«415223_j55130200212263_1_alg».proof.Proof.Region0Value
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe Idealize.SL.Sem Idealize.ShloMosaic.StableHlo

namespace Cert.KernelIdeal.HandInit

open Cert.KernelIdeal Cert.KernelIdeal.Gen Cert.KernelIdeal.HandTake

/-- A buffer that no operation of a host stretch writes holds after the stretch what it held before. -/
local macro "keep_host " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

section Stretches
variable (X : Valuation τ sig (Elt Ideal))

set_option maxHeartbeats 4000000 in
/-- The sources: row 0 of the edge table. -/
theorem src_eq : (StableHlo.after hostOps0 X (Proc.devRef .tc main_v1) : IVec S320000 32)
    = Cert.ReferenceIdeal.Spec.srcOf (X (Proc.devRef .tc main_arg4)) := by
  after_results_simp
  try simp only [TRef.toBuf, TRef.ofBuf, cast_eq]
  rfl

set_option maxHeartbeats 4000000 in
/-- The destinations: row 1 of the edge table. -/
theorem dest_eq : (StableHlo.after hostOps0 X (Proc.devRef .tc main_v3) : IVec S320000 32)
    = Cert.ReferenceIdeal.Spec.destOf (X (Proc.devRef .tc main_arg4)) := by
  after_results_simp
  try simp only [TRef.toBuf, TRef.ofBuf, cast_eq]
  rfl

set_option maxHeartbeats 4000000 in
/-- The node features taken at the sources (the kernel's take). -/
theorem takeV_eq : (StableHlo.after hostOps0_1 X (Proc.devRef .tc main_v4) : FVec Ideal S320000x256 .f32)
    = takeNodeK (F := Ideal) (X (Proc.devRef .tc main_arg0)) (X (Proc.devRef .tc main_v1)) := by
  after_results_simp
  simp only [TRef.toBuf, TRef.ofBuf, cast_eq]
  rfl

end Stretches

variable (m : (ℓ : Loc nD τ sig) → Buf (Elt Ideal) ℓ) (ρ : Dev nD → PrngReg)

/-- THE START. After the first launch: the source and destination rows, the reverse indices and the weights in place, the
    first output array at the reference's initial hidden states, the second at their positive part. -/
theorem init (c : Dev nD)
    (hs : InRange 100000#32 (Cert.ReferenceIdeal.Spec.srcOf (m ((c.tc : Thread nD τ).loc main_arg4)))) :
    W3 m ρ c (Proc.devRef .tc main_v1) = Cert.ReferenceIdeal.Spec.srcOf (m ((c.tc : Thread nD τ).loc main_arg4))
    ∧ W3 m ρ c (Proc.devRef .tc main_v3) = Cert.ReferenceIdeal.Spec.destOf (m ((c.tc : Thread nD τ).loc main_arg4))
    ∧ W3 m ρ c (Proc.devRef .tc main_arg5) = m ((c.tc : Thread nD τ).loc main_arg5)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_v5_0) = Cert.ReferenceIdeal.Spec.h0 (F := Ideal) (m ((c.tc : Thread nD τ).loc main_arg0))
        (m ((c.tc : Thread nD τ).loc main_arg1)) (m ((c.tc : Thread nD τ).loc main_arg4))
    ∧ W3 m ρ c (Proc.devRef .tc main_v5_1) = Cert.ReferenceIdeal.Spec.relu (F := Ideal) (Cert.ReferenceIdeal.Spec.h0 (F := Ideal)
        (m ((c.tc : Thread nD τ).loc main_arg0)) (m ((c.tc : Thread nD τ).loc main_arg1)) (m ((c.tc : Thread nD τ).loc main_arg4))) := by
  have a4 : W0 m ρ c (Proc.devRef .tc main_arg4) = m ((c.tc : Thread nD τ).loc main_arg4) := rfl
  have a0 : W1 m ρ c (Proc.devRef .tc main_arg0) = m ((c.tc : Thread nD τ).loc main_arg0) :=
    calc W1 m ρ c (Proc.devRef .tc main_arg0)
      _ = W0 m ρ c (Proc.devRef .tc main_arg0) := by keep_host hostOps0
      _ = _ := rfl
  have v1 : W2 m ρ c (Proc.devRef .tc main_v1) = Cert.ReferenceIdeal.Spec.srcOf (m ((c.tc : Thread nD τ).loc main_arg4)) :=
    calc W2 m ρ c (Proc.devRef .tc main_v1)
      _ = W1 m ρ c (Proc.devRef .tc main_v1) := by keep_host hostOps0_1
      _ = _ := by show StableHlo.after hostOps0 (W0 m ρ c) (Proc.devRef .tc main_v1) = _; rw [src_eq (W0 m ρ c), a4]
  have v1' : W1 m ρ c (Proc.devRef .tc main_v1) = Cert.ReferenceIdeal.Spec.srcOf (m ((c.tc : Thread nD τ).loc main_arg4)) := by
    show StableHlo.after hostOps0 (W0 m ρ c) (Proc.devRef .tc main_v1) = _; rw [src_eq (W0 m ρ c), a4]
  have v3 : W2 m ρ c (Proc.devRef .tc main_v3) = Cert.ReferenceIdeal.Spec.destOf (m ((c.tc : Thread nD τ).loc main_arg4)) :=
    calc W2 m ρ c (Proc.devRef .tc main_v3)
      _ = W1 m ρ c (Proc.devRef .tc main_v3) := by keep_host hostOps0_1
      _ = _ := by show StableHlo.after hostOps0 (W0 m ρ c) (Proc.devRef .tc main_v3) = _; rw [dest_eq (W0 m ρ c), a4]
  have g (b : Ref sig .tc) (h0 : W1 m ρ c (Proc.devRef .tc b) = W0 m ρ c (Proc.devRef .tc b))
      (h1 : W2 m ρ c (Proc.devRef .tc b) = W1 m ρ c (Proc.devRef .tc b)) : W2 m ρ c (Proc.devRef .tc b) = m ((c.tc : Thread nD τ).loc b) :=
    h1.trans h0
  have g1 : W2 m ρ c (Proc.devRef .tc main_arg1) = m ((c.tc : Thread nD τ).loc main_arg1) :=
    g main_arg1 (by keep_host hostOps0) (by keep_host hostOps0_1)
  have g2 : W2 m ρ c (Proc.devRef .tc main_arg2) = m ((c.tc : Thread nD τ).loc main_arg2) :=
    g main_arg2 (by keep_host hostOps0) (by keep_host hostOps0_1)
  have g3 : W2 m ρ c (Proc.devRef .tc main_arg3) = m ((c.tc : Thread nD τ).loc main_arg3) :=
    g main_arg3 (by keep_host hostOps0) (by keep_host hostOps0_1)
  have g5 : W2 m ρ c (Proc.devRef .tc main_arg5) = m ((c.tc : Thread nD τ).loc main_arg5) :=
    g main_arg5 (by keep_host hostOps0) (by keep_host hostOps0_1)
  have k0 : (V2 m ρ c (Pipeline.arrRef spec0 0) : FVec Ideal S320000x256 .f32)
      = Cert.ReferenceIdeal.Spec.takeNode (F := Ideal) (m ((c.tc : Thread nD τ).loc main_arg0)) (Cert.ReferenceIdeal.Spec.srcOf (m ((c.tc : Thread nD τ).loc main_arg4))) := by
    show StableHlo.after hostOps0_1 (W1 m ρ c) (Proc.devRef .tc main_v4) = _
    rw [takeV_eq (W1 m ρ c), a0, v1', takeNodeK_eq _ _ hs]
  have k1 : (V2 m ρ c (Pipeline.arrRef spec0 1) : FVec Ideal S320000x256 .f32) = m ((c.tc : Thread nD τ).loc main_arg1) := g1
  refine ⟨?_, ?_, ?_, ?_, ?_, ?_, ?_⟩
  · rw [W3_of_ne m ρ c main_v1 (by decide), v1]
  · rw [W3_of_ne m ρ c main_v3 (by decide), v3]
  · rw [W3_of_ne m ρ c main_arg5 (by decide), g5]
  · rw [W3_of_ne m ρ c main_arg2 (by decide), g2]
  · rw [W3_of_ne m ρ c main_arg3 (by decide), g3]
  · refine (W3_arr m ρ c 2).trans ?_
    rw [Cert.KernelIdeal.Hand0.final2 (V2 m ρ) c, k0, k1]
    rfl
  · refine (W3_arr m ρ c 3).trans ?_
    rw [Cert.KernelIdeal.Hand0.final3 (V2 m ρ) c, k0, k1]
    rfl

end Cert.KernelIdeal.HandInit

end
-- ==== Proof.Region1Value.lean ====
/-
  The layer-update launch, read as whole arrays. Its grid has 160 points; point t holds rows 2000·t … 2000·t + 1999 of
  the three per-edge inputs mv, ar, h and of the two outputs, together with the whole 256×256 matrix wt and the whole
  bias row br. Per block it stores (h + (mv − ar)·wt) + br and the positive part of that. At the ideal values the two
  format changes are the identity and the product into a zero accumulator is the plain sum over the contracted axis, so
  entry (p, q) of point t's first stored block is entry (2000·t + p, q) of the same layer applied to the whole arrays.
  The 160 row blocks tile the 320000 rows, which gives the two statements at the end.
-/
import proofs.«415223_j55130200212263_1_alg».proof.Proof.Gen.KernelIdeal.Frame
import proofs.«415223_j55130200212263_1_alg».proof.Proof.RSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand1

open Cert.KernelIdeal Cert.KernelIdeal.Gen
open Idealize.ShloMosaic.ValueIdx (ix2)

/-! ## The block product at an index

The kernel's product record contracts the left operand's axis 1 with the right operand's axis 0; the four lemmas below read
the operand indices of an output index (row, column) and a contraction position k: (row, k) on the left, (k, column) on the right. -/

theorem kl0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem kl1 (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
theorem kr0 (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
theorem kr1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at (p, q): the sum over k of a(p, k) · b(k, q). -/
theorem kmatmul_apply {φ₁ φ₂ : FTy} (a : FVec Ideal S2000x256 φ₁) (b : FVec Ideal S256x256 φ₂) (p : Fin 2000) (q : Fin 256) :
    matmul dot_S2000x256_S256x256_S2000x256_1_0_0_1_n_n none a b (constant S2000x256 .f32 0x00000000#32) (ix2 p q)
      = ∑ k : Fin 256, a (ix2 p k) * b (ix2 k q) := by
  simp only [matmul]
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun d => Fin.ext (by
      match d with
      | ⟨0, _⟩ => exact kl0 _ _
      | ⟨1, _⟩ => exact (kl1 _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun d => Fin.ext (by
      match d with
      | ⟨0, _⟩ => exact (kr0 _ _).trans hk
      | ⟨1, _⟩ => exact kr1 _ _)
  rw [el, er]

/-- The first stored block at (p, q): the h block's entry plus the sum over k of (mv − ar)(p, k) · wt(k, q), plus the
    bias row's entry q. At the ideal values the two format changes are the identity. -/
theorem pay1_apply (x0 x1 x2 : Vec Ideal S2000x256 .f32) (x3 : Vec Ideal S256x256 .f32) (x4 : Vec Ideal S1x256 .f32)
    (p : Fin 2000) (q : Fin 256) :
    k1_pay1 x0 x1 x3 x2 x4 (ix2 p q)
      = (x2 (ix2 p q) + ∑ k : Fin 256, (x0 (ix2 p k) - x1 (ix2 p k)) * x3 (ix2 k q)) + x4 (ix2 0 q) := by
  unfold k1_pay1
  simp only [shapeCast_self]
  rw [ValueIdx.addf_apply, ValueIdx.addf_apply, kmatmul_apply,
    broadcastTo_apply x4 broadcasts_S1x256_S2000x256 (ix2 p q) (ix2 0 q) (fun d => by
      match d with
      | ⟨0, _⟩ => rfl
      | ⟨1, _⟩ => rfl)]
  rfl

/-- The second stored block at (p, q): the positive part of the first. -/
theorem pay2_apply (x0 x1 x2 : Vec Ideal S2000x256 .f32) (x3 : Vec Ideal S256x256 .f32) (x4 : Vec Ideal S1x256 .f32)
    (p : Fin 2000) (q : Fin 256) :
    k1_pay2 x0 x1 x3 x2 x4 (ix2 p q) = max (k1_pay1 x0 x1 x3 x2 x4 (ix2 p q)) (Ideal.ofBits .f32 0x00000000#32) := by
  unfold k1_pay2
  rfl

/-- The same with the entries named: whatever the five blocks read at the entries the sum visits. -/
theorem pay1_apply_of_eq (x0 x1 x2 : Vec Ideal S2000x256 .f32) (x3 : Vec Ideal S256x256 .f32) (x4 : Vec Ideal S1x256 .f32)
    (p : Fin 2000) (q : Fin 256) (a0 a1 a3 : Fin 256 → EReal) (a2 a4 : EReal)
    (h0 : ∀ k, x0 (ix2 p k) = a0 k) (h1 : ∀ k, x1 (ix2 p k) = a1 k) (h2 : x2 (ix2 p q) = a2)
    (h3 : ∀ k, x3 (ix2 k q) = a3 k) (h4 : x4 (ix2 0 q) = a4) :
    k1_pay1 x0 x1 x3 x2 x4 (ix2 p q) = (a2 + ∑ k : Fin 256, (a0 k - a1 k) * a3 k) + a4 := by
  rw [pay1_apply, h2, h4]
  simp only [h0, h1, h3]

/-! ## The whole-array layer at an index

The reference's product record contracts the same axes; the same four readings, at the whole arrays' shapes. -/

theorem rl0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 0).val = (i 0).val := by
  unfold DotDims.lhsIdx
  rw [dif_neg (show ¬(0 : Fin Cert.ReferenceIdeal.S320000x256.rank) ∈ Cert.ReferenceIdeal.dot_S320000x256_S256x256_S320000x256_1_0_0_1_n_n.lhsBatch by decide),
    dif_pos (show (0 : Fin Cert.ReferenceIdeal.S320000x256.rank) ∈ Cert.ReferenceIdeal.dot_S320000x256_S256x256_S320000x256_1_0_0_1_n_n.lhsNonContracting by decide)]
  rfl
theorem rl1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 1).val = (k ⟨0, by decide⟩).val :=
  Cert.ReferenceIdeal.dot_S320000x256_S256x256_S320000x256_1_0_0_1_n_n.lhsIdx_val_of_single rfl i k
theorem rr0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 0).val = (k ⟨0, by decide⟩).val :=
  Cert.ReferenceIdeal.dot_S320000x256_S256x256_S320000x256_1_0_0_1_n_n.rhsIdx_val_of_single rfl i k
theorem rr1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 1).val = (i 1).val := by
  unfold DotDims.rhsIdx
  rw [dif_neg (show ¬(1 : Fin Cert.ReferenceIdeal.S256x256.rank) ∈ Cert.ReferenceIdeal.dot_S320000x256_S256x256_S320000x256_1_0_0_1_n_n.rhsBatch by decide),
    dif_pos (show (1 : Fin Cert.ReferenceIdeal.S256x256.rank) ∈ Cert.ReferenceIdeal.dot_S320000x256_S256x256_S320000x256_1_0_0_1_n_n.rhsNonContracting by decide)]
  rfl

/-- The whole-array product at (r, q): the sum over k of x(r, k) · wt(k, q). -/
theorem lin_apply (x : FVec Ideal Cert.ReferenceIdeal.S320000x256 .f32) (wt : FVec Ideal Cert.ReferenceIdeal.S256x256 .f32)
    (r : Fin 320000) (q : Fin 256) :
    Cert.ReferenceIdeal.Spec.lin (F := Ideal) x wt (ix2 r q) = ∑ k : Fin 256, x (ix2 r k) * wt (ix2 k q) := by
  unfold Cert.ReferenceIdeal.Spec.lin
  simp only [Host.dotGeneral]
  rw [Ideal.dotGeneral_apply,
    ← Equiv.sum_comp (ValueIdx.contrEquiv1 Cert.ReferenceIdeal.dot_S320000x256_S256x256_S320000x256_1_0_0_1_n_n 256 rfl rfl).symm]
  refine Finset.sum_congr rfl fun k _ => ?_
  have hk := ValueIdx.contrEquiv1_symm_val Cert.ReferenceIdeal.dot_S320000x256_S256x256_S320000x256_1_0_0_1_n_n 256 rfl rfl k
  have el : Cert.ReferenceIdeal.dot_S320000x256_S256x256_S320000x256_1_0_0_1_n_n.lhsIdx (ix2 r q)
      ((ValueIdx.contrEquiv1 Cert.ReferenceIdeal.dot_S320000x256_S256x256_S320000x256_1_0_0_1_n_n 256 rfl rfl).symm k) = ix2 r k :=
    funext fun d => Fin.ext (by
      match d with
      | ⟨0, _⟩ => exact rl0 _ _
      | ⟨1, _⟩ => exact (rl1 _ _).trans hk)
  have er : Cert.ReferenceIdeal.dot_S320000x256_S256x256_S320000x256_1_0_0_1_n_n.rhsIdx (ix2 r q)
      ((ValueIdx.contrEquiv1 Cert.ReferenceIdeal.dot_S320000x256_S256x256_S320000x256_1_0_0_1_n_n 256 rfl rfl).symm k) = ix2 k q :=
    funext fun d => Fin.ext (by
      match d with
      | ⟨0, _⟩ => exact (rr0 _ _).trans hk
      | ⟨1, _⟩ => exact rr1 _ _)
  rw [el, er]

/-- The layer, grouped as the kernel groups it, at (r, q). -/
theorem layerKer_apply (mv ar h : FVec Ideal Cert.ReferenceIdeal.S320000x256 .f32) (wt : FVec Ideal Cert.ReferenceIdeal.S256x256 .f32)
    (br : FVec Ideal Cert.ReferenceIdeal.S1x256 .f32) (r : Fin 320000) (q : Fin 256) :
    Cert.ReferenceIdeal.Spec.layerKer (F := Ideal) mv ar h wt br (ix2 r q)
      = (h (ix2 r q) + ∑ k : Fin 256, (mv (ix2 r k) - ar (ix2 r k)) * wt (ix2 k q)) + br (ix2 0 q) := by
  unfold Cert.ReferenceIdeal.Spec.layerKer Cert.ReferenceIdeal.Spec.bAll
  rw [ValueIdx.addf_apply, ValueIdx.addf_apply, lin_apply,
    broadcastInDim_apply ![0, 1] Cert.ReferenceIdeal.Gen.bcast_S1x256_S320000x256_0_1 br (ix2 r q) (ix2 0 q) (fun d => by
      match d with
      | ⟨0, _⟩ => rfl
      | ⟨1, _⟩ => rfl)]
  rfl

/-- The positive part of a whole array at an index. -/
theorem relu_apply (x : FVec Ideal Cert.ReferenceIdeal.S320000x256 .f32) (i : Cert.ReferenceIdeal.S320000x256.Idx) :
    Cert.ReferenceIdeal.Spec.relu (F := Ideal) x i = max (x i) (Ideal.ofBits .f32 0x00000000#32) := by
  unfold Cert.ReferenceIdeal.Spec.relu
  rw [ValueIdx.maximumf_apply,
    broadcastInDim_apply ![] Cert.ReferenceIdeal.Gen.bcast_S_S320000x256 (constant (F := Ideal) Cert.ReferenceIdeal.S_ .f32 0x00000000#32) i ValueIdx.ix0 (fun d => d.elim0)]
  rfl

/-! ## From blocks to the arrays -/

theorem hz : (![0, 0] : Fin 2 → Nat) = fun _ => 0 := funext fun a => by fin_cases a <;> rfl

/-- The block index of every window at point t: (t, 0) for the five row-blocked windows, (0, 0) for the matrix and the bias row. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem t_lt (t : Fin cfg1.N) : t.val < 160 := by
  have h := t.isLt
  have hN : cfg1.N = 160 := N_1
  omega

/-- Row p of point t's block is row 2000·t + p of the array. -/
abbrev rowOf (t : Fin cfg1.N) (p : Fin 2000) : Fin 320000 := ⟨t.val * 2000 + p.val, by have := t_lt t; omega⟩

/-- Where an entry of point t's block sits in its array, window by window. -/
theorem emb0 (t : Fin cfg1.N) (p : Fin 2000) (q : Fin 256) : ((cfg1.win 0).blk t).view.emb (ix2 p q) = ix2 (rowOf t p) q := by
  obtain ⟨⟨e0, e1⟩, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 256 + 1 * q.val = q.val; omega
theorem emb1 (t : Fin cfg1.N) (p : Fin 2000) (q : Fin 256) : ((cfg1.win 1).blk t).view.emb (ix2 p q) = ix2 (rowOf t p) q := by
  obtain ⟨-, ⟨e0, e1⟩, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 256 + 1 * q.val = q.val; omega
theorem emb2 (t : Fin cfg1.N) (p : Fin 2000) (q : Fin 256) : ((cfg1.win 2).blk t).view.emb (ix2 p q) = ix2 (rowOf t p) q := by
  obtain ⟨-, -, ⟨e0, e1⟩, -⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 256 + 1 * q.val = q.val; omega
theorem emb3 (t : Fin cfg1.N) (k : Fin 256) (q : Fin 256) : ((cfg1.win 3).blk t).view.emb (ix2 k q) = ix2 k q := by
  obtain ⟨-, -, -, ⟨e0, e1⟩, -⟩ := idx_facts t
  funext a; apply Fin.ext
  match a with
  | ⟨0, _⟩ => show win1_3.index t (0 : Fin 2) * 256 + 1 * k.val = k.val; omega
  | ⟨1, _⟩ => show win1_3.index t (1 : Fin 2) * 256 + 1 * q.val = q.val; omega
theorem emb4 (t : Fin cfg1.N) (z : Fin 1) (q : Fin 256) : ((cfg1.win 4).blk t).view.emb (ix2 z q) = ix2 z q := by
  obtain ⟨-, -, -, -, ⟨e0, e1⟩, -⟩ := idx_facts t
  funext a; apply Fin.ext
  match a with
  | ⟨0, _⟩ => show win1_4.index t (0 : Fin 2) * 1 + 1 * z.val = z.val; omega
  | ⟨1, _⟩ => show win1_4.index t (1 : Fin 2) * 256 + 1 * q.val = q.val; omega
theorem emb5 (t : Fin cfg1.N) (p : Fin 2000) (q : Fin 256) : ((cfg1.win 5).blk t).view.emb (ix2 p q) = ix2 (rowOf t p) q := by
  obtain ⟨-, -, -, -, -, ⟨e0, e1⟩, -⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 256 + 1 * q.val = q.val; omega
theorem emb6 (t : Fin cfg1.N) (p : Fin 2000) (q : Fin 256) : ((cfg1.win 6).blk t).view.emb (ix2 p q) = ix2 (rowOf t p) q := by
  obtain ⟨-, -, -, -, -, -, e0, e1⟩ := idx_facts t
  funext a; apply Fin.ext
  match a with
  | ⟨0, _⟩ => show win1_6.index t (0 : Fin 2) * 2000 + 1 * p.val = t.val * 2000 + p.val; omega
  | ⟨1, _⟩ => show win1_6.index t (1 : Fin 2) * 256 + 1 * q.val = q.val; omega

variable (V : (c : Dev nD) → (b : Ref sig .tc) → Buf (Elt Ideal) ((c : Thread nD τ).loc b))

/-- An entry of an input block is the array's entry where the block sits. -/
theorem blk0_apply (c : Dev nD) (t : Fin cfg1.N) (p : Fin 2000) (q : Fin 256) :
    iblk1 V c 0 t (ix2 p q) = V c (Pipeline.arrRef spec1 0) (ix2 (rowOf t p) q) := by
  show V c (Pipeline.arrRef spec1 0) (((cfg1.win 0).blk t).view.emb (ix2 p q)) = _
  rw [emb0]
theorem blk1_apply (c : Dev nD) (t : Fin cfg1.N) (p : Fin 2000) (q : Fin 256) :
    iblk1 V c 1 t (ix2 p q) = V c (Pipeline.arrRef spec1 1) (ix2 (rowOf t p) q) := by
  show V c (Pipeline.arrRef spec1 1) (((cfg1.win 1).blk t).view.emb (ix2 p q)) = _
  rw [emb1]
theorem blk2_apply (c : Dev nD) (t : Fin cfg1.N) (p : Fin 2000) (q : Fin 256) :
    iblk1 V c 2 t (ix2 p q) = V c (Pipeline.arrRef spec1 2) (ix2 (rowOf t p) q) := by
  show V c (Pipeline.arrRef spec1 2) (((cfg1.win 2).blk t).view.emb (ix2 p q)) = _
  rw [emb2]
theorem blk3_apply (c : Dev nD) (t : Fin cfg1.N) (k : Fin 256) (q : Fin 256) :
    iblk1 V c 3 t (ix2 k q) = V c (Pipeline.arrRef spec1 3) (ix2 k q) := by
  show V c (Pipeline.arrRef spec1 3) (((cfg1.win 3).blk t).view.emb (ix2 k q)) = _
  rw [emb3]
theorem blk4_apply (c : Dev nD) (t : Fin cfg1.N) (z : Fin 1) (q : Fin 256) :
    iblk1 V c 4 t (ix2 z q) = V c (Pipeline.arrRef spec1 4) (ix2 z q) := by
  show V c (Pipeline.arrRef spec1 4) (((cfg1.win 4).blk t).view.emb (ix2 z q)) = _
  rw [emb4]

/-- The first stored block of point t at (p, q) is the layer of the five input arrays at (2000·t + p, q). -/
theorem pay1_blk (c : Dev nD) (t : Fin cfg1.N) (p : Fin 2000) (q : Fin 256) :
    k1_pay1 (iblk1 V c 0 t) (iblk1 V c 1 t) (iblk1 V c 3 t) (iblk1 V c 2 t) (iblk1 V c 4 t) (ix2 p q)
      = Cert.ReferenceIdeal.Spec.layerKer (F := Ideal) (V c (Pipeline.arrRef spec1 0)) (V c (Pipeline.arrRef spec1 1)) (V c (Pipeline.arrRef spec1 2))
          (V c (Pipeline.arrRef spec1 3)) (V c (Pipeline.arrRef spec1 4)) (ix2 (rowOf t p) q) := by
  rw [layerKer_apply]
  exact pay1_apply_of_eq (iblk1 V c 0 t) (iblk1 V c 1 t) (iblk1 V c 2 t) (iblk1 V c 3 t) (iblk1 V c 4 t) p q
    (fun k => V c (Pipeline.arrRef spec1 0) (ix2 (rowOf t p) k)) (fun k => V c (Pipeline.arrRef spec1 1) (ix2 (rowOf t p) k))
    (fun k => V c (Pipeline.arrRef spec1 3) (ix2 k q)) (V c (Pipeline.arrRef spec1 2) (ix2 (rowOf t p) q)) (V c (Pipeline.arrRef spec1 4) (ix2 0 q))
    (fun k => blk0_apply V c t p k) (fun k => blk1_apply V c t p k) (blk2_apply V c t p q) (fun k => blk3_apply V c t k q) (blk4_apply V c t 0 q)

/-- What point t writes back through window 5 is block t of the layer of the five input arrays. -/
theorem flushed5 (c : Dev nD) (t : Fin cfg1.N) :
    (dat1 V c).flushed 5 t = ((cfg1.win 5).blk t).view.read (Elt Ideal)
      (Cert.ReferenceIdeal.Spec.layerKer (F := Ideal) (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k1_pay1 (iblk1 V c 0 t) (iblk1 V c 1 t) (iblk1 V c 3 t) (iblk1 V c 2 t) (iblk1 V c 4 t) (ix2 p q)
    = Cert.ReferenceIdeal.Spec.layerKer (F := Ideal) (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [emb5]
  exact pay1_blk V c t p q

/-- What point t writes back through window 6 is block t of the positive part of that layer. -/
theorem flushed6 (c : Dev nD) (t : Fin cfg1.N) :
    (dat1 V c).flushed 6 t = ((cfg1.win 6).blk t).view.read (Elt Ideal)
      (Cert.ReferenceIdeal.Spec.relu (F := Ideal) (Cert.ReferenceIdeal.Spec.layerKer (F := Ideal) (V c (Pipeline.arrRef spec1 0)) (V c (Pipeline.arrRef spec1 1)) (V c (Pipeline.arrRef spec1 2))
        (V c (Pipeline.arrRef spec1 3)) (V c (Pipeline.arrRef spec1 4)))) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k1_pay2 (iblk1 V c 0 t) (iblk1 V c 1 t) (iblk1 V c 3 t) (iblk1 V c 2 t) (iblk1 V c 4 t) (ix2 p q)
    = Cert.ReferenceIdeal.Spec.relu (F := Ideal) (Cert.ReferenceIdeal.Spec.layerKer (F := Ideal) (V c (Pipeline.arrRef spec1 0)) (V c (Pipeline.arrRef spec1 1)) (V c (Pipeline.arrRef spec1 2))
        (V c (Pipeline.arrRef spec1 3)) (V c (Pipeline.arrRef spec1 4))) (((cfg1.win 6).blk t).view.emb (ix2 p q))
  rw [emb6, relu_apply, ← pay1_blk V c t p q]
  exact pay2_apply (iblk1 V c 0 t) (iblk1 V c 1 t) (iblk1 V c 2 t) (iblk1 V c 3 t) (iblk1 V c 4 t) p q

/-- An index of the edge array is in point t's block of an output window iff its row is among the block's 2000 rows. -/
theorem mem_blk5 (t : Fin cfg1.N) (i : S320000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v17_0).slice (win1_5.rect t)).set ↔ _
  rw [View.set_slice_whole, Rect.mem_set_unit]
  exact Iff.rfl
theorem mem_blk6 (t : Fin cfg1.N) (i : S320000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v17_1).slice (win1_6.rect t)).set ↔ _
  rw [View.set_slice_whole, Rect.mem_set_unit]
  exact Iff.rfl

/-- Every index lies in the block of the point that holds its row: point (row / 2000). -/
theorem cover5 (i : S320000x256.Idx) : ∃ t : Fin cfg1.N, (cfg1.win 5).flush t = true ∧ i ∈ ((cfg1.win 5).blk t).view.set := by
  have hi0 : (i 0).val < 320000 := (i 0).isLt
  have hi1 : (i 1).val < 256 := (i 1).isLt
  have hN : cfg1.N = 160 := N_1
  refine ⟨⟨(i 0).val / 2000, by rw [hN]; omega⟩, flush1_5 _, ?_⟩
  rw [mem_blk5]
  obtain ⟨-, -, -, -, -, ⟨e0, e1⟩, -⟩ := idx_facts ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ _ ∧ _ < (i 0).val / 2000 * 2000 + 2000; omega
  | ⟨1, _⟩ => show win1_5.index _ (1 : Fin 2) * 256 ≤ (i 1).val ∧ (i 1).val < win1_5.index _ (1 : Fin 2) * 256 + 256; rw [e1]; omega
theorem cover6 (i : S320000x256.Idx) : ∃ t : Fin cfg1.N, (cfg1.win 6).flush t = true ∧ i ∈ ((cfg1.win 6).blk t).view.set := by
  have hi0 : (i 0).val < 320000 := (i 0).isLt
  have hi1 : (i 1).val < 256 := (i 1).isLt
  have hN : cfg1.N = 160 := N_1
  refine ⟨⟨(i 0).val / 2000, by rw [hN]; omega⟩, flush1_6 _, ?_⟩
  rw [mem_blk6]
  obtain ⟨-, -, -, -, -, -, e0, e1⟩ := idx_facts ⟨(i 0).val / 2000, by rw [hN]; omega⟩
  intro a
  match a with
  | ⟨0, _⟩ => show win1_6.index _ (0 : Fin 2) * 2000 ≤ (i 0).val ∧ (i 0).val < win1_6.index _ (0 : Fin 2) * 2000 + 2000; rw [e0]; show (i 0).val / 2000 * 2000 ≤ _ ∧ _ < (i 0).val / 2000 * 2000 + 2000; omega
  | ⟨1, _⟩ => show win1_6.index _ (1 : Fin 2) * 256 ≤ (i 1).val ∧ (i 1).val < win1_6.index _ (1 : Fin 2) * 256 + 256; rw [e1]; omega

/-- After the launch output array 5 is the layer of the five input arrays as the launch finds them, -/
theorem final1_5 (c : Dev nD) : (dat1 V c).arrAt 5 cfg1.N =
    Cert.ReferenceIdeal.Spec.layerKer (F := Ideal) (V c (Pipeline.arrRef spec1 0)) (V c (Pipeline.arrRef spec1 1)) (V c (Pipeline.arrRef spec1 2))
      (V c (Pipeline.arrRef spec1 3)) (V c (Pipeline.arrRef spec1 4)) :=
  (dat1 V c).arrAt_eq_of_cover 5 _ (fun t _ => flushed5 V c t) cover5

/-- and output array 6 its positive part. -/
theorem final1_6 (c : Dev nD) : (dat1 V c).arrAt 6 cfg1.N =
    Cert.ReferenceIdeal.Spec.relu (F := Ideal) (Cert.ReferenceIdeal.Spec.layerKer (F := Ideal) (V c (Pipeline.arrRef spec1 0)) (V c (Pipeline.arrRef spec1 1)) (V c (Pipeline.arrRef spec1 2))
      (V c (Pipeline.arrRef spec1 3)) (V c (Pipeline.arrRef spec1 4))) :=
  (dat1 V c).arrAt_eq_of_cover 6 _ (fun t _ => flushed6 V c t) cover6

end Cert.KernelIdeal.Hand1

end
-- ==== Proof.KLayer1.lean ====
/-
  One layer of the kernel's @main between two launches, read as whole arrays. From the buffers as the previous launch
  left them — the hidden edge states h and their positive part a, the source and destination node of every edge, the
  reverse-edge indices and the layer's weights — the host operations compute the per-node sums of a's rows by destination,
  take them back at the sources, take a's rows at the reverse edges, transpose the layer's weight matrix and lay its bias
  as a row; the launch then writes (h + (taken sums − taken rows) · Wᵀ) + b and its positive part. With every source index
  a node and every reverse index an edge the kernel's takes are plain gathers, and the new state is the reference's
  h + ((taken sums − taken rows) · Wᵀ + b): addition of extended reals is associative.
-/
import proofs.«415223_j55130200212263_1_alg».proof.Proof.Gen.KernelIdeal.Frame
import proofs.«415223_j55130200212263_1_alg».proof.Proof.RSpec
import proofs.«415223_j55130200212263_1_alg».proof.Proof.TakeFill
import proofs.«415223_j55130200212263_1_alg».proof.Proof.Region1Value
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe Idealize.SL.Sem Idealize.ShloMosaic.StableHlo

namespace Cert.KernelIdeal.HandLayer1

open Cert.KernelIdeal Cert.KernelIdeal.Gen Cert.KernelIdeal.HandTake
open Cert.ReferenceIdeal (Spec.srcOf Spec.destOf Spec.takeNode Spec.takeEdge Spec.segSum Spec.relu Spec.layerKer Spec.layerRef Spec.stepRef Spec.wT0 Spec.bRow0)

/-- A buffer that no operation of a host stretch writes holds after the stretch what it held before. -/
local macro "keep_host " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The host stretches, each from any contents `X` of the buffers -/

section Stretches
variable (X : Valuation τ sig (Elt Ideal))

set_option maxHeartbeats 4000000 in
/-- The per-node sums: the positive parts' rows added into their destination node's row, from zero. -/
theorem sums_eq : (StableHlo.after hostOps1 X (Proc.devRef .tc main_v8) : FVec Ideal S100000x256 .f32)
    = Cert.ReferenceIdeal.Spec.segSum (F := Ideal) (X (Proc.devRef .tc main_v5_1)) (X (Proc.devRef .tc main_v3)) := by
  after_results_simp
  try simp only [TRef.toBuf, TRef.ofBuf, cast_eq]
  rfl

set_option maxHeartbeats 4000000 in
/-- The sums taken back at the edges' source nodes (the kernel's take). -/
theorem takeSums_eq : (StableHlo.after hostOps1_1 X (Proc.devRef .tc main_v9) : FVec Ideal S320000x256 .f32)
    = takeNodeK (F := Ideal) (X (Proc.devRef .tc main_v8)) (X (Proc.devRef .tc main_v1)) := by
  after_results_simp
  simp only [TRef.toBuf, TRef.ofBuf, cast_eq]
  rfl

set_option maxHeartbeats 4000000 in
/-- The positive parts taken at the reverse edges (the kernel's take). -/
theorem takeRev_eq : (StableHlo.after hostOps1_2 X (Proc.devRef .tc main_v10) : FVec Ideal S320000x256 .f32)
    = takeEdgeK (F := Ideal) (X (Proc.devRef .tc main_v5_1)) (X (Proc.devRef .tc main_arg5)) := by
  after_results_simp
  simp only [TRef.toBuf, TRef.ofBuf, cast_eq]
  rfl

set_option maxHeartbeats 4000000 in
/-- The layer's weight matrix transposed. -/
theorem wT_eq : (StableHlo.after hostOps1_3 X (Proc.devRef .tc main_v13) : FVec Ideal S256x256 .f32)
    = Cert.ReferenceIdeal.Spec.wT0 (F := Ideal) (X (Proc.devRef .tc main_arg2)) := by
  after_results_simp
  try simp only [TRef.toBuf, TRef.ofBuf, cast_eq]
  rfl

set_option maxHeartbeats 4000000 in
/-- The layer's bias as one row. -/
theorem bRow_eq : (StableHlo.after hostOps1_3 X (Proc.devRef .tc main_v16) : FVec Ideal S1x256 .f32)
    = Cert.ReferenceIdeal.Spec.bRow0 (F := Ideal) (X (Proc.devRef .tc main_arg3)) := by
  after_results_simp
  try simp only [TRef.toBuf, TRef.ofBuf, cast_eq]
  rfl

end Stretches

/-! ## The layer over the run's boundaries -/

variable (m : (ℓ : Loc nD τ sig) → Buf (Elt Ideal) ℓ) (ρ : Dev nD → PrngReg)

/-- What the four stretches do not write reaches the launch as the previous launch left it. -/
theorem keep_v1 (c : Dev nD) : W7 m ρ c (Proc.devRef .tc main_v1) = W3 m ρ c (Proc.devRef .tc main_v1) :=
  calc W7 m ρ c (Proc.devRef .tc main_v1)
    _ = W6 m ρ c (Proc.devRef .tc main_v1) := by keep_host hostOps1_3
    _ = W5 m ρ c (Proc.devRef .tc main_v1) := by keep_host hostOps1_2
    _ = W4 m ρ c (Proc.devRef .tc main_v1) := by keep_host hostOps1_1
    _ = W3 m ρ c (Proc.devRef .tc main_v1) := by keep_host hostOps1
theorem keep_v3 (c : Dev nD) : W7 m ρ c (Proc.devRef .tc main_v3) = W3 m ρ c (Proc.devRef .tc main_v3) :=
  calc W7 m ρ c (Proc.devRef .tc main_v3)
    _ = W6 m ρ c (Proc.devRef .tc main_v3) := by keep_host hostOps1_3
    _ = W5 m ρ c (Proc.devRef .tc main_v3) := by keep_host hostOps1_2
    _ = W4 m ρ c (Proc.devRef .tc main_v3) := by keep_host hostOps1_1
    _ = W3 m ρ c (Proc.devRef .tc main_v3) := by keep_host hostOps1
theorem keep_arg5 (c : Dev nD) : W7 m ρ c (Proc.devRef .tc main_arg5) = W3 m ρ c (Proc.devRef .tc main_arg5) :=
  calc W7 m ρ c (Proc.devRef .tc main_arg5)
    _ = W6 m ρ c (Proc.devRef .tc main_arg5) := by keep_host hostOps1_3
    _ = W5 m ρ c (Proc.devRef .tc main_arg5) := by keep_host hostOps1_2
    _ = W4 m ρ c (Proc.devRef .tc main_arg5) := by keep_host hostOps1_1
    _ = W3 m ρ c (Proc.devRef .tc main_arg5) := by keep_host hostOps1
theorem keep_arg2 (c : Dev nD) : W7 m ρ c (Proc.devRef .tc main_arg2) = W3 m ρ c (Proc.devRef .tc main_arg2) :=
  calc W7 m ρ c (Proc.devRef .tc main_arg2)
    _ = W6 m ρ c (Proc.devRef .tc main_arg2) := by keep_host hostOps1_3
    _ = W5 m ρ c (Proc.devRef .tc main_arg2) := by keep_host hostOps1_2
    _ = W4 m ρ c (Proc.devRef .tc main_arg2) := by keep_host hostOps1_1
    _ = W3 m ρ c (Proc.devRef .tc main_arg2) := by keep_host hostOps1
theorem keep_arg3 (c : Dev nD) : W7 m ρ c (Proc.devRef .tc main_arg3) = W3 m ρ c (Proc.devRef .tc main_arg3) :=
  calc W7 m ρ c (Proc.devRef .tc main_arg3)
    _ = W6 m ρ c (Proc.devRef .tc main_arg3) := by keep_host hostOps1_3
    _ = W5 m ρ c (Proc.devRef .tc main_arg3) := by keep_host hostOps1_2
    _ = W4 m ρ c (Proc.devRef .tc main_arg3) := by keep_host hostOps1_1
    _ = W3 m ρ c (Proc.devRef .tc main_arg3) := by keep_host hostOps1
theorem keep_h (c : Dev nD) : W7 m ρ c (Proc.devRef .tc main_v5_0) = W3 m ρ c (Proc.devRef .tc main_v5_0) :=
  calc W7 m ρ c (Proc.devRef .tc main_v5_0)
    _ = W6 m ρ c (Proc.devRef .tc main_v5_0) := by keep_host hostOps1_3
    _ = W5 m ρ c (Proc.devRef .tc main_v5_0) := by keep_host hostOps1_2
    _ = W4 m ρ c (Proc.devRef .tc main_v5_0) := by keep_host hostOps1_1
    _ = W3 m ρ c (Proc.devRef .tc main_v5_0) := by keep_host hostOps1

/-- The launch's first window: the per-node sums of the previous positive parts, taken at the sources. -/
theorem win0_eq (c : Dev nD) : (W7 m ρ c (Proc.devRef .tc main_v9) : FVec Ideal S320000x256 .f32)
    = takeNodeK (F := Ideal) (Cert.ReferenceIdeal.Spec.segSum (F := Ideal) (W3 m ρ c (Proc.devRef .tc main_v5_1)) (W3 m ρ c (Proc.devRef .tc main_v3)))
        (W3 m ρ c (Proc.devRef .tc main_v1)) := by
  have e1 : W7 m ρ c (Proc.devRef .tc main_v9) = W5 m ρ c (Proc.devRef .tc main_v9) :=
    calc W7 m ρ c (Proc.devRef .tc main_v9)
      _ = W6 m ρ c (Proc.devRef .tc main_v9) := by keep_host hostOps1_3
      _ = W5 m ρ c (Proc.devRef .tc main_v9) := by keep_host hostOps1_2
  have e2 : W4 m ρ c (Proc.devRef .tc main_v1) = W3 m ρ c (Proc.devRef .tc main_v1) := by keep_host hostOps1
  have e3 : (W4 m ρ c (Proc.devRef .tc main_v8) : FVec Ideal S100000x256 .f32)
      = Cert.ReferenceIdeal.Spec.segSum (F := Ideal) (W3 m ρ c (Proc.devRef .tc main_v5_1)) (W3 m ρ c (Proc.devRef .tc main_v3)) := sums_eq (W3 m ρ c)
  have e4 : (W5 m ρ c (Proc.devRef .tc main_v9) : FVec Ideal S320000x256 .f32)
      = takeNodeK (F := Ideal) (W4 m ρ c (Proc.devRef .tc main_v8)) (W4 m ρ c (Proc.devRef .tc main_v1)) := takeSums_eq (W4 m ρ c)
  rw [e1, e4, e3, e2]

/-- The second window: the previous positive parts taken at the reverse edges. -/
theorem win1_eq (c : Dev nD) : (W7 m ρ c (Proc.devRef .tc main_v10) : FVec Ideal S320000x256 .f32)
    = takeEdgeK (F := Ideal) (W3 m ρ c (Proc.devRef .tc main_v5_1)) (W3 m ρ c (Proc.devRef .tc main_arg5)) := by
  have e1 : W7 m ρ c (Proc.devRef .tc main_v10) = W6 m ρ c (Proc.devRef .tc main_v10) := by keep_host hostOps1_3
  have e2 : W5 m ρ c (Proc.devRef .tc main_v5_1) = W3 m ρ c (Proc.devRef .tc main_v5_1) :=
    calc W5 m ρ c (Proc.devRef .tc main_v5_1)
      _ = W4 m ρ c (Proc.devRef .tc main_v5_1) := by keep_host hostOps1_1
      _ = W3 m ρ c (Proc.devRef .tc main_v5_1) := by keep_host hostOps1
  have e3 : W5 m ρ c (Proc.devRef .tc main_arg5) = W3 m ρ c (Proc.devRef .tc main_arg5) :=
    calc W5 m ρ c (Proc.devRef .tc main_arg5)
      _ = W4 m ρ c (Proc.devRef .tc main_arg5) := by keep_host hostOps1_1
      _ = W3 m ρ c (Proc.devRef .tc main_arg5) := by keep_host hostOps1
  have e4 : (W6 m ρ c (Proc.devRef .tc main_v10) : FVec Ideal S320000x256 .f32)
      = takeEdgeK (F := Ideal) (W5 m ρ c (Proc.devRef .tc main_v5_1)) (W5 m ρ c (Proc.devRef .tc main_arg5)) := takeRev_eq (W5 m ρ c)
  rw [e1, e4, e2, e3]

/-- The fourth and fifth windows: the transposed weights and the bias row. -/
theorem win3_eq (c : Dev nD) : (W7 m ρ c (Proc.devRef .tc main_v13) : FVec Ideal S256x256 .f32)
    = Cert.ReferenceIdeal.Spec.wT0 (F := Ideal) (W3 m ρ c (Proc.devRef .tc main_arg2)) := by
  have e : W6 m ρ c (Proc.devRef .tc main_arg2) = W3 m ρ c (Proc.devRef .tc main_arg2) :=
    calc W6 m ρ c (Proc.devRef .tc main_arg2)
      _ = W5 m ρ c (Proc.devRef .tc main_arg2) := by keep_host hostOps1_2
      _ = W4 m ρ c (Proc.devRef .tc main_arg2) := by keep_host hostOps1_1
      _ = W3 m ρ c (Proc.devRef .tc main_arg2) := by keep_host hostOps1
  have e4 : (W7 m ρ c (Proc.devRef .tc main_v13) : FVec Ideal S256x256 .f32)
      = Cert.ReferenceIdeal.Spec.wT0 (F := Ideal) (W6 m ρ c (Proc.devRef .tc main_arg2)) := wT_eq (W6 m ρ c)
  rw [e4, e]
theorem win4_eq (c : Dev nD) : (W7 m ρ c (Proc.devRef .tc main_v16) : FVec Ideal S1x256 .f32)
    = Cert.ReferenceIdeal.Spec.bRow0 (F := Ideal) (W3 m ρ c (Proc.devRef .tc main_arg3)) := by
  have e : W6 m ρ c (Proc.devRef .tc main_arg3) = W3 m ρ c (Proc.devRef .tc main_arg3) :=
    calc W6 m ρ c (Proc.devRef .tc main_arg3)
      _ = W5 m ρ c (Proc.devRef .tc main_arg3) := by keep_host hostOps1_2
      _ = W4 m ρ c (Proc.devRef .tc main_arg3) := by keep_host hostOps1_1
      _ = W3 m ρ c (Proc.devRef .tc main_arg3) := by keep_host hostOps1
  have e4 : (W7 m ρ c (Proc.devRef .tc main_v16) : FVec Ideal S1x256 .f32)
      = Cert.ReferenceIdeal.Spec.bRow0 (F := Ideal) (W6 m ρ c (Proc.devRef .tc main_arg3)) := bRow_eq (W6 m ρ c)
  rw [e4, e]

/-- Addition of extended reals is associative: the kernel's grouping of one layer is the reference's. -/
theorem layerKer_eq (mv ar h : FVec Ideal Cert.ReferenceIdeal.S320000x256 .f32) (wt : FVec Ideal Cert.ReferenceIdeal.S256x256 .f32)
    (br : FVec Ideal Cert.ReferenceIdeal.S1x256 .f32) :
    Cert.ReferenceIdeal.Spec.layerKer mv ar h wt br = Cert.ReferenceIdeal.Spec.layerRef mv ar h wt br := by
  funext i
  show (h i + _) + _ = h i + (_ + _)
  exact add_assoc _ _ _

set_option maxHeartbeats 4000000 in
/-- THE LAYER. If the previous launch left the hidden states `hp` and their positive part, and the index tables and weights
    are the arguments', then this launch leaves the reference's next hidden states and their positive part, the tables and
    weights still in place. -/
theorem layer (c : Dev nD) (hp : FVec Ideal S320000x256 .f32) (ei : IVec S2x320000 32) (rev : IVec S320000 32)
    (w : FVec Ideal S3x256x256 .f32) (b : FVec Ideal S3x256 .f32)
    (hs : InRange 100000#32 (Cert.ReferenceIdeal.Spec.srcOf ei)) (hr : InRange 320000#32 rev)
    (e1 : W3 m ρ c (Proc.devRef .tc main_v1) = Cert.ReferenceIdeal.Spec.srcOf ei)
    (e3 : W3 m ρ c (Proc.devRef .tc main_v3) = Cert.ReferenceIdeal.Spec.destOf ei)
    (e5 : W3 m ρ c (Proc.devRef .tc main_arg5) = rev)
    (e2 : W3 m ρ c (Proc.devRef .tc main_arg2) = w)
    (e4 : W3 m ρ c (Proc.devRef .tc main_arg3) = b)
    (eh : W3 m ρ c (Proc.devRef .tc main_v5_0) = hp)
    (ea : W3 m ρ c (Proc.devRef .tc main_v5_1) = Cert.ReferenceIdeal.Spec.relu (F := Ideal) hp) :
    W8 m ρ c (Proc.devRef .tc main_v1) = Cert.ReferenceIdeal.Spec.srcOf ei
    ∧ W8 m ρ c (Proc.devRef .tc main_v3) = Cert.ReferenceIdeal.Spec.destOf ei
    ∧ W8 m ρ c (Proc.devRef .tc main_arg5) = rev
    ∧ W8 m ρ c (Proc.devRef .tc main_arg2) = w
    ∧ W8 m ρ c (Proc.devRef .tc main_arg3) = b
    ∧ W8 m ρ c (Proc.devRef .tc main_v17_0) = Cert.ReferenceIdeal.Spec.stepRef (F := Ideal) hp ei rev (Cert.ReferenceIdeal.Spec.wT0 w) (Cert.ReferenceIdeal.Spec.bRow0 b)
    ∧ W8 m ρ c (Proc.devRef .tc main_v17_1) = Cert.ReferenceIdeal.Spec.relu (F := Ideal)
        (Cert.ReferenceIdeal.Spec.stepRef (F := Ideal) hp ei rev (Cert.ReferenceIdeal.Spec.wT0 w) (Cert.ReferenceIdeal.Spec.bRow0 b)) := by
  have k0 : (V7 m ρ c (Pipeline.arrRef spec1 0) : FVec Ideal S320000x256 .f32)
      = Cert.ReferenceIdeal.Spec.takeNode (F := Ideal) (Cert.ReferenceIdeal.Spec.segSum (F := Ideal) (Cert.ReferenceIdeal.Spec.relu (F := Ideal) hp) (Cert.ReferenceIdeal.Spec.destOf ei)) (Cert.ReferenceIdeal.Spec.srcOf ei) := by
    show W7 m ρ c (Proc.devRef .tc main_v9) = _
    rw [win0_eq, ea, e3, e1, takeNodeK_eq _ _ hs]
  have k1 : (V7 m ρ c (Pipeline.arrRef spec1 1) : FVec Ideal S320000x256 .f32)
      = Cert.ReferenceIdeal.Spec.takeEdge (F := Ideal) (Cert.ReferenceIdeal.Spec.relu (F := Ideal) hp) rev := by
    show W7 m ρ c (Proc.devRef .tc main_v10) = _
    rw [win1_eq, ea, e5, takeEdgeK_eq _ _ hr]
  have k2 : (V7 m ρ c (Pipeline.arrRef spec1 2) : FVec Ideal S320000x256 .f32) = hp := by
    show W7 m ρ c (Proc.devRef .tc main_v5_0) = _
    rw [keep_h, eh]
  have k3 : (V7 m ρ c (Pipeline.arrRef spec1 3) : FVec Ideal S256x256 .f32) = Cert.ReferenceIdeal.Spec.wT0 (F := Ideal) w := by
    show W7 m ρ c (Proc.devRef .tc main_v13) = _
    rw [win3_eq, e2]
  have k4 : (V7 m ρ c (Pipeline.arrRef spec1 4) : FVec Ideal S1x256 .f32) = Cert.ReferenceIdeal.Spec.bRow0 (F := Ideal) b := by
    show W7 m ρ c (Proc.devRef .tc main_v16) = _
    rw [win4_eq, e4]
  have hH : W8 m ρ c (Proc.devRef .tc main_v17_0) = Cert.ReferenceIdeal.Spec.stepRef (F := Ideal) hp ei rev (Cert.ReferenceIdeal.Spec.wT0 w) (Cert.ReferenceIdeal.Spec.bRow0 b) := by
    refine ((W8_arr m ρ c 5).trans (Cert.KernelIdeal.Hand1.final1_5 (V7 m ρ) c)).trans ?_
    rw [k0, k1, k2, k3, k4, layerKer_eq]
    rfl
  have hA : W8 m ρ c (Proc.devRef .tc main_v17_1) = Cert.ReferenceIdeal.Spec.relu (F := Ideal)
      (Cert.ReferenceIdeal.Spec.stepRef (F := Ideal) hp ei rev (Cert.ReferenceIdeal.Spec.wT0 w) (Cert.ReferenceIdeal.Spec.bRow0 b)) := by
    refine ((W8_arr m ρ c 6).trans (Cert.KernelIdeal.Hand1.final1_6 (V7 m ρ) c)).trans ?_
    rw [k0, k1, k2, k3, k4, layerKer_eq]
    rfl
  refine ⟨?_, ?_, ?_, ?_, ?_, hH, hA⟩
  · rw [W8_of_ne m ρ c main_v1 (by decide), keep_v1, e1]
  · rw [W8_of_ne m ρ c main_v3 (by decide), keep_v3, e3]
  · rw [W8_of_ne m ρ c main_arg5 (by decide), keep_arg5, e5]
  · rw [W8_of_ne m ρ c main_arg2 (by decide), keep_arg2, e2]
  · rw [W8_of_ne m ρ c main_arg3 (by decide), keep_arg3, e4]

end Cert.KernelIdeal.HandLayer1

end
-- ==== Proof.Region2Value.lean ====
/-
  The layer-update launch, read as whole arrays. Its grid has 160 points; point t holds rows 2000·t … 2000·t + 1999 of
  the three per-edge inputs mv, ar, h and of the two outputs, together with the whole 256×256 matrix wt and the whole
  bias row br. Per block it stores (h + (mv − ar)·wt) + br and the positive part of that. At the ideal values the two
  format changes are the identity and the product into a zero accumulator is the plain sum over the contracted axis, so
  entry (p, q) of point t's first stored block is entry (2000·t + p, q) of the same layer applied to the whole arrays.
  The 160 row blocks tile the 320000 rows, which gives the two statements at the end.
-/
import proofs.«415223_j55130200212263_1_alg».proof.Proof.Gen.KernelIdeal.Frame
import proofs.«415223_j55130200212263_1_alg».proof.Proof.RSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand2

open Cert.KernelIdeal Cert.KernelIdeal.Gen
open Idealize.ShloMosaic.ValueIdx (ix2)

/-! ## The block product at an index

The kernel's product record contracts the left operand's axis 1 with the right operand's axis 0; the four lemmas below read
the operand indices of an output index (row, column) and a contraction position k: (row, k) on the left, (k, column) on the right. -/

theorem kl0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem kl1 (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
theorem kr0 (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
theorem kr1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at (p, q): the sum over k of a(p, k) · b(k, q). -/
theorem kmatmul_apply {φ₁ φ₂ : FTy} (a : FVec Ideal S2000x256 φ₁) (b : FVec Ideal S256x256 φ₂) (p : Fin 2000) (q : Fin 256) :
    matmul dot_S2000x256_S256x256_S2000x256_1_0_0_1_n_n none a b (constant S2000x256 .f32 0x00000000#32) (ix2 p q)
      = ∑ k : Fin 256, a (ix2 p k) * b (ix2 k q) := by
  simp only [matmul]
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun d => Fin.ext (by
      match d with
      | ⟨0, _⟩ => exact kl0 _ _
      | ⟨1, _⟩ => exact (kl1 _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun d => Fin.ext (by
      match d with
      | ⟨0, _⟩ => exact (kr0 _ _).trans hk
      | ⟨1, _⟩ => exact kr1 _ _)
  rw [el, er]

/-- The first stored block at (p, q): the h block's entry plus the sum over k of (mv − ar)(p, k) · wt(k, q), plus the
    bias row's entry q. At the ideal values the two format changes are the identity. -/
theorem pay1_apply (x0 x1 x2 : Vec Ideal S2000x256 .f32) (x3 : Vec Ideal S256x256 .f32) (x4 : Vec Ideal S1x256 .f32)
    (p : Fin 2000) (q : Fin 256) :
    k2_pay1 x0 x1 x3 x2 x4 (ix2 p q)
      = (x2 (ix2 p q) + ∑ k : Fin 256, (x0 (ix2 p k) - x1 (ix2 p k)) * x3 (ix2 k q)) + x4 (ix2 0 q) := by
  unfold k2_pay1
  simp only [shapeCast_self]
  rw [ValueIdx.addf_apply, ValueIdx.addf_apply, kmatmul_apply,
    broadcastTo_apply x4 broadcasts_S1x256_S2000x256 (ix2 p q) (ix2 0 q) (fun d => by
      match d with
      | ⟨0, _⟩ => rfl
      | ⟨1, _⟩ => rfl)]
  rfl

/-- The second stored block at (p, q): the positive part of the first. -/
theorem pay2_apply (x0 x1 x2 : Vec Ideal S2000x256 .f32) (x3 : Vec Ideal S256x256 .f32) (x4 : Vec Ideal S1x256 .f32)
    (p : Fin 2000) (q : Fin 256) :
    k2_pay2 x0 x1 x3 x2 x4 (ix2 p q) = max (k2_pay1 x0 x1 x3 x2 x4 (ix2 p q)) (Ideal.ofBits .f32 0x00000000#32) := by
  unfold k2_pay2
  rfl

/-- The same with the entries named: whatever the five blocks read at the entries the sum visits. -/
theorem pay1_apply_of_eq (x0 x1 x2 : Vec Ideal S2000x256 .f32) (x3 : Vec Ideal S256x256 .f32) (x4 : Vec Ideal S1x256 .f32)
    (p : Fin 2000) (q : Fin 256) (a0 a1 a3 : Fin 256 → EReal) (a2 a4 : EReal)
    (h0 : ∀ k, x0 (ix2 p k) = a0 k) (h1 : ∀ k, x1 (ix2 p k) = a1 k) (h2 : x2 (ix2 p q) = a2)
    (h3 : ∀ k, x3 (ix2 k q) = a3 k) (h4 : x4 (ix2 0 q) = a4) :
    k2_pay1 x0 x1 x3 x2 x4 (ix2 p q) = (a2 + ∑ k : Fin 256, (a0 k - a1 k) * a3 k) + a4 := by
  rw [pay1_apply, h2, h4]
  simp only [h0, h1, h3]

/-! ## The whole-array layer at an index

The reference's product record contracts the same axes; the same four readings, at the whole arrays' shapes. -/

theorem rl0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 0).val = (i 0).val := by
  unfold DotDims.lhsIdx
  rw [dif_neg (show ¬(0 : Fin Cert.ReferenceIdeal.S320000x256.rank) ∈ Cert.ReferenceIdeal.dot_S320000x256_S256x256_S320000x256_1_0_0_1_n_n.lhsBatch by decide),
    dif_pos (show (0 : Fin Cert.ReferenceIdeal.S320000x256.rank) ∈ Cert.ReferenceIdeal.dot_S320000x256_S256x256_S320000x256_1_0_0_1_n_n.lhsNonContracting by decide)]
  rfl
theorem rl1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 1).val = (k ⟨0, by decide⟩).val :=
  Cert.ReferenceIdeal.dot_S320000x256_S256x256_S320000x256_1_0_0_1_n_n.lhsIdx_val_of_single rfl i k
theorem rr0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 0).val = (k ⟨0, by decide⟩).val :=
  Cert.ReferenceIdeal.dot_S320000x256_S256x256_S320000x256_1_0_0_1_n_n.rhsIdx_val_of_single rfl i k
theorem rr1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 1).val = (i 1).val := by
  unfold DotDims.rhsIdx
  rw [dif_neg (show ¬(1 : Fin Cert.ReferenceIdeal.S256x256.rank) ∈ Cert.ReferenceIdeal.dot_S320000x256_S256x256_S320000x256_1_0_0_1_n_n.rhsBatch by decide),
    dif_pos (show (1 : Fin Cert.ReferenceIdeal.S256x256.rank) ∈ Cert.ReferenceIdeal.dot_S320000x256_S256x256_S320000x256_1_0_0_1_n_n.rhsNonContracting by decide)]
  rfl

/-- The whole-array product at (r, q): the sum over k of x(r, k) · wt(k, q). -/
theorem lin_apply (x : FVec Ideal Cert.ReferenceIdeal.S320000x256 .f32) (wt : FVec Ideal Cert.ReferenceIdeal.S256x256 .f32)
    (r : Fin 320000) (q : Fin 256) :
    Cert.ReferenceIdeal.Spec.lin (F := Ideal) x wt (ix2 r q) = ∑ k : Fin 256, x (ix2 r k) * wt (ix2 k q) := by
  unfold Cert.ReferenceIdeal.Spec.lin
  simp only [Host.dotGeneral]
  rw [Ideal.dotGeneral_apply,
    ← Equiv.sum_comp (ValueIdx.contrEquiv1 Cert.ReferenceIdeal.dot_S320000x256_S256x256_S320000x256_1_0_0_1_n_n 256 rfl rfl).symm]
  refine Finset.sum_congr rfl fun k _ => ?_
  have hk := ValueIdx.contrEquiv1_symm_val Cert.ReferenceIdeal.dot_S320000x256_S256x256_S320000x256_1_0_0_1_n_n 256 rfl rfl k
  have el : Cert.ReferenceIdeal.dot_S320000x256_S256x256_S320000x256_1_0_0_1_n_n.lhsIdx (ix2 r q)
      ((ValueIdx.contrEquiv1 Cert.ReferenceIdeal.dot_S320000x256_S256x256_S320000x256_1_0_0_1_n_n 256 rfl rfl).symm k) = ix2 r k :=
    funext fun d => Fin.ext (by
      match d with
      | ⟨0, _⟩ => exact rl0 _ _
      | ⟨1, _⟩ => exact (rl1 _ _).trans hk)
  have er : Cert.ReferenceIdeal.dot_S320000x256_S256x256_S320000x256_1_0_0_1_n_n.rhsIdx (ix2 r q)
      ((ValueIdx.contrEquiv1 Cert.ReferenceIdeal.dot_S320000x256_S256x256_S320000x256_1_0_0_1_n_n 256 rfl rfl).symm k) = ix2 k q :=
    funext fun d => Fin.ext (by
      match d with
      | ⟨0, _⟩ => exact (rr0 _ _).trans hk
      | ⟨1, _⟩ => exact rr1 _ _)
  rw [el, er]

/-- The layer, grouped as the kernel groups it, at (r, q). -/
theorem layerKer_apply (mv ar h : FVec Ideal Cert.ReferenceIdeal.S320000x256 .f32) (wt : FVec Ideal Cert.ReferenceIdeal.S256x256 .f32)
    (br : FVec Ideal Cert.ReferenceIdeal.S1x256 .f32) (r : Fin 320000) (q : Fin 256) :
    Cert.ReferenceIdeal.Spec.layerKer (F := Ideal) mv ar h wt br (ix2 r q)
      = (h (ix2 r q) + ∑ k : Fin 256, (mv (ix2 r k) - ar (ix2 r k)) * wt (ix2 k q)) + br (ix2 0 q) := by
  unfold Cert.ReferenceIdeal.Spec.layerKer Cert.ReferenceIdeal.Spec.bAll
  rw [ValueIdx.addf_apply, ValueIdx.addf_apply, lin_apply,
    broadcastInDim_apply ![0, 1] Cert.ReferenceIdeal.Gen.bcast_S1x256_S320000x256_0_1 br (ix2 r q) (ix2 0 q) (fun d => by
      match d with
      | ⟨0, _⟩ => rfl
      | ⟨1, _⟩ => rfl)]
  rfl

/-- The positive part of a whole array at an index. -/
theorem relu_apply (x : FVec Ideal Cert.ReferenceIdeal.S320000x256 .f32) (i : Cert.ReferenceIdeal.S320000x256.Idx) :
    Cert.ReferenceIdeal.Spec.relu (F := Ideal) x i = max (x i) (Ideal.ofBits .f32 0x00000000#32) := by
  unfold Cert.ReferenceIdeal.Spec.relu
  rw [ValueIdx.maximumf_apply,
    broadcastInDim_apply ![] Cert.ReferenceIdeal.Gen.bcast_S_S320000x256 (constant (F := Ideal) Cert.ReferenceIdeal.S_ .f32 0x00000000#32) i ValueIdx.ix0 (fun d => d.elim0)]
  rfl

/-! ## From blocks to the arrays -/

theorem hz : (![0, 0] : Fin 2 → Nat) = fun _ => 0 := funext fun a => by fin_cases a <;> rfl

/-- The block index of every window at point t: (t, 0) for the five row-blocked windows, (0, 0) for the matrix and the bias row. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0) :=
  (by decide +kernel : ∀ t : Fin grid2.N, _)

theorem t_lt (t : Fin cfg2.N) : t.val < 160 := by
  have h := t.isLt
  have hN : cfg2.N = 160 := N_2
  omega

/-- Row p of point t's block is row 2000·t + p of the array. -/
abbrev rowOf (t : Fin cfg2.N) (p : Fin 2000) : Fin 320000 := ⟨t.val * 2000 + p.val, by have := t_lt t; omega⟩

/-- Where an entry of point t's block sits in its array, window by window. -/
theorem emb0 (t : Fin cfg2.N) (p : Fin 2000) (q : Fin 256) : ((cfg2.win 0).blk t).view.emb (ix2 p q) = ix2 (rowOf t p) q := by
  obtain ⟨⟨e0, e1⟩, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 256 + 1 * q.val = q.val; omega
theorem emb1 (t : Fin cfg2.N) (p : Fin 2000) (q : Fin 256) : ((cfg2.win 1).blk t).view.emb (ix2 p q) = ix2 (rowOf t p) q := by
  obtain ⟨-, ⟨e0, e1⟩, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 256 + 1 * q.val = q.val; omega
theorem emb2 (t : Fin cfg2.N) (p : Fin 2000) (q : Fin 256) : ((cfg2.win 2).blk t).view.emb (ix2 p q) = ix2 (rowOf t p) q := by
  obtain ⟨-, -, ⟨e0, e1⟩, -⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 256 + 1 * q.val = q.val; omega
theorem emb3 (t : Fin cfg2.N) (k : Fin 256) (q : Fin 256) : ((cfg2.win 3).blk t).view.emb (ix2 k q) = ix2 k q := by
  obtain ⟨-, -, -, ⟨e0, e1⟩, -⟩ := idx_facts t
  funext a; apply Fin.ext
  match a with
  | ⟨0, _⟩ => show win2_3.index t (0 : Fin 2) * 256 + 1 * k.val = k.val; omega
  | ⟨1, _⟩ => show win2_3.index t (1 : Fin 2) * 256 + 1 * q.val = q.val; omega
theorem emb4 (t : Fin cfg2.N) (z : Fin 1) (q : Fin 256) : ((cfg2.win 4).blk t).view.emb (ix2 z q) = ix2 z q := by
  obtain ⟨-, -, -, -, ⟨e0, e1⟩, -⟩ := idx_facts t
  funext a; apply Fin.ext
  match a with
  | ⟨0, _⟩ => show win2_4.index t (0 : Fin 2) * 1 + 1 * z.val = z.val; omega
  | ⟨1, _⟩ => show win2_4.index t (1 : Fin 2) * 256 + 1 * q.val = q.val; omega
theorem emb5 (t : Fin cfg2.N) (p : Fin 2000) (q : Fin 256) : ((cfg2.win 5).blk t).view.emb (ix2 p q) = ix2 (rowOf t p) q := by
  obtain ⟨-, -, -, -, -, ⟨e0, e1⟩, -⟩ := idx_facts t
  funext a; apply Fin.ext
  match a with
  | ⟨0, _⟩ => show win2_5.index t (0 : Fin 2) * 2000 + 1 * p.val = t.val * 2000 + p.val; omega
  | ⟨1, _⟩ => show win2_5.index t (1 : Fin 2) * 256 + 1 * q.val = q.val; omega
theorem emb6 (t : Fin cfg2.N) (p : Fin 2000) (q : Fin 256) : ((cfg2.win 6).blk t).view.emb (ix2 p q) = ix2 (rowOf t p) q := by
  obtain ⟨-, -, -, -, -, -, e0, e1⟩ := idx_facts t
  funext a; apply Fin.ext
  match a with
  | ⟨0, _⟩ => show win2_6.index t (0 : Fin 2) * 2000 + 1 * p.val = t.val * 2000 + p.val; omega
  | ⟨1, _⟩ => show win2_6.index t (1 : Fin 2) * 256 + 1 * q.val = q.val; omega

variable (V : (c : Dev nD) → (b : Ref sig .tc) → Buf (Elt Ideal) ((c : Thread nD τ).loc b))

/-- An entry of an input block is the array's entry where the block sits. -/
theorem blk0_apply (c : Dev nD) (t : Fin cfg2.N) (p : Fin 2000) (q : Fin 256) :
    iblk2 V c 0 t (ix2 p q) = V c (Pipeline.arrRef spec2 0) (ix2 (rowOf t p) q) := by
  show V c (Pipeline.arrRef spec2 0) (((cfg2.win 0).blk t).view.emb (ix2 p q)) = _
  rw [emb0]
theorem blk1_apply (c : Dev nD) (t : Fin cfg2.N) (p : Fin 2000) (q : Fin 256) :
    iblk2 V c 1 t (ix2 p q) = V c (Pipeline.arrRef spec2 1) (ix2 (rowOf t p) q) := by
  show V c (Pipeline.arrRef spec2 1) (((cfg2.win 1).blk t).view.emb (ix2 p q)) = _
  rw [emb1]
theorem blk2_apply (c : Dev nD) (t : Fin cfg2.N) (p : Fin 2000) (q : Fin 256) :
    iblk2 V c 2 t (ix2 p q) = V c (Pipeline.arrRef spec2 2) (ix2 (rowOf t p) q) := by
  show V c (Pipeline.arrRef spec2 2) (((cfg2.win 2).blk t).view.emb (ix2 p q)) = _
  rw [emb2]
theorem blk3_apply (c : Dev nD) (t : Fin cfg2.N) (k : Fin 256) (q : Fin 256) :
    iblk2 V c 3 t (ix2 k q) = V c (Pipeline.arrRef spec2 3) (ix2 k q) := by
  show V c (Pipeline.arrRef spec2 3) (((cfg2.win 3).blk t).view.emb (ix2 k q)) = _
  rw [emb3]
theorem blk4_apply (c : Dev nD) (t : Fin cfg2.N) (z : Fin 1) (q : Fin 256) :
    iblk2 V c 4 t (ix2 z q) = V c (Pipeline.arrRef spec2 4) (ix2 z q) := by
  show V c (Pipeline.arrRef spec2 4) (((cfg2.win 4).blk t).view.emb (ix2 z q)) = _
  rw [emb4]

/-- The first stored block of point t at (p, q) is the layer of the five input arrays at (2000·t + p, q). -/
theorem pay1_blk (c : Dev nD) (t : Fin cfg2.N) (p : Fin 2000) (q : Fin 256) :
    k2_pay1 (iblk2 V c 0 t) (iblk2 V c 1 t) (iblk2 V c 3 t) (iblk2 V c 2 t) (iblk2 V c 4 t) (ix2 p q)
      = Cert.ReferenceIdeal.Spec.layerKer (F := Ideal) (V c (Pipeline.arrRef spec2 0)) (V c (Pipeline.arrRef spec2 1)) (V c (Pipeline.arrRef spec2 2))
          (V c (Pipeline.arrRef spec2 3)) (V c (Pipeline.arrRef spec2 4)) (ix2 (rowOf t p) q) := by
  rw [layerKer_apply]
  exact pay1_apply_of_eq (iblk2 V c 0 t) (iblk2 V c 1 t) (iblk2 V c 2 t) (iblk2 V c 3 t) (iblk2 V c 4 t) p q
    (fun k => V c (Pipeline.arrRef spec2 0) (ix2 (rowOf t p) k)) (fun k => V c (Pipeline.arrRef spec2 1) (ix2 (rowOf t p) k))
    (fun k => V c (Pipeline.arrRef spec2 3) (ix2 k q)) (V c (Pipeline.arrRef spec2 2) (ix2 (rowOf t p) q)) (V c (Pipeline.arrRef spec2 4) (ix2 0 q))
    (fun k => blk0_apply V c t p k) (fun k => blk1_apply V c t p k) (blk2_apply V c t p q) (fun k => blk3_apply V c t k q) (blk4_apply V c t 0 q)

/-- What point t writes back through window 5 is block t of the layer of the five input arrays. -/
theorem flushed5 (c : Dev nD) (t : Fin cfg2.N) :
    (dat2 V c).flushed 5 t = ((cfg2.win 5).blk t).view.read (Elt Ideal)
      (Cert.ReferenceIdeal.Spec.layerKer (F := Ideal) (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k2_pay1 (iblk2 V c 0 t) (iblk2 V c 1 t) (iblk2 V c 3 t) (iblk2 V c 2 t) (iblk2 V c 4 t) (ix2 p q)
    = Cert.ReferenceIdeal.Spec.layerKer (F := Ideal) (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  rw [emb5]
  exact pay1_blk V c t p q

/-- What point t writes back through window 6 is block t of the positive part of that layer. -/
theorem flushed6 (c : Dev nD) (t : Fin cfg2.N) :
    (dat2 V c).flushed 6 t = ((cfg2.win 6).blk t).view.read (Elt Ideal)
      (Cert.ReferenceIdeal.Spec.relu (F := Ideal) (Cert.ReferenceIdeal.Spec.layerKer (F := Ideal) (V c (Pipeline.arrRef spec2 0)) (V c (Pipeline.arrRef spec2 1)) (V c (Pipeline.arrRef spec2 2))
        (V c (Pipeline.arrRef spec2 3)) (V c (Pipeline.arrRef spec2 4)))) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k2_pay2 (iblk2 V c 0 t) (iblk2 V c 1 t) (iblk2 V c 3 t) (iblk2 V c 2 t) (iblk2 V c 4 t) (ix2 p q)
    = Cert.ReferenceIdeal.Spec.relu (F := Ideal) (Cert.ReferenceIdeal.Spec.layerKer (F := Ideal) (V c (Pipeline.arrRef spec2 0)) (V c (Pipeline.arrRef spec2 1)) (V c (Pipeline.arrRef spec2 2))
        (V c (Pipeline.arrRef spec2 3)) (V c (Pipeline.arrRef spec2 4))) (((cfg2.win 6).blk t).view.emb (ix2 p q))
  rw [emb6, relu_apply, ← pay1_blk V c t p q]
  exact pay2_apply (iblk2 V c 0 t) (iblk2 V c 1 t) (iblk2 V c 2 t) (iblk2 V c 3 t) (iblk2 V c 4 t) p q

/-- An index of the edge array is in point t's block of an output window iff its row is among the block's 2000 rows. -/
theorem mem_blk5 (t : Fin cfg2.N) (i : S320000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v29_0).slice (win2_5.rect t)).set ↔ _
  rw [View.set_slice_whole, Rect.mem_set_unit]
  exact Iff.rfl
theorem mem_blk6 (t : Fin cfg2.N) (i : S320000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v29_1).slice (win2_6.rect t)).set ↔ _
  rw [View.set_slice_whole, Rect.mem_set_unit]
  exact Iff.rfl

/-- Every index lies in the block of the point that holds its row: point (row / 2000). -/
theorem cover5 (i : S320000x256.Idx) : ∃ t : Fin cfg2.N, (cfg2.win 5).flush t = true ∧ i ∈ ((cfg2.win 5).blk t).view.set := by
  have hi0 : (i 0).val < 320000 := (i 0).isLt
  have hi1 : (i 1).val < 256 := (i 1).isLt
  have hN : cfg2.N = 160 := N_2
  refine ⟨⟨(i 0).val / 2000, by rw [hN]; omega⟩, flush2_5 _, ?_⟩
  rw [mem_blk5]
  obtain ⟨-, -, -, -, -, ⟨e0, e1⟩, -⟩ := idx_facts ⟨(i 0).val / 2000, by rw [hN]; omega⟩
  intro a
  match a with
  | ⟨0, _⟩ => show win2_5.index _ (0 : Fin 2) * 2000 ≤ (i 0).val ∧ (i 0).val < win2_5.index _ (0 : Fin 2) * 2000 + 2000; rw [e0]; show (i 0).val / 2000 * 2000 ≤ _ ∧ _ < (i 0).val / 2000 * 2000 + 2000; omega
  | ⟨1, _⟩ => show win2_5.index _ (1 : Fin 2) * 256 ≤ (i 1).val ∧ (i 1).val < win2_5.index _ (1 : Fin 2) * 256 + 256; rw [e1]; omega
theorem cover6 (i : S320000x256.Idx) : ∃ t : Fin cfg2.N, (cfg2.win 6).flush t = true ∧ i ∈ ((cfg2.win 6).blk t).view.set := by
  have hi0 : (i 0).val < 320000 := (i 0).isLt
  have hi1 : (i 1).val < 256 := (i 1).isLt
  have hN : cfg2.N = 160 := N_2
  refine ⟨⟨(i 0).val / 2000, by rw [hN]; omega⟩, flush2_6 _, ?_⟩
  rw [mem_blk6]
  obtain ⟨-, -, -, -, -, -, e0, e1⟩ := idx_facts ⟨(i 0).val / 2000, by rw [hN]; omega⟩
  intro a
  match a with
  | ⟨0, _⟩ => show win2_6.index _ (0 : Fin 2) * 2000 ≤ (i 0).val ∧ (i 0).val < win2_6.index _ (0 : Fin 2) * 2000 + 2000; rw [e0]; show (i 0).val / 2000 * 2000 ≤ _ ∧ _ < (i 0).val / 2000 * 2000 + 2000; omega
  | ⟨1, _⟩ => show win2_6.index _ (1 : Fin 2) * 256 ≤ (i 1).val ∧ (i 1).val < win2_6.index _ (1 : Fin 2) * 256 + 256; rw [e1]; omega

/-- After the launch output array 5 is the layer of the five input arrays as the launch finds them, -/
theorem final2_5 (c : Dev nD) : (dat2 V c).arrAt 5 cfg2.N =
    Cert.ReferenceIdeal.Spec.layerKer (F := Ideal) (V c (Pipeline.arrRef spec2 0)) (V c (Pipeline.arrRef spec2 1)) (V c (Pipeline.arrRef spec2 2))
      (V c (Pipeline.arrRef spec2 3)) (V c (Pipeline.arrRef spec2 4)) :=
  (dat2 V c).arrAt_eq_of_cover 5 _ (fun t _ => flushed5 V c t) cover5

/-- and output array 6 its positive part. -/
theorem final2_6 (c : Dev nD) : (dat2 V c).arrAt 6 cfg2.N =
    Cert.ReferenceIdeal.Spec.relu (F := Ideal) (Cert.ReferenceIdeal.Spec.layerKer (F := Ideal) (V c (Pipeline.arrRef spec2 0)) (V c (Pipeline.arrRef spec2 1)) (V c (Pipeline.arrRef spec2 2))
      (V c (Pipeline.arrRef spec2 3)) (V c (Pipeline.arrRef spec2 4))) :=
  (dat2 V c).arrAt_eq_of_cover 6 _ (fun t _ => flushed6 V c t) cover6

end Cert.KernelIdeal.Hand2

end
-- ==== Proof.KLayer2.lean ====
/-
  One layer of the kernel's @main between two launches, read as whole arrays. From the buffers as the previous launch
  left them — the hidden edge states h and their positive part a, the source and destination node of every edge, the
  reverse-edge indices and the layer's weights — the host operations compute the per-node sums of a's rows by destination,
  take them back at the sources, take a's rows at the reverse edges, transpose the layer's weight matrix and lay its bias
  as a row; the launch then writes (h + (taken sums − taken rows) · Wᵀ) + b and its positive part. With every source index
  a node and every reverse index an edge the kernel's takes are plain gathers, and the new state is the reference's
  h + ((taken sums − taken rows) · Wᵀ + b): addition of extended reals is associative.
-/
import proofs.«415223_j55130200212263_1_alg».proof.Proof.Gen.KernelIdeal.Frame
import proofs.«415223_j55130200212263_1_alg».proof.Proof.RSpec
import proofs.«415223_j55130200212263_1_alg».proof.Proof.TakeFill
import proofs.«415223_j55130200212263_1_alg».proof.Proof.Region2Value
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe Idealize.SL.Sem Idealize.ShloMosaic.StableHlo

namespace Cert.KernelIdeal.HandLayer2

open Cert.KernelIdeal Cert.KernelIdeal.Gen Cert.KernelIdeal.HandTake
open Cert.ReferenceIdeal (Spec.srcOf Spec.destOf Spec.takeNode Spec.takeEdge Spec.segSum Spec.relu Spec.layerKer Spec.layerRef Spec.stepRef Spec.wT1 Spec.bRow1)

/-- A buffer that no operation of a host stretch writes holds after the stretch what it held before. -/
local macro "keep_host " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The host stretches, each from any contents `X` of the buffers -/

section Stretches
variable (X : Valuation τ sig (Elt Ideal))

set_option maxHeartbeats 4000000 in
/-- The per-node sums: the positive parts' rows added into their destination node's row, from zero. -/
theorem sums_eq : (StableHlo.after hostOps2 X (Proc.devRef .tc main_v20) : FVec Ideal S100000x256 .f32)
    = Cert.ReferenceIdeal.Spec.segSum (F := Ideal) (X (Proc.devRef .tc main_v17_1)) (X (Proc.devRef .tc main_v3)) := by
  after_results_simp
  try simp only [TRef.toBuf, TRef.ofBuf, cast_eq]
  rfl

set_option maxHeartbeats 4000000 in
/-- The sums taken back at the edges' source nodes (the kernel's take). -/
theorem takeSums_eq : (StableHlo.after hostOps2_1 X (Proc.devRef .tc main_v21) : FVec Ideal S320000x256 .f32)
    = takeNodeK (F := Ideal) (X (Proc.devRef .tc main_v20)) (X (Proc.devRef .tc main_v1)) := by
  after_results_simp
  simp only [TRef.toBuf, TRef.ofBuf, cast_eq]
  rfl

set_option maxHeartbeats 4000000 in
/-- The positive parts taken at the reverse edges (the kernel's take). -/
theorem takeRev_eq : (StableHlo.after hostOps2_2 X (Proc.devRef .tc main_v22) : FVec Ideal S320000x256 .f32)
    = takeEdgeK (F := Ideal) (X (Proc.devRef .tc main_v17_1)) (X (Proc.devRef .tc main_arg5)) := by
  after_results_simp
  simp only [TRef.toBuf, TRef.ofBuf, cast_eq]
  rfl

set_option maxHeartbeats 4000000 in
/-- The layer's weight matrix transposed. -/
theorem wT_eq : (StableHlo.after hostOps2_3 X (Proc.devRef .tc main_v25) : FVec Ideal S256x256 .f32)
    = Cert.ReferenceIdeal.Spec.wT1 (F := Ideal) (X (Proc.devRef .tc main_arg2)) := by
  after_results_simp
  try simp only [TRef.toBuf, TRef.ofBuf, cast_eq]
  rfl

set_option maxHeartbeats 4000000 in
/-- The layer's bias as one row. -/
theorem bRow_eq : (StableHlo.after hostOps2_3 X (Proc.devRef .tc main_v28) : FVec Ideal S1x256 .f32)
    = Cert.ReferenceIdeal.Spec.bRow1 (F := Ideal) (X (Proc.devRef .tc main_arg3)) := by
  after_results_simp
  try simp only [TRef.toBuf, TRef.ofBuf, cast_eq]
  rfl

end Stretches

/-! ## The layer over the run's boundaries -/

variable (m : (ℓ : Loc nD τ sig) → Buf (Elt Ideal) ℓ) (ρ : Dev nD → PrngReg)

/-- What the four stretches do not write reaches the launch as the previous launch left it. -/
theorem keep_v1 (c : Dev nD) : W12 m ρ c (Proc.devRef .tc main_v1) = W8 m ρ c (Proc.devRef .tc main_v1) :=
  calc W12 m ρ c (Proc.devRef .tc main_v1)
    _ = W11 m ρ c (Proc.devRef .tc main_v1) := by keep_host hostOps2_3
    _ = W10 m ρ c (Proc.devRef .tc main_v1) := by keep_host hostOps2_2
    _ = W9 m ρ c (Proc.devRef .tc main_v1) := by keep_host hostOps2_1
    _ = W8 m ρ c (Proc.devRef .tc main_v1) := by keep_host hostOps2
theorem keep_v3 (c : Dev nD) : W12 m ρ c (Proc.devRef .tc main_v3) = W8 m ρ c (Proc.devRef .tc main_v3) :=
  calc W12 m ρ c (Proc.devRef .tc main_v3)
    _ = W11 m ρ c (Proc.devRef .tc main_v3) := by keep_host hostOps2_3
    _ = W10 m ρ c (Proc.devRef .tc main_v3) := by keep_host hostOps2_2
    _ = W9 m ρ c (Proc.devRef .tc main_v3) := by keep_host hostOps2_1
    _ = W8 m ρ c (Proc.devRef .tc main_v3) := by keep_host hostOps2
theorem keep_arg5 (c : Dev nD) : W12 m ρ c (Proc.devRef .tc main_arg5) = W8 m ρ c (Proc.devRef .tc main_arg5) :=
  calc W12 m ρ c (Proc.devRef .tc main_arg5)
    _ = W11 m ρ c (Proc.devRef .tc main_arg5) := by keep_host hostOps2_3
    _ = W10 m ρ c (Proc.devRef .tc main_arg5) := by keep_host hostOps2_2
    _ = W9 m ρ c (Proc.devRef .tc main_arg5) := by keep_host hostOps2_1
    _ = W8 m ρ c (Proc.devRef .tc main_arg5) := by keep_host hostOps2
theorem keep_arg2 (c : Dev nD) : W12 m ρ c (Proc.devRef .tc main_arg2) = W8 m ρ c (Proc.devRef .tc main_arg2) :=
  calc W12 m ρ c (Proc.devRef .tc main_arg2)
    _ = W11 m ρ c (Proc.devRef .tc main_arg2) := by keep_host hostOps2_3
    _ = W10 m ρ c (Proc.devRef .tc main_arg2) := by keep_host hostOps2_2
    _ = W9 m ρ c (Proc.devRef .tc main_arg2) := by keep_host hostOps2_1
    _ = W8 m ρ c (Proc.devRef .tc main_arg2) := by keep_host hostOps2
theorem keep_arg3 (c : Dev nD) : W12 m ρ c (Proc.devRef .tc main_arg3) = W8 m ρ c (Proc.devRef .tc main_arg3) :=
  calc W12 m ρ c (Proc.devRef .tc main_arg3)
    _ = W11 m ρ c (Proc.devRef .tc main_arg3) := by keep_host hostOps2_3
    _ = W10 m ρ c (Proc.devRef .tc main_arg3) := by keep_host hostOps2_2
    _ = W9 m ρ c (Proc.devRef .tc main_arg3) := by keep_host hostOps2_1
    _ = W8 m ρ c (Proc.devRef .tc main_arg3) := by keep_host hostOps2
theorem keep_h (c : Dev nD) : W12 m ρ c (Proc.devRef .tc main_v17_0) = W8 m ρ c (Proc.devRef .tc main_v17_0) :=
  calc W12 m ρ c (Proc.devRef .tc main_v17_0)
    _ = W11 m ρ c (Proc.devRef .tc main_v17_0) := by keep_host hostOps2_3
    _ = W10 m ρ c (Proc.devRef .tc main_v17_0) := by keep_host hostOps2_2
    _ = W9 m ρ c (Proc.devRef .tc main_v17_0) := by keep_host hostOps2_1
    _ = W8 m ρ c (Proc.devRef .tc main_v17_0) := by keep_host hostOps2

/-- The launch's first window: the per-node sums of the previous positive parts, taken at the sources. -/
theorem win0_eq (c : Dev nD) : (W12 m ρ c (Proc.devRef .tc main_v21) : FVec Ideal S320000x256 .f32)
    = takeNodeK (F := Ideal) (Cert.ReferenceIdeal.Spec.segSum (F := Ideal) (W8 m ρ c (Proc.devRef .tc main_v17_1)) (W8 m ρ c (Proc.devRef .tc main_v3)))
        (W8 m ρ c (Proc.devRef .tc main_v1)) := by
  have e1 : W12 m ρ c (Proc.devRef .tc main_v21) = W10 m ρ c (Proc.devRef .tc main_v21) :=
    calc W12 m ρ c (Proc.devRef .tc main_v21)
      _ = W11 m ρ c (Proc.devRef .tc main_v21) := by keep_host hostOps2_3
      _ = W10 m ρ c (Proc.devRef .tc main_v21) := by keep_host hostOps2_2
  have e2 : W9 m ρ c (Proc.devRef .tc main_v1) = W8 m ρ c (Proc.devRef .tc main_v1) := by keep_host hostOps2
  have e3 : (W9 m ρ c (Proc.devRef .tc main_v20) : FVec Ideal S100000x256 .f32)
      = Cert.ReferenceIdeal.Spec.segSum (F := Ideal) (W8 m ρ c (Proc.devRef .tc main_v17_1)) (W8 m ρ c (Proc.devRef .tc main_v3)) := sums_eq (W8 m ρ c)
  have e4 : (W10 m ρ c (Proc.devRef .tc main_v21) : FVec Ideal S320000x256 .f32)
      = takeNodeK (F := Ideal) (W9 m ρ c (Proc.devRef .tc main_v20)) (W9 m ρ c (Proc.devRef .tc main_v1)) := takeSums_eq (W9 m ρ c)
  rw [e1, e4, e3, e2]

/-- The second window: the previous positive parts taken at the reverse edges. -/
theorem win1_eq (c : Dev nD) : (W12 m ρ c (Proc.devRef .tc main_v22) : FVec Ideal S320000x256 .f32)
    = takeEdgeK (F := Ideal) (W8 m ρ c (Proc.devRef .tc main_v17_1)) (W8 m ρ c (Proc.devRef .tc main_arg5)) := by
  have e1 : W12 m ρ c (Proc.devRef .tc main_v22) = W11 m ρ c (Proc.devRef .tc main_v22) := by keep_host hostOps2_3
  have e2 : W10 m ρ c (Proc.devRef .tc main_v17_1) = W8 m ρ c (Proc.devRef .tc main_v17_1) :=
    calc W10 m ρ c (Proc.devRef .tc main_v17_1)
      _ = W9 m ρ c (Proc.devRef .tc main_v17_1) := by keep_host hostOps2_1
      _ = W8 m ρ c (Proc.devRef .tc main_v17_1) := by keep_host hostOps2
  have e3 : W10 m ρ c (Proc.devRef .tc main_arg5) = W8 m ρ c (Proc.devRef .tc main_arg5) :=
    calc W10 m ρ c (Proc.devRef .tc main_arg5)
      _ = W9 m ρ c (Proc.devRef .tc main_arg5) := by keep_host hostOps2_1
      _ = W8 m ρ c (Proc.devRef .tc main_arg5) := by keep_host hostOps2
  have e4 : (W11 m ρ c (Proc.devRef .tc main_v22) : FVec Ideal S320000x256 .f32)
      = takeEdgeK (F := Ideal) (W10 m ρ c (Proc.devRef .tc main_v17_1)) (W10 m ρ c (Proc.devRef .tc main_arg5)) := takeRev_eq (W10 m ρ c)
  rw [e1, e4, e2, e3]

/-- The fourth and fifth windows: the transposed weights and the bias row. -/
theorem win3_eq (c : Dev nD) : (W12 m ρ c (Proc.devRef .tc main_v25) : FVec Ideal S256x256 .f32)
    = Cert.ReferenceIdeal.Spec.wT1 (F := Ideal) (W8 m ρ c (Proc.devRef .tc main_arg2)) := by
  have e : W11 m ρ c (Proc.devRef .tc main_arg2) = W8 m ρ c (Proc.devRef .tc main_arg2) :=
    calc W11 m ρ c (Proc.devRef .tc main_arg2)
      _ = W10 m ρ c (Proc.devRef .tc main_arg2) := by keep_host hostOps2_2
      _ = W9 m ρ c (Proc.devRef .tc main_arg2) := by keep_host hostOps2_1
      _ = W8 m ρ c (Proc.devRef .tc main_arg2) := by keep_host hostOps2
  have e4 : (W12 m ρ c (Proc.devRef .tc main_v25) : FVec Ideal S256x256 .f32)
      = Cert.ReferenceIdeal.Spec.wT1 (F := Ideal) (W11 m ρ c (Proc.devRef .tc main_arg2)) := wT_eq (W11 m ρ c)
  rw [e4, e]
theorem win4_eq (c : Dev nD) : (W12 m ρ c (Proc.devRef .tc main_v28) : FVec Ideal S1x256 .f32)
    = Cert.ReferenceIdeal.Spec.bRow1 (F := Ideal) (W8 m ρ c (Proc.devRef .tc main_arg3)) := by
  have e : W11 m ρ c (Proc.devRef .tc main_arg3) = W8 m ρ c (Proc.devRef .tc main_arg3) :=
    calc W11 m ρ c (Proc.devRef .tc main_arg3)
      _ = W10 m ρ c (Proc.devRef .tc main_arg3) := by keep_host hostOps2_2
      _ = W9 m ρ c (Proc.devRef .tc main_arg3) := by keep_host hostOps2_1
      _ = W8 m ρ c (Proc.devRef .tc main_arg3) := by keep_host hostOps2
  have e4 : (W12 m ρ c (Proc.devRef .tc main_v28) : FVec Ideal S1x256 .f32)
      = Cert.ReferenceIdeal.Spec.bRow1 (F := Ideal) (W11 m ρ c (Proc.devRef .tc main_arg3)) := bRow_eq (W11 m ρ c)
  rw [e4, e]

/-- Addition of extended reals is associative: the kernel's grouping of one layer is the reference's. -/
theorem layerKer_eq (mv ar h : FVec Ideal Cert.ReferenceIdeal.S320000x256 .f32) (wt : FVec Ideal Cert.ReferenceIdeal.S256x256 .f32)
    (br : FVec Ideal Cert.ReferenceIdeal.S1x256 .f32) :
    Cert.ReferenceIdeal.Spec.layerKer mv ar h wt br = Cert.ReferenceIdeal.Spec.layerRef mv ar h wt br := by
  funext i
  show (h i + _) + _ = h i + (_ + _)
  exact add_assoc _ _ _

set_option maxHeartbeats 4000000 in
/-- THE LAYER. If the previous launch left the hidden states `hp` and their positive part, and the index tables and weights
    are the arguments', then this launch leaves the reference's next hidden states and their positive part, the tables and
    weights still in place. -/
theorem layer (c : Dev nD) (hp : FVec Ideal S320000x256 .f32) (ei : IVec S2x320000 32) (rev : IVec S320000 32)
    (w : FVec Ideal S3x256x256 .f32) (b : FVec Ideal S3x256 .f32)
    (hs : InRange 100000#32 (Cert.ReferenceIdeal.Spec.srcOf ei)) (hr : InRange 320000#32 rev)
    (e1 : W8 m ρ c (Proc.devRef .tc main_v1) = Cert.ReferenceIdeal.Spec.srcOf ei)
    (e3 : W8 m ρ c (Proc.devRef .tc main_v3) = Cert.ReferenceIdeal.Spec.destOf ei)
    (e5 : W8 m ρ c (Proc.devRef .tc main_arg5) = rev)
    (e2 : W8 m ρ c (Proc.devRef .tc main_arg2) = w)
    (e4 : W8 m ρ c (Proc.devRef .tc main_arg3) = b)
    (eh : W8 m ρ c (Proc.devRef .tc main_v17_0) = hp)
    (ea : W8 m ρ c (Proc.devRef .tc main_v17_1) = Cert.ReferenceIdeal.Spec.relu (F := Ideal) hp) :
    W13 m ρ c (Proc.devRef .tc main_v1) = Cert.ReferenceIdeal.Spec.srcOf ei
    ∧ W13 m ρ c (Proc.devRef .tc main_v3) = Cert.ReferenceIdeal.Spec.destOf ei
    ∧ W13 m ρ c (Proc.devRef .tc main_arg5) = rev
    ∧ W13 m ρ c (Proc.devRef .tc main_arg2) = w
    ∧ W13 m ρ c (Proc.devRef .tc main_arg3) = b
    ∧ W13 m ρ c (Proc.devRef .tc main_v29_0) = Cert.ReferenceIdeal.Spec.stepRef (F := Ideal) hp ei rev (Cert.ReferenceIdeal.Spec.wT1 w) (Cert.ReferenceIdeal.Spec.bRow1 b)
    ∧ W13 m ρ c (Proc.devRef .tc main_v29_1) = Cert.ReferenceIdeal.Spec.relu (F := Ideal)
        (Cert.ReferenceIdeal.Spec.stepRef (F := Ideal) hp ei rev (Cert.ReferenceIdeal.Spec.wT1 w) (Cert.ReferenceIdeal.Spec.bRow1 b)) := by
  have k0 : (V12 m ρ c (Pipeline.arrRef spec2 0) : FVec Ideal S320000x256 .f32)
      = Cert.ReferenceIdeal.Spec.takeNode (F := Ideal) (Cert.ReferenceIdeal.Spec.segSum (F := Ideal) (Cert.ReferenceIdeal.Spec.relu (F := Ideal) hp) (Cert.ReferenceIdeal.Spec.destOf ei)) (Cert.ReferenceIdeal.Spec.srcOf ei) := by
    show W12 m ρ c (Proc.devRef .tc main_v21) = _
    rw [win0_eq, ea, e3, e1, takeNodeK_eq _ _ hs]
  have k1 : (V12 m ρ c (Pipeline.arrRef spec2 1) : FVec Ideal S320000x256 .f32)
      = Cert.ReferenceIdeal.Spec.takeEdge (F := Ideal) (Cert.ReferenceIdeal.Spec.relu (F := Ideal) hp) rev := by
    show W12 m ρ c (Proc.devRef .tc main_v22) = _
    rw [win1_eq, ea, e5, takeEdgeK_eq _ _ hr]
  have k2 : (V12 m ρ c (Pipeline.arrRef spec2 2) : FVec Ideal S320000x256 .f32) = hp := by
    show W12 m ρ c (Proc.devRef .tc main_v17_0) = _
    rw [keep_h, eh]
  have k3 : (V12 m ρ c (Pipeline.arrRef spec2 3) : FVec Ideal S256x256 .f32) = Cert.ReferenceIdeal.Spec.wT1 (F := Ideal) w := by
    show W12 m ρ c (Proc.devRef .tc main_v25) = _
    rw [win3_eq, e2]
  have k4 : (V12 m ρ c (Pipeline.arrRef spec2 4) : FVec Ideal S1x256 .f32) = Cert.ReferenceIdeal.Spec.bRow1 (F := Ideal) b := by
    show W12 m ρ c (Proc.devRef .tc main_v28) = _
    rw [win4_eq, e4]
  have hH : W13 m ρ c (Proc.devRef .tc main_v29_0) = Cert.ReferenceIdeal.Spec.stepRef (F := Ideal) hp ei rev (Cert.ReferenceIdeal.Spec.wT1 w) (Cert.ReferenceIdeal.Spec.bRow1 b) := by
    refine ((W13_arr m ρ c 5).trans (Cert.KernelIdeal.Hand2.final2_5 (V12 m ρ) c)).trans ?_
    rw [k0, k1, k2, k3, k4, layerKer_eq]
    rfl
  have hA : W13 m ρ c (Proc.devRef .tc main_v29_1) = Cert.ReferenceIdeal.Spec.relu (F := Ideal)
      (Cert.ReferenceIdeal.Spec.stepRef (F := Ideal) hp ei rev (Cert.ReferenceIdeal.Spec.wT1 w) (Cert.ReferenceIdeal.Spec.bRow1 b)) := by
    refine ((W13_arr m ρ c 6).trans (Cert.KernelIdeal.Hand2.final2_6 (V12 m ρ) c)).trans ?_
    rw [k0, k1, k2, k3, k4, layerKer_eq]
    rfl
  refine ⟨?_, ?_, ?_, ?_, ?_, hH, hA⟩
  · rw [W13_of_ne m ρ c main_v1 (by decide), keep_v1, e1]
  · rw [W13_of_ne m ρ c main_v3 (by decide), keep_v3, e3]
  · rw [W13_of_ne m ρ c main_arg5 (by decide), keep_arg5, e5]
  · rw [W13_of_ne m ρ c main_arg2 (by decide), keep_arg2, e2]
  · rw [W13_of_ne m ρ c main_arg3 (by decide), keep_arg3, e4]

end Cert.KernelIdeal.HandLayer2

end
-- ==== Proof.Region3Value.lean ====
/-
  The layer-update launch, read as whole arrays. Its grid has 160 points; point t holds rows 2000·t … 2000·t + 1999 of
  the three per-edge inputs mv, ar, h and of the two outputs, together with the whole 256×256 matrix wt and the whole
  bias row br. Per block it stores (h + (mv − ar)·wt) + br and the positive part of that. At the ideal values the two
  format changes are the identity and the product into a zero accumulator is the plain sum over the contracted axis, so
  entry (p, q) of point t's first stored block is entry (2000·t + p, q) of the same layer applied to the whole arrays.
  The 160 row blocks tile the 320000 rows, which gives the two statements at the end.
-/
import proofs.«415223_j55130200212263_1_alg».proof.Proof.Gen.KernelIdeal.Frame
import proofs.«415223_j55130200212263_1_alg».proof.Proof.RSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand3

open Cert.KernelIdeal Cert.KernelIdeal.Gen
open Idealize.ShloMosaic.ValueIdx (ix2)

/-! ## The block product at an index

The kernel's product record contracts the left operand's axis 1 with the right operand's axis 0; the four lemmas below read
the operand indices of an output index (row, column) and a contraction position k: (row, k) on the left, (k, column) on the right. -/

theorem kl0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem kl1 (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
theorem kr0 (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
theorem kr1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at (p, q): the sum over k of a(p, k) · b(k, q). -/
theorem kmatmul_apply {φ₁ φ₂ : FTy} (a : FVec Ideal S2000x256 φ₁) (b : FVec Ideal S256x256 φ₂) (p : Fin 2000) (q : Fin 256) :
    matmul dot_S2000x256_S256x256_S2000x256_1_0_0_1_n_n none a b (constant S2000x256 .f32 0x00000000#32) (ix2 p q)
      = ∑ k : Fin 256, a (ix2 p k) * b (ix2 k q) := by
  simp only [matmul]
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun d => Fin.ext (by
      match d with
      | ⟨0, _⟩ => exact kl0 _ _
      | ⟨1, _⟩ => exact (kl1 _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun d => Fin.ext (by
      match d with
      | ⟨0, _⟩ => exact (kr0 _ _).trans hk
      | ⟨1, _⟩ => exact kr1 _ _)
  rw [el, er]

/-- The first stored block at (p, q): the h block's entry plus the sum over k of (mv − ar)(p, k) · wt(k, q), plus the
    bias row's entry q. At the ideal values the two format changes are the identity. -/
theorem pay1_apply (x0 x1 x2 : Vec Ideal S2000x256 .f32) (x3 : Vec Ideal S256x256 .f32) (x4 : Vec Ideal S1x256 .f32)
    (p : Fin 2000) (q : Fin 256) :
    k3_pay1 x0 x1 x3 x2 x4 (ix2 p q)
      = (x2 (ix2 p q) + ∑ k : Fin 256, (x0 (ix2 p k) - x1 (ix2 p k)) * x3 (ix2 k q)) + x4 (ix2 0 q) := by
  unfold k3_pay1
  simp only [shapeCast_self]
  rw [ValueIdx.addf_apply, ValueIdx.addf_apply, kmatmul_apply,
    broadcastTo_apply x4 broadcasts_S1x256_S2000x256 (ix2 p q) (ix2 0 q) (fun d => by
      match d with
      | ⟨0, _⟩ => rfl
      | ⟨1, _⟩ => rfl)]
  rfl

/-- The second stored block at (p, q): the positive part of the first. -/
theorem pay2_apply (x0 x1 x2 : Vec Ideal S2000x256 .f32) (x3 : Vec Ideal S256x256 .f32) (x4 : Vec Ideal S1x256 .f32)
    (p : Fin 2000) (q : Fin 256) :
    k3_pay2 x0 x1 x3 x2 x4 (ix2 p q) = max (k3_pay1 x0 x1 x3 x2 x4 (ix2 p q)) (Ideal.ofBits .f32 0x00000000#32) := by
  unfold k3_pay2
  rfl

/-- The same with the entries named: whatever the five blocks read at the entries the sum visits. -/
theorem pay1_apply_of_eq (x0 x1 x2 : Vec Ideal S2000x256 .f32) (x3 : Vec Ideal S256x256 .f32) (x4 : Vec Ideal S1x256 .f32)
    (p : Fin 2000) (q : Fin 256) (a0 a1 a3 : Fin 256 → EReal) (a2 a4 : EReal)
    (h0 : ∀ k, x0 (ix2 p k) = a0 k) (h1 : ∀ k, x1 (ix2 p k) = a1 k) (h2 : x2 (ix2 p q) = a2)
    (h3 : ∀ k, x3 (ix2 k q) = a3 k) (h4 : x4 (ix2 0 q) = a4) :
    k3_pay1 x0 x1 x3 x2 x4 (ix2 p q) = (a2 + ∑ k : Fin 256, (a0 k - a1 k) * a3 k) + a4 := by
  rw [pay1_apply, h2, h4]
  simp only [h0, h1, h3]

/-! ## The whole-array layer at an index

The reference's product record contracts the same axes; the same four readings, at the whole arrays' shapes. -/

theorem rl0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 0).val = (i 0).val := by
  unfold DotDims.lhsIdx
  rw [dif_neg (show ¬(0 : Fin Cert.ReferenceIdeal.S320000x256.rank) ∈ Cert.ReferenceIdeal.dot_S320000x256_S256x256_S320000x256_1_0_0_1_n_n.lhsBatch by decide),
    dif_pos (show (0 : Fin Cert.ReferenceIdeal.S320000x256.rank) ∈ Cert.ReferenceIdeal.dot_S320000x256_S256x256_S320000x256_1_0_0_1_n_n.lhsNonContracting by decide)]
  rfl
theorem rl1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.lhsIdx i k 1).val = (k ⟨0, by decide⟩).val :=
  Cert.ReferenceIdeal.dot_S320000x256_S256x256_S320000x256_1_0_0_1_n_n.lhsIdx_val_of_single rfl i k
theorem rr0 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 0).val = (k ⟨0, by decide⟩).val :=
  Cert.ReferenceIdeal.dot_S320000x256_S256x256_S320000x256_1_0_0_1_n_n.rhsIdx_val_of_single rfl i k
theorem rr1 (i : Cert.ReferenceIdeal.S320000x256.Idx) (k : Cert.ReferenceIdeal.dot_S320000x256_S256x256_S320000x256_1_0_0_1_n_n.contr.Idx) :
    (Cert.ReferenceIdeal.dot_S320000x256_S256x256_S320000x256_1_0_0_1_n_n.rhsIdx i k 1).val = (i 1).val := by
  unfold DotDims.rhsIdx
  rw [dif_neg (show ¬(1 : Fin Cert.ReferenceIdeal.S256x256.rank) ∈ Cert.ReferenceIdeal.dot_S320000x256_S256x256_S320000x256_1_0_0_1_n_n.rhsBatch by decide),
    dif_pos (show (1 : Fin Cert.ReferenceIdeal.S256x256.rank) ∈ Cert.ReferenceIdeal.dot_S320000x256_S256x256_S320000x256_1_0_0_1_n_n.rhsNonContracting by decide)]
  rfl

/-- The whole-array product at (r, q): the sum over k of x(r, k) · wt(k, q). -/
theorem lin_apply (x : FVec Ideal Cert.ReferenceIdeal.S320000x256 .f32) (wt : FVec Ideal Cert.ReferenceIdeal.S256x256 .f32)
    (r : Fin 320000) (q : Fin 256) :
    Cert.ReferenceIdeal.Spec.lin (F := Ideal) x wt (ix2 r q) = ∑ k : Fin 256, x (ix2 r k) * wt (ix2 k q) := by
  unfold Cert.ReferenceIdeal.Spec.lin
  simp only [Host.dotGeneral]
  rw [Ideal.dotGeneral_apply,
    ← Equiv.sum_comp (ValueIdx.contrEquiv1 Cert.ReferenceIdeal.dot_S320000x256_S256x256_S320000x256_1_0_0_1_n_n 256 rfl rfl).symm]
  refine Finset.sum_congr rfl fun k _ => ?_
  have hk := ValueIdx.contrEquiv1_symm_val Cert.ReferenceIdeal.dot_S320000x256_S256x256_S320000x256_1_0_0_1_n_n 256 rfl rfl k
  have el : Cert.ReferenceIdeal.dot_S320000x256_S256x256_S320000x256_1_0_0_1_n_n.lhsIdx (ix2 r q)
      ((ValueIdx.contrEquiv1 Cert.ReferenceIdeal.dot_S320000x256_S256x256_S320000x256_1_0_0_1_n_n 256 rfl rfl).symm k) = ix2 r k :=
    funext fun d => Fin.ext (by
      match d with
      | ⟨0, _⟩ => exact rl0 _ _
      | ⟨1, _⟩ => exact (rl1 _ _).trans hk)
  have er : Cert.ReferenceIdeal.dot_S320000x256_S256x256_S320000x256_1_0_0_1_n_n.rhsIdx (ix2 r q)
      ((ValueIdx.contrEquiv1 Cert.ReferenceIdeal.dot_S320000x256_S256x256_S320000x256_1_0_0_1_n_n 256 rfl rfl).symm k) = ix2 k q :=
    funext fun d => Fin.ext (by
      match d with
      | ⟨0, _⟩ => exact (rr0 _ _).trans hk
      | ⟨1, _⟩ => exact rr1 _ _)
  rw [el, er]

/-- The layer, grouped as the kernel groups it, at (r, q). -/
theorem layerKer_apply (mv ar h : FVec Ideal Cert.ReferenceIdeal.S320000x256 .f32) (wt : FVec Ideal Cert.ReferenceIdeal.S256x256 .f32)
    (br : FVec Ideal Cert.ReferenceIdeal.S1x256 .f32) (r : Fin 320000) (q : Fin 256) :
    Cert.ReferenceIdeal.Spec.layerKer (F := Ideal) mv ar h wt br (ix2 r q)
      = (h (ix2 r q) + ∑ k : Fin 256, (mv (ix2 r k) - ar (ix2 r k)) * wt (ix2 k q)) + br (ix2 0 q) := by
  unfold Cert.ReferenceIdeal.Spec.layerKer Cert.ReferenceIdeal.Spec.bAll
  rw [ValueIdx.addf_apply, ValueIdx.addf_apply, lin_apply,
    broadcastInDim_apply ![0, 1] Cert.ReferenceIdeal.Gen.bcast_S1x256_S320000x256_0_1 br (ix2 r q) (ix2 0 q) (fun d => by
      match d with
      | ⟨0, _⟩ => rfl
      | ⟨1, _⟩ => rfl)]
  rfl

/-- The positive part of a whole array at an index. -/
theorem relu_apply (x : FVec Ideal Cert.ReferenceIdeal.S320000x256 .f32) (i : Cert.ReferenceIdeal.S320000x256.Idx) :
    Cert.ReferenceIdeal.Spec.relu (F := Ideal) x i = max (x i) (Ideal.ofBits .f32 0x00000000#32) := by
  unfold Cert.ReferenceIdeal.Spec.relu
  rw [ValueIdx.maximumf_apply,
    broadcastInDim_apply ![] Cert.ReferenceIdeal.Gen.bcast_S_S320000x256 (constant (F := Ideal) Cert.ReferenceIdeal.S_ .f32 0x00000000#32) i ValueIdx.ix0 (fun d => d.elim0)]
  rfl

/-! ## From blocks to the arrays -/

theorem hz : (![0, 0] : Fin 2 → Nat) = fun _ => 0 := funext fun a => by fin_cases a <;> rfl

/-- The block index of every window at point t: (t, 0) for the five row-blocked windows, (0, 0) for the matrix and the bias row. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 2) = t.val ∧ win3_6.index t (1 : Fin 2) = 0) :=
  (by decide +kernel : ∀ t : Fin grid3.N, _)

theorem t_lt (t : Fin cfg3.N) : t.val < 160 := by
  have h := t.isLt
  have hN : cfg3.N = 160 := N_3
  omega

/-- Row p of point t's block is row 2000·t + p of the array. -/
abbrev rowOf (t : Fin cfg3.N) (p : Fin 2000) : Fin 320000 := ⟨t.val * 2000 + p.val, by have := t_lt t; omega⟩

/-- Where an entry of point t's block sits in its array, window by window. -/
theorem emb0 (t : Fin cfg3.N) (p : Fin 2000) (q : Fin 256) : ((cfg3.win 0).blk t).view.emb (ix2 p q) = ix2 (rowOf t p) q := by
  obtain ⟨⟨e0, e1⟩, -⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 256 + 1 * q.val = q.val; omega
theorem emb1 (t : Fin cfg3.N) (p : Fin 2000) (q : Fin 256) : ((cfg3.win 1).blk t).view.emb (ix2 p q) = ix2 (rowOf t p) q := by
  obtain ⟨-, ⟨e0, e1⟩, -⟩ := idx_facts t
  funext a; apply Fin.ext
  match a with
  | ⟨0, _⟩ => show win3_1.index t (0 : Fin 2) * 2000 + 1 * p.val = t.val * 2000 + p.val; omega
  | ⟨1, _⟩ => show win3_1.index t (1 : Fin 2) * 256 + 1 * q.val = q.val; omega
theorem emb2 (t : Fin cfg3.N) (p : Fin 2000) (q : Fin 256) : ((cfg3.win 2).blk t).view.emb (ix2 p q) = ix2 (rowOf t p) q := by
  obtain ⟨-, -, ⟨e0, e1⟩, -⟩ := idx_facts t
  funext a; apply Fin.ext
  match a with
  | ⟨0, _⟩ => show win3_2.index t (0 : Fin 2) * 2000 + 1 * p.val = t.val * 2000 + p.val; omega
  | ⟨1, _⟩ => show win3_2.index t (1 : Fin 2) * 256 + 1 * q.val = q.val; omega
theorem emb3 (t : Fin cfg3.N) (k : Fin 256) (q : Fin 256) : ((cfg3.win 3).blk t).view.emb (ix2 k q) = ix2 k q := by
  obtain ⟨-, -, -, ⟨e0, e1⟩, -⟩ := idx_facts t
  funext a; apply Fin.ext
  match a with
  | ⟨0, _⟩ => show win3_3.index t (0 : Fin 2) * 256 + 1 * k.val = k.val; omega
  | ⟨1, _⟩ => show win3_3.index t (1 : Fin 2) * 256 + 1 * q.val = q.val; omega
theorem emb4 (t : Fin cfg3.N) (z : Fin 1) (q : Fin 256) : ((cfg3.win 4).blk t).view.emb (ix2 z q) = ix2 z q := by
  obtain ⟨-, -, -, -, ⟨e0, e1⟩, -⟩ := idx_facts t
  funext a; apply Fin.ext
  match a with
  | ⟨0, _⟩ => show win3_4.index t (0 : Fin 2) * 1 + 1 * z.val = z.val; omega
  | ⟨1, _⟩ => show win3_4.index t (1 : Fin 2) * 256 + 1 * q.val = q.val; omega
theorem emb5 (t : Fin cfg3.N) (p : Fin 2000) (q : Fin 256) : ((cfg3.win 5).blk t).view.emb (ix2 p q) = ix2 (rowOf t p) q := by
  obtain ⟨-, -, -, -, -, ⟨e0, e1⟩, -⟩ := idx_facts t
  funext a; apply Fin.ext
  match a with
  | ⟨0, _⟩ => show win3_5.index t (0 : Fin 2) * 2000 + 1 * p.val = t.val * 2000 + p.val; omega
  | ⟨1, _⟩ => show win3_5.index t (1 : Fin 2) * 256 + 1 * q.val = q.val; omega
theorem emb6 (t : Fin cfg3.N) (p : Fin 2000) (q : Fin 256) : ((cfg3.win 6).blk t).view.emb (ix2 p q) = ix2 (rowOf t p) q := by
  obtain ⟨-, -, -, -, -, -, e0, e1⟩ := idx_facts t
  funext a; apply Fin.ext
  match a with
  | ⟨0, _⟩ => show win3_6.index t (0 : Fin 2) * 2000 + 1 * p.val = t.val * 2000 + p.val; omega
  | ⟨1, _⟩ => show win3_6.index t (1 : Fin 2) * 256 + 1 * q.val = q.val; omega

variable (V : (c : Dev nD) → (b : Ref sig .tc) → Buf (Elt Ideal) ((c : Thread nD τ).loc b))

/-- An entry of an input block is the array's entry where the block sits. -/
theorem blk0_apply (c : Dev nD) (t : Fin cfg3.N) (p : Fin 2000) (q : Fin 256) :
    iblk3 V c 0 t (ix2 p q) = V c (Pipeline.arrRef spec3 0) (ix2 (rowOf t p) q) := by
  show V c (Pipeline.arrRef spec3 0) (((cfg3.win 0).blk t).view.emb (ix2 p q)) = _
  rw [emb0]
theorem blk1_apply (c : Dev nD) (t : Fin cfg3.N) (p : Fin 2000) (q : Fin 256) :
    iblk3 V c 1 t (ix2 p q) = V c (Pipeline.arrRef spec3 1) (ix2 (rowOf t p) q) := by
  show V c (Pipeline.arrRef spec3 1) (((cfg3.win 1).blk t).view.emb (ix2 p q)) = _
  rw [emb1]
theorem blk2_apply (c : Dev nD) (t : Fin cfg3.N) (p : Fin 2000) (q : Fin 256) :
    iblk3 V c 2 t (ix2 p q) = V c (Pipeline.arrRef spec3 2) (ix2 (rowOf t p) q) := by
  show V c (Pipeline.arrRef spec3 2) (((cfg3.win 2).blk t).view.emb (ix2 p q)) = _
  rw [emb2]
theorem blk3_apply (c : Dev nD) (t : Fin cfg3.N) (k : Fin 256) (q : Fin 256) :
    iblk3 V c 3 t (ix2 k q) = V c (Pipeline.arrRef spec3 3) (ix2 k q) := by
  show V c (Pipeline.arrRef spec3 3) (((cfg3.win 3).blk t).view.emb (ix2 k q)) = _
  rw [emb3]
theorem blk4_apply (c : Dev nD) (t : Fin cfg3.N) (z : Fin 1) (q : Fin 256) :
    iblk3 V c 4 t (ix2 z q) = V c (Pipeline.arrRef spec3 4) (ix2 z q) := by
  show V c (Pipeline.arrRef spec3 4) (((cfg3.win 4).blk t).view.emb (ix2 z q)) = _
  rw [emb4]

/-- The first stored block of point t at (p, q) is the layer of the five input arrays at (2000·t + p, q). -/
theorem pay1_blk (c : Dev nD) (t : Fin cfg3.N) (p : Fin 2000) (q : Fin 256) :
    k3_pay1 (iblk3 V c 0 t) (iblk3 V c 1 t) (iblk3 V c 3 t) (iblk3 V c 2 t) (iblk3 V c 4 t) (ix2 p q)
      = Cert.ReferenceIdeal.Spec.layerKer (F := Ideal) (V c (Pipeline.arrRef spec3 0)) (V c (Pipeline.arrRef spec3 1)) (V c (Pipeline.arrRef spec3 2))
          (V c (Pipeline.arrRef spec3 3)) (V c (Pipeline.arrRef spec3 4)) (ix2 (rowOf t p) q) := by
  rw [layerKer_apply]
  exact pay1_apply_of_eq (iblk3 V c 0 t) (iblk3 V c 1 t) (iblk3 V c 2 t) (iblk3 V c 3 t) (iblk3 V c 4 t) p q
    (fun k => V c (Pipeline.arrRef spec3 0) (ix2 (rowOf t p) k)) (fun k => V c (Pipeline.arrRef spec3 1) (ix2 (rowOf t p) k))
    (fun k => V c (Pipeline.arrRef spec3 3) (ix2 k q)) (V c (Pipeline.arrRef spec3 2) (ix2 (rowOf t p) q)) (V c (Pipeline.arrRef spec3 4) (ix2 0 q))
    (fun k => blk0_apply V c t p k) (fun k => blk1_apply V c t p k) (blk2_apply V c t p q) (fun k => blk3_apply V c t k q) (blk4_apply V c t 0 q)

/-- What point t writes back through window 5 is block t of the layer of the five input arrays. -/
theorem flushed5 (c : Dev nD) (t : Fin cfg3.N) :
    (dat3 V c).flushed 5 t = ((cfg3.win 5).blk t).view.read (Elt Ideal)
      (Cert.ReferenceIdeal.Spec.layerKer (F := Ideal) (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k3_pay1 (iblk3 V c 0 t) (iblk3 V c 1 t) (iblk3 V c 3 t) (iblk3 V c 2 t) (iblk3 V c 4 t) (ix2 p q)
    = Cert.ReferenceIdeal.Spec.layerKer (F := Ideal) (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [emb5]
  exact pay1_blk V c t p q

/-- What point t writes back through window 6 is block t of the positive part of that layer. -/
theorem flushed6 (c : Dev nD) (t : Fin cfg3.N) :
    (dat3 V c).flushed 6 t = ((cfg3.win 6).blk t).view.read (Elt Ideal)
      (Cert.ReferenceIdeal.Spec.relu (F := Ideal) (Cert.ReferenceIdeal.Spec.layerKer (F := Ideal) (V c (Pipeline.arrRef spec3 0)) (V c (Pipeline.arrRef spec3 1)) (V c (Pipeline.arrRef spec3 2))
        (V c (Pipeline.arrRef spec3 3)) (V c (Pipeline.arrRef spec3 4)))) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, ValueIdx.eq_ix2 j⟩
  show k3_pay2 (iblk3 V c 0 t) (iblk3 V c 1 t) (iblk3 V c 3 t) (iblk3 V c 2 t) (iblk3 V c 4 t) (ix2 p q)
    = Cert.ReferenceIdeal.Spec.relu (F := Ideal) (Cert.ReferenceIdeal.Spec.layerKer (F := Ideal) (V c (Pipeline.arrRef spec3 0)) (V c (Pipeline.arrRef spec3 1)) (V c (Pipeline.arrRef spec3 2))
        (V c (Pipeline.arrRef spec3 3)) (V c (Pipeline.arrRef spec3 4))) (((cfg3.win 6).blk t).view.emb (ix2 p q))
  rw [emb6, relu_apply, ← pay1_blk V c t p q]
  exact pay2_apply (iblk3 V c 0 t) (iblk3 V c 1 t) (iblk3 V c 2 t) (iblk3 V c 3 t) (iblk3 V c 4 t) p q

/-- An index of the edge array is in point t's block of an output window iff its row is among the block's 2000 rows. -/
theorem mem_blk5 (t : Fin cfg3.N) (i : S320000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v41_0).slice (win3_5.rect t)).set ↔ _
  rw [View.set_slice_whole, Rect.mem_set_unit]
  exact Iff.rfl
theorem mem_blk6 (t : Fin cfg3.N) (i : S320000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v41_1).slice (win3_6.rect t)).set ↔ _
  rw [View.set_slice_whole, Rect.mem_set_unit]
  exact Iff.rfl

/-- Every index lies in the block of the point that holds its row: point (row / 2000). -/
theorem cover5 (i : S320000x256.Idx) : ∃ t : Fin cfg3.N, (cfg3.win 5).flush t = true ∧ i ∈ ((cfg3.win 5).blk t).view.set := by
  have hi0 : (i 0).val < 320000 := (i 0).isLt
  have hi1 : (i 1).val < 256 := (i 1).isLt
  have hN : cfg3.N = 160 := N_3
  refine ⟨⟨(i 0).val / 2000, by rw [hN]; omega⟩, flush3_5 _, ?_⟩
  rw [mem_blk5]
  obtain ⟨-, -, -, -, -, ⟨e0, e1⟩, -⟩ := idx_facts ⟨(i 0).val / 2000, by rw [hN]; omega⟩
  intro a
  match a with
  | ⟨0, _⟩ => show win3_5.index _ (0 : Fin 2) * 2000 ≤ (i 0).val ∧ (i 0).val < win3_5.index _ (0 : Fin 2) * 2000 + 2000; rw [e0]; show (i 0).val / 2000 * 2000 ≤ _ ∧ _ < (i 0).val / 2000 * 2000 + 2000; omega
  | ⟨1, _⟩ => show win3_5.index _ (1 : Fin 2) * 256 ≤ (i 1).val ∧ (i 1).val < win3_5.index _ (1 : Fin 2) * 256 + 256; rw [e1]; omega
theorem cover6 (i : S320000x256.Idx) : ∃ t : Fin cfg3.N, (cfg3.win 6).flush t = true ∧ i ∈ ((cfg3.win 6).blk t).view.set := by
  have hi0 : (i 0).val < 320000 := (i 0).isLt
  have hi1 : (i 1).val < 256 := (i 1).isLt
  have hN : cfg3.N = 160 := N_3
  refine ⟨⟨(i 0).val / 2000, by rw [hN]; omega⟩, flush3_6 _, ?_⟩
  rw [mem_blk6]
  obtain ⟨-, -, -, -, -, -, e0, e1⟩ := idx_facts ⟨(i 0).val / 2000, by rw [hN]; omega⟩
  intro a
  match a with
  | ⟨0, _⟩ => show win3_6.index _ (0 : Fin 2) * 2000 ≤ (i 0).val ∧ (i 0).val < win3_6.index _ (0 : Fin 2) * 2000 + 2000; rw [e0]; show (i 0).val / 2000 * 2000 ≤ _ ∧ _ < (i 0).val / 2000 * 2000 + 2000; omega
  | ⟨1, _⟩ => show win3_6.index _ (1 : Fin 2) * 256 ≤ (i 1).val ∧ (i 1).val < win3_6.index _ (1 : Fin 2) * 256 + 256; rw [e1]; omega

/-- After the launch output array 5 is the layer of the five input arrays as the launch finds them, -/
theorem final3_5 (c : Dev nD) : (dat3 V c).arrAt 5 cfg3.N =
    Cert.ReferenceIdeal.Spec.layerKer (F := Ideal) (V c (Pipeline.arrRef spec3 0)) (V c (Pipeline.arrRef spec3 1)) (V c (Pipeline.arrRef spec3 2))
      (V c (Pipeline.arrRef spec3 3)) (V c (Pipeline.arrRef spec3 4)) :=
  (dat3 V c).arrAt_eq_of_cover 5 _ (fun t _ => flushed5 V c t) cover5

/-- and output array 6 its positive part. -/
theorem final3_6 (c : Dev nD) : (dat3 V c).arrAt 6 cfg3.N =
    Cert.ReferenceIdeal.Spec.relu (F := Ideal) (Cert.ReferenceIdeal.Spec.layerKer (F := Ideal) (V c (Pipeline.arrRef spec3 0)) (V c (Pipeline.arrRef spec3 1)) (V c (Pipeline.arrRef spec3 2))
      (V c (Pipeline.arrRef spec3 3)) (V c (Pipeline.arrRef spec3 4))) :=
  (dat3 V c).arrAt_eq_of_cover 6 _ (fun t _ => flushed6 V c t) cover6

end Cert.KernelIdeal.Hand3

end
-- ==== Proof.KLayer3.lean ====
/-
  One layer of the kernel's @main between two launches, read as whole arrays. From the buffers as the previous launch
  left them — the hidden edge states h and their positive part a, the source and destination node of every edge, the
  reverse-edge indices and the layer's weights — the host operations compute the per-node sums of a's rows by destination,
  take them back at the sources, take a's rows at the reverse edges, transpose the layer's weight matrix and lay its bias
  as a row; the launch then writes (h + (taken sums − taken rows) · Wᵀ) + b and its positive part. With every source index
  a node and every reverse index an edge the kernel's takes are plain gathers, and the new state is the reference's
  h + ((taken sums − taken rows) · Wᵀ + b): addition of extended reals is associative.
-/
import proofs.«415223_j55130200212263_1_alg».proof.Proof.Gen.KernelIdeal.Frame
import proofs.«415223_j55130200212263_1_alg».proof.Proof.RSpec
import proofs.«415223_j55130200212263_1_alg».proof.Proof.TakeFill
import proofs.«415223_j55130200212263_1_alg».proof.Proof.Region3Value
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe Idealize.SL.Sem Idealize.ShloMosaic.StableHlo

namespace Cert.KernelIdeal.HandLayer3

open Cert.KernelIdeal Cert.KernelIdeal.Gen Cert.KernelIdeal.HandTake
open Cert.ReferenceIdeal (Spec.srcOf Spec.destOf Spec.takeNode Spec.takeEdge Spec.segSum Spec.relu Spec.layerKer Spec.layerRef Spec.stepRef Spec.wT2 Spec.bRow2)

/-- A buffer that no operation of a host stretch writes holds after the stretch what it held before. -/
local macro "keep_host " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The host stretches, each from any contents `X` of the buffers -/

section Stretches
variable (X : Valuation τ sig (Elt Ideal))

set_option maxHeartbeats 4000000 in
/-- The per-node sums: the positive parts' rows added into their destination node's row, from zero. -/
theorem sums_eq : (StableHlo.after hostOps3 X (Proc.devRef .tc main_v32) : FVec Ideal S100000x256 .f32)
    = Cert.ReferenceIdeal.Spec.segSum (F := Ideal) (X (Proc.devRef .tc main_v29_1)) (X (Proc.devRef .tc main_v3)) := by
  after_results_simp
  try simp only [TRef.toBuf, TRef.ofBuf, cast_eq]
  rfl

set_option maxHeartbeats 4000000 in
/-- The sums taken back at the edges' source nodes (the kernel's take). -/
theorem takeSums_eq : (StableHlo.after hostOps3_1 X (Proc.devRef .tc main_v33) : FVec Ideal S320000x256 .f32)
    = takeNodeK (F := Ideal) (X (Proc.devRef .tc main_v32)) (X (Proc.devRef .tc main_v1)) := by
  after_results_simp
  simp only [TRef.toBuf, TRef.ofBuf, cast_eq]
  rfl

set_option maxHeartbeats 4000000 in
/-- The positive parts taken at the reverse edges (the kernel's take). -/
theorem takeRev_eq : (StableHlo.after hostOps3_2 X (Proc.devRef .tc main_v34) : FVec Ideal S320000x256 .f32)
    = takeEdgeK (F := Ideal) (X (Proc.devRef .tc main_v29_1)) (X (Proc.devRef .tc main_arg5)) := by
  after_results_simp
  simp only [TRef.toBuf, TRef.ofBuf, cast_eq]
  rfl

set_option maxHeartbeats 4000000 in
/-- The layer's weight matrix transposed. -/
theorem wT_eq : (StableHlo.after hostOps3_3 X (Proc.devRef .tc main_v37) : FVec Ideal S256x256 .f32)
    = Cert.ReferenceIdeal.Spec.wT2 (F := Ideal) (X (Proc.devRef .tc main_arg2)) := by
  after_results_simp
  try simp only [TRef.toBuf, TRef.ofBuf, cast_eq]
  rfl

set_option maxHeartbeats 4000000 in
/-- The layer's bias as one row. -/
theorem bRow_eq : (StableHlo.after hostOps3_3 X (Proc.devRef .tc main_v40) : FVec Ideal S1x256 .f32)
    = Cert.ReferenceIdeal.Spec.bRow2 (F := Ideal) (X (Proc.devRef .tc main_arg3)) := by
  after_results_simp
  try simp only [TRef.toBuf, TRef.ofBuf, cast_eq]
  rfl

end Stretches

/-! ## The layer over the run's boundaries -/

variable (m : (ℓ : Loc nD τ sig) → Buf (Elt Ideal) ℓ) (ρ : Dev nD → PrngReg)

/-- What the four stretches do not write reaches the launch as the previous launch left it. -/
theorem keep_v1 (c : Dev nD) : W17 m ρ c (Proc.devRef .tc main_v1) = W13 m ρ c (Proc.devRef .tc main_v1) :=
  calc W17 m ρ c (Proc.devRef .tc main_v1)
    _ = W16 m ρ c (Proc.devRef .tc main_v1) := by keep_host hostOps3_3
    _ = W15 m ρ c (Proc.devRef .tc main_v1) := by keep_host hostOps3_2
    _ = W14 m ρ c (Proc.devRef .tc main_v1) := by keep_host hostOps3_1
    _ = W13 m ρ c (Proc.devRef .tc main_v1) := by keep_host hostOps3
theorem keep_v3 (c : Dev nD) : W17 m ρ c (Proc.devRef .tc main_v3) = W13 m ρ c (Proc.devRef .tc main_v3) :=
  calc W17 m ρ c (Proc.devRef .tc main_v3)
    _ = W16 m ρ c (Proc.devRef .tc main_v3) := by keep_host hostOps3_3
    _ = W15 m ρ c (Proc.devRef .tc main_v3) := by keep_host hostOps3_2
    _ = W14 m ρ c (Proc.devRef .tc main_v3) := by keep_host hostOps3_1
    _ = W13 m ρ c (Proc.devRef .tc main_v3) := by keep_host hostOps3
theorem keep_arg5 (c : Dev nD) : W17 m ρ c (Proc.devRef .tc main_arg5) = W13 m ρ c (Proc.devRef .tc main_arg5) :=
  calc W17 m ρ c (Proc.devRef .tc main_arg5)
    _ = W16 m ρ c (Proc.devRef .tc main_arg5) := by keep_host hostOps3_3
    _ = W15 m ρ c (Proc.devRef .tc main_arg5) := by keep_host hostOps3_2
    _ = W14 m ρ c (Proc.devRef .tc main_arg5) := by keep_host hostOps3_1
    _ = W13 m ρ c (Proc.devRef .tc main_arg5) := by keep_host hostOps3
theorem keep_arg2 (c : Dev nD) : W17 m ρ c (Proc.devRef .tc main_arg2) = W13 m ρ c (Proc.devRef .tc main_arg2) :=
  calc W17 m ρ c (Proc.devRef .tc main_arg2)
    _ = W16 m ρ c (Proc.devRef .tc main_arg2) := by keep_host hostOps3_3
    _ = W15 m ρ c (Proc.devRef .tc main_arg2) := by keep_host hostOps3_2
    _ = W14 m ρ c (Proc.devRef .tc main_arg2) := by keep_host hostOps3_1
    _ = W13 m ρ c (Proc.devRef .tc main_arg2) := by keep_host hostOps3
theorem keep_arg3 (c : Dev nD) : W17 m ρ c (Proc.devRef .tc main_arg3) = W13 m ρ c (Proc.devRef .tc main_arg3) :=
  calc W17 m ρ c (Proc.devRef .tc main_arg3)
    _ = W16 m ρ c (Proc.devRef .tc main_arg3) := by keep_host hostOps3_3
    _ = W15 m ρ c (Proc.devRef .tc main_arg3) := by keep_host hostOps3_2
    _ = W14 m ρ c (Proc.devRef .tc main_arg3) := by keep_host hostOps3_1
    _ = W13 m ρ c (Proc.devRef .tc main_arg3) := by keep_host hostOps3
theorem keep_h (c : Dev nD) : W17 m ρ c (Proc.devRef .tc main_v29_0) = W13 m ρ c (Proc.devRef .tc main_v29_0) :=
  calc W17 m ρ c (Proc.devRef .tc main_v29_0)
    _ = W16 m ρ c (Proc.devRef .tc main_v29_0) := by keep_host hostOps3_3
    _ = W15 m ρ c (Proc.devRef .tc main_v29_0) := by keep_host hostOps3_2
    _ = W14 m ρ c (Proc.devRef .tc main_v29_0) := by keep_host hostOps3_1
    _ = W13 m ρ c (Proc.devRef .tc main_v29_0) := by keep_host hostOps3

/-- The launch's first window: the per-node sums of the previous positive parts, taken at the sources. -/
theorem win0_eq (c : Dev nD) : (W17 m ρ c (Proc.devRef .tc main_v33) : FVec Ideal S320000x256 .f32)
    = takeNodeK (F := Ideal) (Cert.ReferenceIdeal.Spec.segSum (F := Ideal) (W13 m ρ c (Proc.devRef .tc main_v29_1)) (W13 m ρ c (Proc.devRef .tc main_v3)))
        (W13 m ρ c (Proc.devRef .tc main_v1)) := by
  have e1 : W17 m ρ c (Proc.devRef .tc main_v33) = W15 m ρ c (Proc.devRef .tc main_v33) :=
    calc W17 m ρ c (Proc.devRef .tc main_v33)
      _ = W16 m ρ c (Proc.devRef .tc main_v33) := by keep_host hostOps3_3
      _ = W15 m ρ c (Proc.devRef .tc main_v33) := by keep_host hostOps3_2
  have e2 : W14 m ρ c (Proc.devRef .tc main_v1) = W13 m ρ c (Proc.devRef .tc main_v1) := by keep_host hostOps3
  have e3 : (W14 m ρ c (Proc.devRef .tc main_v32) : FVec Ideal S100000x256 .f32)
      = Cert.ReferenceIdeal.Spec.segSum (F := Ideal) (W13 m ρ c (Proc.devRef .tc main_v29_1)) (W13 m ρ c (Proc.devRef .tc main_v3)) := sums_eq (W13 m ρ c)
  have e4 : (W15 m ρ c (Proc.devRef .tc main_v33) : FVec Ideal S320000x256 .f32)
      = takeNodeK (F := Ideal) (W14 m ρ c (Proc.devRef .tc main_v32)) (W14 m ρ c (Proc.devRef .tc main_v1)) := takeSums_eq (W14 m ρ c)
  rw [e1, e4, e3, e2]

/-- The second window: the previous positive parts taken at the reverse edges. -/
theorem win1_eq (c : Dev nD) : (W17 m ρ c (Proc.devRef .tc main_v34) : FVec Ideal S320000x256 .f32)
    = takeEdgeK (F := Ideal) (W13 m ρ c (Proc.devRef .tc main_v29_1)) (W13 m ρ c (Proc.devRef .tc main_arg5)) := by
  have e1 : W17 m ρ c (Proc.devRef .tc main_v34) = W16 m ρ c (Proc.devRef .tc main_v34) := by keep_host hostOps3_3
  have e2 : W15 m ρ c (Proc.devRef .tc main_v29_1) = W13 m ρ c (Proc.devRef .tc main_v29_1) :=
    calc W15 m ρ c (Proc.devRef .tc main_v29_1)
      _ = W14 m ρ c (Proc.devRef .tc main_v29_1) := by keep_host hostOps3_1
      _ = W13 m ρ c (Proc.devRef .tc main_v29_1) := by keep_host hostOps3
  have e3 : W15 m ρ c (Proc.devRef .tc main_arg5) = W13 m ρ c (Proc.devRef .tc main_arg5) :=
    calc W15 m ρ c (Proc.devRef .tc main_arg5)
      _ = W14 m ρ c (Proc.devRef .tc main_arg5) := by keep_host hostOps3_1
      _ = W13 m ρ c (Proc.devRef .tc main_arg5) := by keep_host hostOps3
  have e4 : (W16 m ρ c (Proc.devRef .tc main_v34) : FVec Ideal S320000x256 .f32)
      = takeEdgeK (F := Ideal) (W15 m ρ c (Proc.devRef .tc main_v29_1)) (W15 m ρ c (Proc.devRef .tc main_arg5)) := takeRev_eq (W15 m ρ c)
  rw [e1, e4, e2, e3]

/-- The fourth and fifth windows: the transposed weights and the bias row. -/
theorem win3_eq (c : Dev nD) : (W17 m ρ c (Proc.devRef .tc main_v37) : FVec Ideal S256x256 .f32)
    = Cert.ReferenceIdeal.Spec.wT2 (F := Ideal) (W13 m ρ c (Proc.devRef .tc main_arg2)) := by
  have e : W16 m ρ c (Proc.devRef .tc main_arg2) = W13 m ρ c (Proc.devRef .tc main_arg2) :=
    calc W16 m ρ c (Proc.devRef .tc main_arg2)
      _ = W15 m ρ c (Proc.devRef .tc main_arg2) := by keep_host hostOps3_2
      _ = W14 m ρ c (Proc.devRef .tc main_arg2) := by keep_host hostOps3_1
      _ = W13 m ρ c (Proc.devRef .tc main_arg2) := by keep_host hostOps3
  have e4 : (W17 m ρ c (Proc.devRef .tc main_v37) : FVec Ideal S256x256 .f32)
      = Cert.ReferenceIdeal.Spec.wT2 (F := Ideal) (W16 m ρ c (Proc.devRef .tc main_arg2)) := wT_eq (W16 m ρ c)
  rw [e4, e]
theorem win4_eq (c : Dev nD) : (W17 m ρ c (Proc.devRef .tc main_v40) : FVec Ideal S1x256 .f32)
    = Cert.ReferenceIdeal.Spec.bRow2 (F := Ideal) (W13 m ρ c (Proc.devRef .tc main_arg3)) := by
  have e : W16 m ρ c (Proc.devRef .tc main_arg3) = W13 m ρ c (Proc.devRef .tc main_arg3) :=
    calc W16 m ρ c (Proc.devRef .tc main_arg3)
      _ = W15 m ρ c (Proc.devRef .tc main_arg3) := by keep_host hostOps3_2
      _ = W14 m ρ c (Proc.devRef .tc main_arg3) := by keep_host hostOps3_1
      _ = W13 m ρ c (Proc.devRef .tc main_arg3) := by keep_host hostOps3
  have e4 : (W17 m ρ c (Proc.devRef .tc main_v40) : FVec Ideal S1x256 .f32)
      = Cert.ReferenceIdeal.Spec.bRow2 (F := Ideal) (W16 m ρ c (Proc.devRef .tc main_arg3)) := bRow_eq (W16 m ρ c)
  rw [e4, e]

/-- Addition of extended reals is associative: the kernel's grouping of one layer is the reference's. -/
theorem layerKer_eq (mv ar h : FVec Ideal Cert.ReferenceIdeal.S320000x256 .f32) (wt : FVec Ideal Cert.ReferenceIdeal.S256x256 .f32)
    (br : FVec Ideal Cert.ReferenceIdeal.S1x256 .f32) :
    Cert.ReferenceIdeal.Spec.layerKer mv ar h wt br = Cert.ReferenceIdeal.Spec.layerRef mv ar h wt br := by
  funext i
  show (h i + _) + _ = h i + (_ + _)
  exact add_assoc _ _ _

set_option maxHeartbeats 4000000 in
/-- THE LAYER. If the previous launch left the hidden states `hp` and their positive part, and the index tables and weights
    are the arguments', then this launch leaves the reference's next hidden states and their positive part, the tables and
    weights still in place. -/
theorem layer (c : Dev nD) (hp : FVec Ideal S320000x256 .f32) (ei : IVec S2x320000 32) (rev : IVec S320000 32)
    (w : FVec Ideal S3x256x256 .f32) (b : FVec Ideal S3x256 .f32)
    (hs : InRange 100000#32 (Cert.ReferenceIdeal.Spec.srcOf ei)) (hr : InRange 320000#32 rev)
    (e1 : W13 m ρ c (Proc.devRef .tc main_v1) = Cert.ReferenceIdeal.Spec.srcOf ei)
    (e3 : W13 m ρ c (Proc.devRef .tc main_v3) = Cert.ReferenceIdeal.Spec.destOf ei)
    (e5 : W13 m ρ c (Proc.devRef .tc main_arg5) = rev)
    (e2 : W13 m ρ c (Proc.devRef .tc main_arg2) = w)
    (e4 : W13 m ρ c (Proc.devRef .tc main_arg3) = b)
    (eh : W13 m ρ c (Proc.devRef .tc main_v29_0) = hp)
    (ea : W13 m ρ c (Proc.devRef .tc main_v29_1) = Cert.ReferenceIdeal.Spec.relu (F := Ideal) hp) :
    W18 m ρ c (Proc.devRef .tc main_v1) = Cert.ReferenceIdeal.Spec.srcOf ei
    ∧ W18 m ρ c (Proc.devRef .tc main_v3) = Cert.ReferenceIdeal.Spec.destOf ei
    ∧ W18 m ρ c (Proc.devRef .tc main_arg5) = rev
    ∧ W18 m ρ c (Proc.devRef .tc main_arg2) = w
    ∧ W18 m ρ c (Proc.devRef .tc main_arg3) = b
    ∧ W18 m ρ c (Proc.devRef .tc main_v41_0) = Cert.ReferenceIdeal.Spec.stepRef (F := Ideal) hp ei rev (Cert.ReferenceIdeal.Spec.wT2 w) (Cert.ReferenceIdeal.Spec.bRow2 b)
    ∧ W18 m ρ c (Proc.devRef .tc main_v41_1) = Cert.ReferenceIdeal.Spec.relu (F := Ideal)
        (Cert.ReferenceIdeal.Spec.stepRef (F := Ideal) hp ei rev (Cert.ReferenceIdeal.Spec.wT2 w) (Cert.ReferenceIdeal.Spec.bRow2 b)) := by
  have k0 : (V17 m ρ c (Pipeline.arrRef spec3 0) : FVec Ideal S320000x256 .f32)
      = Cert.ReferenceIdeal.Spec.takeNode (F := Ideal) (Cert.ReferenceIdeal.Spec.segSum (F := Ideal) (Cert.ReferenceIdeal.Spec.relu (F := Ideal) hp) (Cert.ReferenceIdeal.Spec.destOf ei)) (Cert.ReferenceIdeal.Spec.srcOf ei) := by
    show W17 m ρ c (Proc.devRef .tc main_v33) = _
    rw [win0_eq, ea, e3, e1, takeNodeK_eq _ _ hs]
  have k1 : (V17 m ρ c (Pipeline.arrRef spec3 1) : FVec Ideal S320000x256 .f32)
      = Cert.ReferenceIdeal.Spec.takeEdge (F := Ideal) (Cert.ReferenceIdeal.Spec.relu (F := Ideal) hp) rev := by
    show W17 m ρ c (Proc.devRef .tc main_v34) = _
    rw [win1_eq, ea, e5, takeEdgeK_eq _ _ hr]
  have k2 : (V17 m ρ c (Pipeline.arrRef spec3 2) : FVec Ideal S320000x256 .f32) = hp := by
    show W17 m ρ c (Proc.devRef .tc main_v29_0) = _
    rw [keep_h, eh]
  have k3 : (V17 m ρ c (Pipeline.arrRef spec3 3) : FVec Ideal S256x256 .f32) = Cert.ReferenceIdeal.Spec.wT2 (F := Ideal) w := by
    show W17 m ρ c (Proc.devRef .tc main_v37) = _
    rw [win3_eq, e2]
  have k4 : (V17 m ρ c (Pipeline.arrRef spec3 4) : FVec Ideal S1x256 .f32) = Cert.ReferenceIdeal.Spec.bRow2 (F := Ideal) b := by
    show W17 m ρ c (Proc.devRef .tc main_v40) = _
    rw [win4_eq, e4]
  have hH : W18 m ρ c (Proc.devRef .tc main_v41_0) = Cert.ReferenceIdeal.Spec.stepRef (F := Ideal) hp ei rev (Cert.ReferenceIdeal.Spec.wT2 w) (Cert.ReferenceIdeal.Spec.bRow2 b) := by
    refine ((W18_arr m ρ c 5).trans (Cert.KernelIdeal.Hand3.final3_5 (V17 m ρ) c)).trans ?_
    rw [k0, k1, k2, k3, k4, layerKer_eq]
    rfl
  have hA : W18 m ρ c (Proc.devRef .tc main_v41_1) = Cert.ReferenceIdeal.Spec.relu (F := Ideal)
      (Cert.ReferenceIdeal.Spec.stepRef (F := Ideal) hp ei rev (Cert.ReferenceIdeal.Spec.wT2 w) (Cert.ReferenceIdeal.Spec.bRow2 b)) := by
    refine ((W18_arr m ρ c 6).trans (Cert.KernelIdeal.Hand3.final3_6 (V17 m ρ) c)).trans ?_
    rw [k0, k1, k2, k3, k4, layerKer_eq]
    rfl
  refine ⟨?_, ?_, ?_, ?_, ?_, hH, hA⟩
  · rw [W18_of_ne m ρ c main_v1 (by decide), keep_v1, e1]
  · rw [W18_of_ne m ρ c main_v3 (by decide), keep_v3, e3]
  · rw [W18_of_ne m ρ c main_arg5 (by decide), keep_arg5, e5]
  · rw [W18_of_ne m ρ c main_arg2 (by decide), keep_arg2, e2]
  · rw [W18_of_ne m ρ c main_arg3 (by decide), keep_arg3, e4]

end Cert.KernelIdeal.HandLayer3

end
-- ==== Proof.KFinal.lean ====
/-
  The kernel's @main from its first host operation to its last, read as whole arrays: the start, the three layers and the
  closing sum of the last hidden states' rows by source node. Under the range hypotheses on the two index inputs the two
  result buffers end at the reference's third hidden state of the argument arrays and at its rows summed by source node.
-/
import proofs.«415223_j55130200212263_1_alg».proof.Proof.KInit
import proofs.«415223_j55130200212263_1_alg».proof.Proof.KLayer1
import proofs.«415223_j55130200212263_1_alg».proof.Proof.KLayer2
import proofs.«415223_j55130200212263_1_alg».proof.Proof.KLayer3

set_option maxRecDepth 16384

noncomputable section

open Idealize.ShloMosaic Idealize.ShloMosaic.TcCoe Idealize.SL.Sem Idealize.ShloMosaic.StableHlo

namespace Cert.KernelIdeal.HandFinal

open Cert.KernelIdeal Cert.KernelIdeal.Gen Cert.KernelIdeal.HandTake

/-- A buffer that no operation of a host stretch writes holds after the stretch what it held before. -/
local macro "keep_host " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

set_option maxHeartbeats 4000000 in
/-- The closing stretch from any contents: the last hidden states' rows summed into their source node's row, from zero. -/
theorem vout_eq (X : Valuation τ sig (Elt Ideal)) : (StableHlo.after hostOps4 X (Proc.devRef .tc main_v44) : FVec Ideal S100000x256 .f32)
    = Cert.ReferenceIdeal.Spec.segSum (F := Ideal) (X (Proc.devRef .tc main_v41_0)) (X (Proc.devRef .tc main_v1)) := by
  after_results_simp
  try simp only [TRef.toBuf, TRef.ofBuf, cast_eq]
  rfl

variable (m : (ℓ : Loc nD τ sig) → Buf (Elt Ideal) ℓ) (ρ : Dev nD → PrngReg)

set_option maxHeartbeats 4000000 in
/-- THE KERNEL'S RESULTS. With every source index a node and every reverse index an edge, the second result buffer ends at
    the reference's hidden edge states after the third layer, the first at their rows summed by source node. -/
theorem results (c : Dev nD)
    (hs : InRange 100000#32 (Cert.ReferenceIdeal.Spec.srcOf (m ((c.tc : Thread nD τ).loc main_arg4))))
    (hr : InRange 320000#32 (m ((c.tc : Thread nD τ).loc main_arg5))) :
    W19 m ρ c (Proc.devRef .tc main_v44) = Cert.ReferenceIdeal.Spec.vOut (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
    ∧ W19 m ρ c (Proc.devRef .tc main_v41_0) = Cert.ReferenceIdeal.Spec.h3 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) := by
  obtain ⟨a1, a3, a5, a2, a4, ah, aa⟩ := Cert.KernelIdeal.HandInit.init m ρ c hs
  obtain ⟨b1, b3, b5, b2, b4, bh, ba⟩ := Cert.KernelIdeal.HandLayer1.layer m ρ c _ _ _ _ _ hs hr a1 a3 a5 a2 a4 ah aa
  obtain ⟨c1, c3, c5, c2, c4, ch, ca⟩ := Cert.KernelIdeal.HandLayer2.layer m ρ c _ _ _ _ _ hs hr b1 b3 b5 b2 b4 bh ba
  obtain ⟨d1, d3, d5, d2, d4, dh, da⟩ := Cert.KernelIdeal.HandLayer3.layer m ρ c _ _ _ _ _ hs hr c1 c3 c5 c2 c4 ch ca
  have eh : W19 m ρ c (Proc.devRef .tc main_v41_0) = W18 m ρ c (Proc.devRef .tc main_v41_0) := by keep_host hostOps4
  have ev : (W19 m ρ c (Proc.devRef .tc main_v44) : FVec Ideal S100000x256 .f32)
      = Cert.ReferenceIdeal.Spec.segSum (F := Ideal) (W18 m ρ c (Proc.devRef .tc main_v41_0)) (W18 m ρ c (Proc.devRef .tc main_v1)) := vout_eq (W18 m ρ c)
  refine ⟨?_, ?_⟩
  · rw [ev, dh, d1]
    rfl
  · rw [eh, dh]
    rfl

end Cert.KernelIdeal.HandFinal

end
-- ==== Proof.RefSide.lean ====
/-
  The reference's two results, as its generated run states them, are the staged message passing of the specification:
  the second result the hidden edge states after the third layer, the first their rows summed by source node.
-/
import proofs.«415223_j55130200212263_1_alg».proof.Defs
import proofs.«415223_j55130200212263_1_alg».proof.Proof.Gen.ReferenceIdeal.Run
import proofs.«415223_j55130200212263_1_alg».proof.Proof.RSpec

set_option maxRecDepth 16384

noncomputable section

namespace Cert.ReferenceIdeal.RefValue

open Cert.ReferenceIdeal Cert.ReferenceIdeal.Gen Cert.ReferenceIdeal.Value Cert.ReferenceIdeal.Spec
open Idealize.ShloMosaic Idealize.ShloMosaic.TcCoe Idealize.SL.Sem

variable {F : FTy → Type} [FloatOps F]

/-- The run's term of the second result is the specification's third hidden state of the argument arrays. -/
theorem out1_eq (m : (ℓ : Loc nD τ sig) → Buf (Elt F) ℓ) (c : Dev nD) :
    res_main_v98 m c = h3 (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v98
  rfl

/-- The run's term of the first result is that state's rows summed by source node. -/
theorem out0_eq (m : (ℓ : Loc nD τ sig) → Buf (Elt F) ℓ) (c : Dev nD) :
    res_main_v101 m c = vOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v101
  rfl

end Cert.ReferenceIdeal.RefValue

end
-- ==== Proof.lean ====
/-
  The certificate of one message-passing block on a bidirected graph: 100000 nodes and 320000 directed edges with 256
  features each, every edge with its source, its destination and its reverse edge, three layers of weights.
  The kernel program gathers rows on the host (a take that fills out-of-range rows), and runs four launches: the first forms
  the hidden edge states H₀ = V[src] + E and their positive part; each of the three others, from the per-node sums of the
  positive parts taken back at the sources (M[src]) and the positive parts at the reverse edges (A[rev]), writes
  (H + (M[src] − A[rev]) · Wᵀ) + b and its positive part; the node output is the last H's rows summed by source.
  The reference computes H + ((M[src] − A[rev]) · Wᵀ + b) with plain gathers. Under the precondition — finite float inputs, and
  every source index a node and every reverse index an edge — the kernel's takes are the reference's gathers, at the ideal values
  the bf16 product into a zero accumulator is the exact product, and the two groupings of the sum agree because addition of
  extended reals is associative: the two programs end with the same two result arrays.
  The three frames are the generated ones (the reference's its generated run with the results dropped); the idealization
  rewrote nothing, so `preserves` is trivial.
-/
import proofs.«415223_j55130200212263_1_alg».proof.Defs
import proofs.«415223_j55130200212263_1_alg».proof.Proof.Gen.Kernel
import proofs.«415223_j55130200212263_1_alg».proof.Proof.Gen.Kernel.Skeleton
import proofs.«415223_j55130200212263_1_alg».proof.Proof.Gen.Kernel.Launch
import proofs.«415223_j55130200212263_1_alg».proof.Proof.Gen.Kernel.Points
import proofs.«415223_j55130200212263_1_alg».proof.Proof.Gen.Kernel.Frame
import proofs.«415223_j55130200212263_1_alg».proof.Proof.Gen.KernelIdeal
import proofs.«415223_j55130200212263_1_alg».proof.Proof.Gen.KernelIdeal.Skeleton
import proofs.«415223_j55130200212263_1_alg».proof.Proof.Gen.KernelIdeal.Launch
import proofs.«415223_j55130200212263_1_alg».proof.Proof.Gen.KernelIdeal.Points
import proofs.«415223_j55130200212263_1_alg».proof.Proof.Gen.KernelIdeal.Frame
import proofs.«415223_j55130200212263_1_alg».proof.Proof.Gen.ReferenceIdeal
import proofs.«415223_j55130200212263_1_alg».proof.Proof.Gen.ReferenceIdeal.Run
import proofs.«415223_j55130200212263_1_alg».proof.Proof.Gen.Pre_finite_inputs
import proofs.«415223_j55130200212263_1_alg».proof.Proof.KRun
import proofs.«415223_j55130200212263_1_alg».proof.Proof.KFinal
import proofs.«415223_j55130200212263_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the node output `vOut` and the hidden edge states `h3` of the argument arrays: the kernel's run by
    its host chain and launches read as whole arrays (under the index ranges the precondition gives), the reference's by its
    generated run, whose two terms are those functions; the two memories agree on the arguments. -/
theorem algebraic : Cert.algebraic_KernelIdeal_ReferenceIdeal := by
  intro m ρ m' ρ' hpre hagree
  refine ⟨fun c => Cert.ReferenceIdeal.Spec.vOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.ReferenceIdeal.Spec.h3 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunNamed.run (F := Ideal) m ρ)
    obtain ⟨hs, hr⟩ := Cert.KernelIdeal.HandTake.inRange_of_pre m hpre c
    obtain ⟨r0, r1⟩ := Cert.KernelIdeal.HandFinal.results m ρ c hs hr
    exact ⟨(h c).1.trans r0, (h c).2.1.trans r1, (h c).2.2⟩
  · refine (θ_run Cert.ReferenceIdeal.defs _ _).mono (fun r h c => ?_) (Cert.ReferenceIdeal.Value.run (F := Ideal) m' ρ')
    obtain ⟨g0, g1, g2, g3, g4, g5⟩ := hagree c
    refine ⟨(h c).1.trans ?_, (h c).2.1.trans ?_, (h c).2.2⟩
    · rw [Cert.ReferenceIdeal.RefValue.out0_eq, g0, g1, g2, g3, g4, g5]
    · rw [Cert.ReferenceIdeal.RefValue.out1_eq, g0, g1, g2, g3, g4, g5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
